-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x273x360 : Shape := ⟨3, ![256, 273, 360]⟩
abbrev S256 : Shape := ⟨1, ![256]⟩
abbrev S128x273x273 : Shape := ⟨3, ![128, 273, 273]⟩
abbrev S_ : Shape := ⟨0, ![]⟩

class Facts : Prop where
  bcast_S_S256x273x360 : S_.BroadcastsInDim S256x273x360 (![] : Fin 0 → Fin S256x273x360.rank)
  reducesTo_S256x273x360_S_d0_1_2 : S256x273x360.ReducesTo [0, 1, 2] S_
  h_S_ : 0 < S_.numel
  bcast_S_S128x273x273 : S_.BroadcastsInDim S128x273x273 (![] : Fin 0 → Fin S128x273x273.rank)
  reducesTo_S128x273x273_S_d0_1_2 : S128x273x273.ReducesTo [0, 1, 2] S_
  bcast_S_S256 : S_.BroadcastsInDim S256 (![] : Fin 0 → Fin S256.rank)
  reducesTo_S256_S_d0 : S256.ReducesTo [0] S_

variable [Facts]

def fn {F : FTy → Type} [FloatOps F] (main_arg0 : FVec F S256x273x360 .f32) (main_arg1 : IVec S256 32) (main_arg2 : FVec F S128x273x273 .f32) : IVec S_ 1 :=
  let main_v0 : FVec F S256x273x360 .f32 := Host.absf main_arg0
  let main_cst : FVec F S_ .f32 := constant S_ .f32 0x7F800000#32
  let main_v1 : FVec F S256x273x360 .f32 := broadcastInDim S256x273x360 ![] bcast_S_S256x273x360 main_cst
  let main_v2 : IVec S256x273x360 1 := cmpf .olt main_v0 main_v1
  let main_c : IVec S_ 1 := constantI S_ 1 1#1
  let main_v3 : IVec S_ 1 := (fun x v => Host.reduce IntOp.andi x v reducesTo_S256x273x360_S_d0_1_2 h_S_) main_v2 main_c
  let main_v4 : FVec F S128x273x273 .f32 := Host.absf main_arg2
  let main_cst_0 : FVec F S_ .f32 := constant S_ .f32 0x7F800000#32
  let main_v5 : FVec F S128x273x273 .f32 := broadcastInDim S128x273x273 ![] bcast_S_S128x273x273 main_cst_0
  let main_v6 : IVec S128x273x273 1 := cmpf .olt main_v4 main_v5
  let main_c_1 : IVec S_ 1 := constantI S_ 1 1#1
  let main_v7 : IVec S_ 1 := (fun x v => Host.reduce IntOp.andi x v reducesTo_S128x273x273_S_d0_1_2 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg1 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  main_v12
-- ==== Kernel.lean ====
abbrev S256x273x360 : Shape := ⟨3, ![256, 273, 360]⟩
abbrev S256 : Shape := ⟨1, ![256]⟩
abbrev S128x273x273 : Shape := ⟨3, ![128, 273, 273]⟩
abbrev S_ : Shape := ⟨0, ![]⟩
abbrev S128x280x384 : Shape := ⟨3, ![128, 280, 384]⟩
abbrev S32x273x360 : Shape := ⟨3, ![32, 273, 360]⟩
abbrev S4x280x384 : Shape := ⟨3, ![4, 280, 384]⟩
abbrev S4 : Shape := ⟨1, ![4]⟩
abbrev S1 : Shape := ⟨1, ![1]⟩
abbrev S1x280x384 : Shape := ⟨3, ![1, 280, 384]⟩
abbrev S280x384 : Shape := ⟨2, ![280, 384]⟩
abbrev S273x384 : Shape := ⟨2, ![273, 384]⟩
abbrev S1x273x360 : Shape := ⟨3, ![1, 273, 360]⟩
abbrev S273x360 : Shape := ⟨2, ![273, 360]⟩
abbrev S384x360 : Shape := ⟨2, ![384, 360]⟩

abbrev nBuf : Space → Nat
  | .hbm => 14
  | .vmem => 5
  | .smem => 1
  | _ => 0

abbrev bufTy : (tb : Table) → Fin (tcTables nBuf tb) → BufTy
  | .hbm, ⟨0, _⟩ => ⟨S256x273x360, .f32⟩
  | .hbm, ⟨1, _⟩ => ⟨S256, .i32⟩
  | .hbm, ⟨2, _⟩ => ⟨S128x273x273, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S_, .i32⟩
  | .hbm, ⟨9, _⟩ => ⟨S256, .i32⟩
  | .hbm, ⟨10, _⟩ => ⟨S_, .i32⟩
  | .hbm, ⟨11, _⟩ => ⟨S_, .f32⟩
  | .hbm, ⟨12, _⟩ => ⟨S128x280x384, .f32⟩
  | .hbm, ⟨13, _⟩ => ⟨S256x273x360, .f32⟩
  | .local _ .vmem, ⟨0, _⟩ => ⟨S32x273x360, .f32⟩
  | .local _ .vmem, ⟨1, _⟩ => ⟨S32x273x360, .f32⟩
  | .local _ .vmem, ⟨2, _⟩ => ⟨S32x273x360, .f32⟩
  | .local _ .vmem, ⟨3, _⟩ => ⟨S32x273x360, .f32⟩
  | .local _ .vmem, ⟨4, _⟩ => ⟨S4x280x384, .f32⟩
  | .local _ .smem, ⟨0, _⟩ => ⟨S256, .i32⟩
  | _, _ => ⟨S256x273x360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_c_1 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0_i32_4 : BitVec 32 := 0#32
  let c0_i32_5 : BitVec 32 := 0#32
  ![v3.toNat, 0, 0]

def k0_chk1 (v3 : BitVec 32) : Prop :=
  (∀ a, (k0_off2 v3) a + S1x280x384.size a ≤ S128x280x384.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x280x384.size a ≤ S128x280x384.size a := fun v3 k0_hw1 => k0_hw1

def k0_off3 (i : grid0.Coords) : Fin 1 → Nat :=
  let arg0 : BitVec 32 := BitVec.ofNat 32 (i 0).val
  let c32_i32 : BitVec 32 := 32#32
  let v0 : BitVec 32 := Scalar.muli arg0 c32_i32
  let c1_i32 : BitVec 32 := 1#32
  let v10 : BitVec 32 := Scalar.addi v0 c1_i32
  let v11 : Index := Scalar.indexCast v10
  ![v11.toNat]
def k0_off4 (v12 : BitVec 32) : Fin 3 → Nat :=
  let c0_i32_10 : BitVec 32 := 0#32
  let c0_i32_11 : BitVec 32 := 0#32
  ![v12.toNat, 0, 0]

def k0_chk2 (v12 : BitVec 32) : Prop :=
  (∀ a, (k0_off4 v12) a + S1x280x384.size a ≤ S128x280x384.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x280x384.size a ≤ S128x280x384.size a := fun v12 k0_hw2 => k0_hw2

def k0_off5 (i : grid0.Coords) : Fin 1 → Nat :=
  let arg0 : BitVec 32 := BitVec.ofNat 32 (i 0).val
  let c32_i32 : BitVec 32 := 32#32
  let v0 : BitVec 32 := Scalar.muli arg0 c32_i32
  let c2_i32 : BitVec 32 := 2#32
  let v19 : BitVec 32 := Scalar.addi v0 c2_i32
  let v20 : Index := Scalar.indexCast v19
  ![v20.toNat]
def k0_off6 (v21 : BitVec 32) : Fin 3 → Nat :=
  let c0_i32_16 : BitVec 32 := 0#32
  let c0_i32_17 : BitVec 32 := 0#32
  ![v21.toNat, 0, 0]

def k0_chk3 (v21 : BitVec 32) : Prop :=
  (∀ a, (k0_off6 v21) a + S1x280x384.size a ≤ S128x280x384.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x280x384.size a ≤ S128x280x384.size a := fun v21 k0_hw3 => k0_hw3

def k0_off7 (c0_i32_18 : BitVec 32) : Fin 1 → Nat :=
  let c4_i32 : BitVec 32 := 4#32
  let c0_i32_19 : BitVec 32 := 0#32
  let v28 : BitVec 1 := Scalar.cmpi .eq c4_i32 c0_i32_19
  let c1_i32_20 : BitVec 32 := 1#32
  let v29 : BitVec 32 := Scalar.select v28 c1_i32_20 c4_i32
  let v30 : BitVec 32 := Scalar.remsi c0_i32_18 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  ![v37.toNat]
def k0_off8 (c0_i32_18 : BitVec 32) : Fin 3 → Nat :=
  let c4_i32 : BitVec 32 := 4#32
  let c0_i32_19 : BitVec 32 := 0#32
  let v28 : BitVec 1 := Scalar.cmpi .eq c4_i32 c0_i32_19
  let c1_i32_20 : BitVec 32 := 1#32
  let v29 : BitVec 32 := Scalar.select v28 c1_i32_20 c4_i32
  let v30 : BitVec 32 := Scalar.remsi c0_i32_18 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c0_i32_25 : BitVec 32 := 0#32
  let c0_i32_26 : BitVec 32 := 0#32
  ![v37.toNat, 0, 0]
def k0_cond1 : BitVec 1 :=
  let c0_i32_18 : BitVec 32 := 0#32
  let c3_i32 : BitVec 32 := 3#32
  let v44 : BitVec 32 := Scalar.addi c0_i32_18 c3_i32
  let c32_i32_29 : BitVec 32 := 32#32
  let v45 : BitVec 1 := Scalar.cmpi .slt v44 c32_i32_29
  let v46 : BitVec 32 := Scalar.extui v45
  let c0_i32_30 : BitVec 32 := 0#32
  let v47 : BitVec 1 := Scalar.cmpi .ne v46 c0_i32_30
  v47

def k0_off9 (i : grid0.Coords) : Fin 1 → Nat :=
  let arg0 : BitVec 32 := BitVec.ofNat 32 (i 0).val
  let c32_i32 : BitVec 32 := 32#32
  let v0 : BitVec 32 := Scalar.muli arg0 c32_i32
  let c0_i32_18 : BitVec 32 := 0#32
  let c3_i32 : BitVec 32 := 3#32
  let v44 : BitVec 32 := Scalar.addi c0_i32_18 c3_i32
  let v1094 : BitVec 32 := Scalar.addi v0 v44
  let v1095 : Index := Scalar.indexCast v1094
  ![v1095.toNat]
def k0_off10 : Fin 1 → Nat :=
  let c0_i32_18 : BitVec 32 := 0#32
  let c3_i32 : BitVec 32 := 3#32
  let v44 : BitVec 32 := Scalar.addi c0_i32_18 c3_i32
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v44 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off11 : Fin 3 → Nat :=
  let c0_i32_18 : BitVec 32 := 0#32
  let c3_i32 : BitVec 32 := 3#32
  let v44 : BitVec 32 := Scalar.addi c0_i32_18 c3_i32
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v44 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off12 (v1096 : BitVec 32) : Fin 3 → Nat :=
  let c0_i32_700 : BitVec 32 := 0#32
  let c0_i32_701 : BitVec 32 := 0#32
  ![v1096.toNat, 0, 0]

def k0_chk4 (v1096 : BitVec 32) : Prop :=
  (∀ (k0_h1 : k0_cond1 = 1#1), ∀ a, (k0_off12 v1096) a + S1x280x384.size a ≤ S128x280x384.size a)
instance k0_chk4.dec : ∀ (v1096 : BitVec 32), Decidable (k0_chk4 v1096) := fun v1096 => decidable_of_iff' _ (Iff.of_eq (k0_chk4.eq_1 v1096))
theorem k0_off12_inb : ∀ (v1096 : BitVec 32) (k0_hw4 : k0_chk4 v1096), ∀ (k0_h1 : k0_cond1 = 1#1), ∀ a, (k0_off12 v1096) a + S1x280x384.size a ≤ S128x280x384.size a := fun v1096 k0_hw4 k0_h1 => k0_hw4 k0_h1

def k0_off13 (c0_i32_18 : BitVec 32) : Fin 3 → Nat :=
  let c4_i32 : BitVec 32 := 4#32
  let c0_i32_19 : BitVec 32 := 0#32
  let v28 : BitVec 1 := Scalar.cmpi .eq c4_i32 c0_i32_19
  let c1_i32_20 : BitVec 32 := 1#32
  let v29 : BitVec 32 := Scalar.select v28 c1_i32_20 c4_i32
  let v30 : BitVec 32 := Scalar.remsi c0_i32_18 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let v48 : Index := Scalar.indexCast v37
  let c0 : Index := 0#32
  let c0_31 : Index := 0#32
  ![v48.toNat, 0, 0]
def k0_cond2 : BitVec 1 :=
  let c1_i32_36 : BitVec 32 := 1#32
  let c3_i32_48 : BitVec 32 := 3#32
  let v77 : BitVec 32 := Scalar.addi c1_i32_36 c3_i32_48
  let c32_i32_49 : BitVec 32 := 32#32
  let v78 : BitVec 1 := Scalar.cmpi .slt v77 c32_i32_49
  let v79 : BitVec 32 := Scalar.extui v78
  let c0_i32_50 : BitVec 32 := 0#32
  let v80 : BitVec 1 := Scalar.cmpi .ne v79 c0_i32_50
  v80

def k0_off14 (i : grid0.Coords) : Fin 1 → Nat :=
  let arg0 : BitVec 32 := BitVec.ofNat 32 (i 0).val
  let c32_i32 : BitVec 32 := 32#32
  let v0 : BitVec 32 := Scalar.muli arg0 c32_i32
  let c1_i32_36 : BitVec 32 := 1#32
  let c3_i32_48 : BitVec 32 := 3#32
  let v77 : BitVec 32 := Scalar.addi c1_i32_36 c3_i32_48
  let v1094 : BitVec 32 := Scalar.addi v0 v77
  let v1095 : Index := Scalar.indexCast v1094
  ![v1095.toNat]
def k0_off15 : Fin 1 → Nat :=
  let c1_i32_36 : BitVec 32 := 1#32
  let c3_i32_48 : BitVec 32 := 3#32
  let v77 : BitVec 32 := Scalar.addi c1_i32_36 c3_i32_48
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v77 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off16 : Fin 3 → Nat :=
  let c1_i32_36 : BitVec 32 := 1#32
  let c3_i32_48 : BitVec 32 := 3#32
  let v77 : BitVec 32 := Scalar.addi c1_i32_36 c3_i32_48
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v77 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off17 (v1096 : BitVec 32) : Fin 3 → Nat :=
  let c0_i32_700 : BitVec 32 := 0#32
  let c0_i32_701 : BitVec 32 := 0#32
  ![v1096.toNat, 0, 0]

def k0_chk5 (v1096 : BitVec 32) : Prop :=
  (∀ (k0_h2 : k0_cond2 = 1#1), ∀ a, (k0_off17 v1096) a + S1x280x384.size a ≤ S128x280x384.size a)
instance k0_chk5.dec : ∀ (v1096 : BitVec 32), Decidable (k0_chk5 v1096) := fun v1096 => decidable_of_iff' _ (Iff.of_eq (k0_chk5.eq_1 v1096))
theorem k0_off17_inb : ∀ (v1096 : BitVec 32) (k0_hw5 : k0_chk5 v1096), ∀ (k0_h2 : k0_cond2 = 1#1), ∀ a, (k0_off17 v1096) a + S1x280x384.size a ≤ S128x280x384.size a := fun v1096 k0_hw5 k0_h2 => k0_hw5 k0_h2

def k0_cond3 : BitVec 1 :=
  let c2_i32_58 : BitVec 32 := 2#32
  let c3_i32_70 : BitVec 32 := 3#32
  let v110 : BitVec 32 := Scalar.addi c2_i32_58 c3_i32_70
  let c32_i32_71 : BitVec 32 := 32#32
  let v111 : BitVec 1 := Scalar.cmpi .slt v110 c32_i32_71
  let v112 : BitVec 32 := Scalar.extui v111
  let c0_i32_72 : BitVec 32 := 0#32
  let v113 : BitVec 1 := Scalar.cmpi .ne v112 c0_i32_72
  v113

def k0_off18 (i : grid0.Coords) : Fin 1 → Nat :=
  let arg0 : BitVec 32 := BitVec.ofNat 32 (i 0).val
  let c32_i32 : BitVec 32 := 32#32
  let v0 : BitVec 32 := Scalar.muli arg0 c32_i32
  let c2_i32_58 : BitVec 32 := 2#32
  let c3_i32_70 : BitVec 32 := 3#32
  let v110 : BitVec 32 := Scalar.addi c2_i32_58 c3_i32_70
  let v1094 : BitVec 32 := Scalar.addi v0 v110
  let v1095 : Index := Scalar.indexCast v1094
  ![v1095.toNat]
def k0_off19 : Fin 1 → Nat :=
  let c2_i32_58 : BitVec 32 := 2#32
  let c3_i32_70 : BitVec 32 := 3#32
  let v110 : BitVec 32 := Scalar.addi c2_i32_58 c3_i32_70
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v110 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off20 : Fin 3 → Nat :=
  let c2_i32_58 : BitVec 32 := 2#32
  let c3_i32_70 : BitVec 32 := 3#32
  let v110 : BitVec 32 := Scalar.addi c2_i32_58 c3_i32_70
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v110 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off21 (v1096 : BitVec 32) : Fin 3 → Nat :=
  let c0_i32_700 : BitVec 32 := 0#32
  let c0_i32_701 : BitVec 32 := 0#32
  ![v1096.toNat, 0, 0]

def k0_chk6 (v1096 : BitVec 32) : Prop :=
  (∀ (k0_h3 : k0_cond3 = 1#1), ∀ a, (k0_off21 v1096) a + S1x280x384.size a ≤ S128x280x384.size a)
instance k0_chk6.dec : ∀ (v1096 : BitVec 32), Decidable (k0_chk6 v1096) := fun v1096 => decidable_of_iff' _ (Iff.of_eq (k0_chk6.eq_1 v1096))
theorem k0_off21_inb : ∀ (v1096 : BitVec 32) (k0_hw6 : k0_chk6 v1096), ∀ (k0_h3 : k0_cond3 = 1#1), ∀ a, (k0_off21 v1096) a + S1x280x384.size a ≤ S128x280x384.size a := fun v1096 k0_hw6 k0_h3 => k0_hw6 k0_h3

def k0_cond4 : BitVec 1 :=
  let c3_i32_80 : BitVec 32 := 3#32
  let c3_i32_92 : BitVec 32 := 3#32
  let v143 : BitVec 32 := Scalar.addi c3_i32_80 c3_i32_92
  let c32_i32_93 : BitVec 32 := 32#32
  let v144 : BitVec 1 := Scalar.cmpi .slt v143 c32_i32_93
  let v145 : BitVec 32 := Scalar.extui v144
  let c0_i32_94 : BitVec 32 := 0#32
  let v146 : BitVec 1 := Scalar.cmpi .ne v145 c0_i32_94
  v146

def k0_off22 (i : grid0.Coords) : Fin 1 → Nat :=
  let arg0 : BitVec 32 := BitVec.ofNat 32 (i 0).val
  let c32_i32 : BitVec 32 := 32#32
  let v0 : BitVec 32 := Scalar.muli arg0 c32_i32
  let c3_i32_80 : BitVec 32 := 3#32
  let c3_i32_92 : BitVec 32 := 3#32
  let v143 : BitVec 32 := Scalar.addi c3_i32_80 c3_i32_92
  let v1094 : BitVec 32 := Scalar.addi v0 v143
  let v1095 : Index := Scalar.indexCast v1094
  ![v1095.toNat]
def k0_off23 : Fin 1 → Nat :=
  let c3_i32_80 : BitVec 32 := 3#32
  let c3_i32_92 : BitVec 32 := 3#32
  let v143 : BitVec 32 := Scalar.addi c3_i32_80 c3_i32_92
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v143 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off24 : Fin 3 → Nat :=
  let c3_i32_80 : BitVec 32 := 3#32
  let c3_i32_92 : BitVec 32 := 3#32
  let v143 : BitVec 32 := Scalar.addi c3_i32_80 c3_i32_92
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v143 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off25 (v1096 : BitVec 32) : Fin 3 → Nat :=
  let c0_i32_700 : BitVec 32 := 0#32
  let c0_i32_701 : BitVec 32 := 0#32
  ![v1096.toNat, 0, 0]

def k0_chk7 (v1096 : BitVec 32) : Prop :=
  (∀ (k0_h4 : k0_cond4 = 1#1), ∀ a, (k0_off25 v1096) a + S1x280x384.size a ≤ S128x280x384.size a)
instance k0_chk7.dec : ∀ (v1096 : BitVec 32), Decidable (k0_chk7 v1096) := fun v1096 => decidable_of_iff' _ (Iff.of_eq (k0_chk7.eq_1 v1096))
theorem k0_off25_inb : ∀ (v1096 : BitVec 32) (k0_hw7 : k0_chk7 v1096), ∀ (k0_h4 : k0_cond4 = 1#1), ∀ a, (k0_off25 v1096) a + S1x280x384.size a ≤ S128x280x384.size a := fun v1096 k0_hw7 k0_h4 => k0_hw7 k0_h4

def k0_cond5 : BitVec 1 :=
  let c4_i32_102 : BitVec 32 := 4#32
  let c3_i32_114 : BitVec 32 := 3#32
  let v176 : BitVec 32 := Scalar.addi c4_i32_102 c3_i32_114
  let c32_i32_115 : BitVec 32 := 32#32
  let v177 : BitVec 1 := Scalar.cmpi .slt v176 c32_i32_115
  let v178 : BitVec 32 := Scalar.extui v177
  let c0_i32_116 : BitVec 32 := 0#32
  let v179 : BitVec 1 := Scalar.cmpi .ne v178 c0_i32_116
  v179

def k0_off26 (i : grid0.Coords) : Fin 1 → Nat :=
  let arg0 : BitVec 32 := BitVec.ofNat 32 (i 0).val
  let c32_i32 : BitVec 32 := 32#32
  let v0 : BitVec 32 := Scalar.muli arg0 c32_i32
  let c4_i32_102 : BitVec 32 := 4#32
  let c3_i32_114 : BitVec 32 := 3#32
  let v176 : BitVec 32 := Scalar.addi c4_i32_102 c3_i32_114
  let v1094 : BitVec 32 := Scalar.addi v0 v176
  let v1095 : Index := Scalar.indexCast v1094
  ![v1095.toNat]
def k0_off27 : Fin 1 → Nat :=
  let c4_i32_102 : BitVec 32 := 4#32
  let c3_i32_114 : BitVec 32 := 3#32
  let v176 : BitVec 32 := Scalar.addi c4_i32_102 c3_i32_114
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v176 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off28 : Fin 3 → Nat :=
  let c4_i32_102 : BitVec 32 := 4#32
  let c3_i32_114 : BitVec 32 := 3#32
  let v176 : BitVec 32 := Scalar.addi c4_i32_102 c3_i32_114
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v176 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off29 (v1096 : BitVec 32) : Fin 3 → Nat :=
  let c0_i32_700 : BitVec 32 := 0#32
  let c0_i32_701 : BitVec 32 := 0#32
  ![v1096.toNat, 0, 0]

def k0_chk8 (v1096 : BitVec 32) : Prop :=
  (∀ (k0_h5 : k0_cond5 = 1#1), ∀ a, (k0_off29 v1096) a + S1x280x384.size a ≤ S128x280x384.size a)
instance k0_chk8.dec : ∀ (v1096 : BitVec 32), Decidable (k0_chk8 v1096) := fun v1096 => decidable_of_iff' _ (Iff.of_eq (k0_chk8.eq_1 v1096))
theorem k0_off29_inb : ∀ (v1096 : BitVec 32) (k0_hw8 : k0_chk8 v1096), ∀ (k0_h5 : k0_cond5 = 1#1), ∀ a, (k0_off29 v1096) a + S1x280x384.size a ≤ S128x280x384.size a := fun v1096 k0_hw8 k0_h5 => k0_hw8 k0_h5

def k0_cond6 : BitVec 1 :=
  let c5_i32 : BitVec 32 := 5#32
  let c3_i32_135 : BitVec 32 := 3#32
  let v209 : BitVec 32 := Scalar.addi c5_i32 c3_i32_135
  let c32_i32_136 : BitVec 32 := 32#32
  let v210 : BitVec 1 := Scalar.cmpi .slt v209 c32_i32_136
  let v211 : BitVec 32 := Scalar.extui v210
  let c0_i32_137 : BitVec 32 := 0#32
  let v212 : BitVec 1 := Scalar.cmpi .ne v211 c0_i32_137
  v212

def k0_off30 (i : grid0.Coords) : Fin 1 → Nat :=
  let arg0 : BitVec 32 := BitVec.ofNat 32 (i 0).val
  let c32_i32 : BitVec 32 := 32#32
  let v0 : BitVec 32 := Scalar.muli arg0 c32_i32
  let c5_i32 : BitVec 32 := 5#32
  let c3_i32_135 : BitVec 32 := 3#32
  let v209 : BitVec 32 := Scalar.addi c5_i32 c3_i32_135
  let v1094 : BitVec 32 := Scalar.addi v0 v209
  let v1095 : Index := Scalar.indexCast v1094
  ![v1095.toNat]
def k0_off31 : Fin 1 → Nat :=
  let c5_i32 : BitVec 32 := 5#32
  let c3_i32_135 : BitVec 32 := 3#32
  let v209 : BitVec 32 := Scalar.addi c5_i32 c3_i32_135
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v209 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off32 : Fin 3 → Nat :=
  let c5_i32 : BitVec 32 := 5#32
  let c3_i32_135 : BitVec 32 := 3#32
  let v209 : BitVec 32 := Scalar.addi c5_i32 c3_i32_135
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v209 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off33 (v1096 : BitVec 32) : Fin 3 → Nat :=
  let c0_i32_700 : BitVec 32 := 0#32
  let c0_i32_701 : BitVec 32 := 0#32
  ![v1096.toNat, 0, 0]

def k0_chk9 (v1096 : BitVec 32) : Prop :=
  (∀ (k0_h6 : k0_cond6 = 1#1), ∀ a, (k0_off33 v1096) a + S1x280x384.size a ≤ S128x280x384.size a)
instance k0_chk9.dec : ∀ (v1096 : BitVec 32), Decidable (k0_chk9 v1096) := fun v1096 => decidable_of_iff' _ (Iff.of_eq (k0_chk9.eq_1 v1096))
theorem k0_off33_inb : ∀ (v1096 : BitVec 32) (k0_hw9 : k0_chk9 v1096), ∀ (k0_h6 : k0_cond6 = 1#1), ∀ a, (k0_off33 v1096) a + S1x280x384.size a ≤ S128x280x384.size a := fun v1096 k0_hw9 k0_h6 => k0_hw9 k0_h6

def k0_cond7 : BitVec 1 :=
  let c6_i32 : BitVec 32 := 6#32
  let c3_i32_156 : BitVec 32 := 3#32
  let v242 : BitVec 32 := Scalar.addi c6_i32 c3_i32_156
  let c32_i32_157 : BitVec 32 := 32#32
  let v243 : BitVec 1 := Scalar.cmpi .slt v242 c32_i32_157
  let v244 : BitVec 32 := Scalar.extui v243
  let c0_i32_158 : BitVec 32 := 0#32
  let v245 : BitVec 1 := Scalar.cmpi .ne v244 c0_i32_158
  v245

def k0_off34 (i : grid0.Coords) : Fin 1 → Nat :=
  let arg0 : BitVec 32 := BitVec.ofNat 32 (i 0).val
  let c32_i32 : BitVec 32 := 32#32
  let v0 : BitVec 32 := Scalar.muli arg0 c32_i32
  let c6_i32 : BitVec 32 := 6#32
  let c3_i32_156 : BitVec 32 := 3#32
  let v242 : BitVec 32 := Scalar.addi c6_i32 c3_i32_156
  let v1094 : BitVec 32 := Scalar.addi v0 v242
  let v1095 : Index := Scalar.indexCast v1094
  ![v1095.toNat]
def k0_off35 : Fin 1 → Nat :=
  let c6_i32 : BitVec 32 := 6#32
  let c3_i32_156 : BitVec 32 := 3#32
  let v242 : BitVec 32 := Scalar.addi c6_i32 c3_i32_156
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v242 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off36 : Fin 3 → Nat :=
  let c6_i32 : BitVec 32 := 6#32
  let c3_i32_156 : BitVec 32 := 3#32
  let v242 : BitVec 32 := Scalar.addi c6_i32 c3_i32_156
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v242 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off37 (v1096 : BitVec 32) : Fin 3 → Nat :=
  let c0_i32_700 : BitVec 32 := 0#32
  let c0_i32_701 : BitVec 32 := 0#32
  ![v1096.toNat, 0, 0]

def k0_chk10 (v1096 : BitVec 32) : Prop :=
  (∀ (k0_h7 : k0_cond7 = 1#1), ∀ a, (k0_off37 v1096) a + S1x280x384.size a ≤ S128x280x384.size a)
instance k0_chk10.dec : ∀ (v1096 : BitVec 32), Decidable (k0_chk10 v1096) := fun v1096 => decidable_of_iff' _ (Iff.of_eq (k0_chk10.eq_1 v1096))
theorem k0_off37_inb : ∀ (v1096 : BitVec 32) (k0_hw10 : k0_chk10 v1096), ∀ (k0_h7 : k0_cond7 = 1#1), ∀ a, (k0_off37 v1096) a + S1x280x384.size a ≤ S128x280x384.size a := fun v1096 k0_hw10 k0_h7 => k0_hw10 k0_h7

def k0_cond8 : BitVec 1 :=
  let c7_i32 : BitVec 32 := 7#32
  let c3_i32_177 : BitVec 32 := 3#32
  let v275 : BitVec 32 := Scalar.addi c7_i32 c3_i32_177
  let c32_i32_178 : BitVec 32 := 32#32
  let v276 : BitVec 1 := Scalar.cmpi .slt v275 c32_i32_178
  let v277 : BitVec 32 := Scalar.extui v276
  let c0_i32_179 : BitVec 32 := 0#32
  let v278 : BitVec 1 := Scalar.cmpi .ne v277 c0_i32_179
  v278

def k0_off38 (i : grid0.Coords) : Fin 1 → Nat :=
  let arg0 : BitVec 32 := BitVec.ofNat 32 (i 0).val
  let c32_i32 : BitVec 32 := 32#32
  let v0 : BitVec 32 := Scalar.muli arg0 c32_i32
  let c7_i32 : BitVec 32 := 7#32
  let c3_i32_177 : BitVec 32 := 3#32
  let v275 : BitVec 32 := Scalar.addi c7_i32 c3_i32_177
  let v1094 : BitVec 32 := Scalar.addi v0 v275
  let v1095 : Index := Scalar.indexCast v1094
  ![v1095.toNat]
def k0_off39 : Fin 1 → Nat :=
  let c7_i32 : BitVec 32 := 7#32
  let c3_i32_177 : BitVec 32 := 3#32
  let v275 : BitVec 32 := Scalar.addi c7_i32 c3_i32_177
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v275 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off40 : Fin 3 → Nat :=
  let c7_i32 : BitVec 32 := 7#32
  let c3_i32_177 : BitVec 32 := 3#32
  let v275 : BitVec 32 := Scalar.addi c7_i32 c3_i32_177
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v275 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off41 (v1096 : BitVec 32) : Fin 3 → Nat :=
  let c0_i32_700 : BitVec 32 := 0#32
  let c0_i32_701 : BitVec 32 := 0#32
  ![v1096.toNat, 0, 0]

def k0_chk11 (v1096 : BitVec 32) : Prop :=
  (∀ (k0_h8 : k0_cond8 = 1#1), ∀ a, (k0_off41 v1096) a + S1x280x384.size a ≤ S128x280x384.size a)
instance k0_chk11.dec : ∀ (v1096 : BitVec 32), Decidable (k0_chk11 v1096) := fun v1096 => decidable_of_iff' _ (Iff.of_eq (k0_chk11.eq_1 v1096))
theorem k0_off41_inb : ∀ (v1096 : BitVec 32) (k0_hw11 : k0_chk11 v1096), ∀ (k0_h8 : k0_cond8 = 1#1), ∀ a, (k0_off41 v1096) a + S1x280x384.size a ≤ S128x280x384.size a := fun v1096 k0_hw11 k0_h8 => k0_hw11 k0_h8

def k0_cond9 : BitVec 1 :=
  let c8_i32 : BitVec 32 := 8#32
  let c3_i32_198 : BitVec 32 := 3#32
  let v308 : BitVec 32 := Scalar.addi c8_i32 c3_i32_198
  let c32_i32_199 : BitVec 32 := 32#32
  let v309 : BitVec 1 := Scalar.cmpi .slt v308 c32_i32_199
  let v310 : BitVec 32 := Scalar.extui v309
  let c0_i32_200 : BitVec 32 := 0#32
  let v311 : BitVec 1 := Scalar.cmpi .ne v310 c0_i32_200
  v311

def k0_off42 (i : grid0.Coords) : Fin 1 → Nat :=
  let arg0 : BitVec 32 := BitVec.ofNat 32 (i 0).val
  let c32_i32 : BitVec 32 := 32#32
  let v0 : BitVec 32 := Scalar.muli arg0 c32_i32
  let c8_i32 : BitVec 32 := 8#32
  let c3_i32_198 : BitVec 32 := 3#32
  let v308 : BitVec 32 := Scalar.addi c8_i32 c3_i32_198
  let v1094 : BitVec 32 := Scalar.addi v0 v308
  let v1095 : Index := Scalar.indexCast v1094
  ![v1095.toNat]
def k0_off43 : Fin 1 → Nat :=
  let c8_i32 : BitVec 32 := 8#32
  let c3_i32_198 : BitVec 32 := 3#32
  let v308 : BitVec 32 := Scalar.addi c8_i32 c3_i32_198
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v308 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off44 : Fin 3 → Nat :=
  let c8_i32 : BitVec 32 := 8#32
  let c3_i32_198 : BitVec 32 := 3#32
  let v308 : BitVec 32 := Scalar.addi c8_i32 c3_i32_198
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v308 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off45 (v1096 : BitVec 32) : Fin 3 → Nat :=
  let c0_i32_700 : BitVec 32 := 0#32
  let c0_i32_701 : BitVec 32 := 0#32
  ![v1096.toNat, 0, 0]

def k0_chk12 (v1096 : BitVec 32) : Prop :=
  (∀ (k0_h9 : k0_cond9 = 1#1), ∀ a, (k0_off45 v1096) a + S1x280x384.size a ≤ S128x280x384.size a)
instance k0_chk12.dec : ∀ (v1096 : BitVec 32), Decidable (k0_chk12 v1096) := fun v1096 => decidable_of_iff' _ (Iff.of_eq (k0_chk12.eq_1 v1096))
theorem k0_off45_inb : ∀ (v1096 : BitVec 32) (k0_hw12 : k0_chk12 v1096), ∀ (k0_h9 : k0_cond9 = 1#1), ∀ a, (k0_off45 v1096) a + S1x280x384.size a ≤ S128x280x384.size a := fun v1096 k0_hw12 k0_h9 => k0_hw12 k0_h9

def k0_cond10 : BitVec 1 :=
  let c9_i32 : BitVec 32 := 9#32
  let c3_i32_219 : BitVec 32 := 3#32
  let v341 : BitVec 32 := Scalar.addi c9_i32 c3_i32_219
  let c32_i32_220 : BitVec 32 := 32#32
  let v342 : BitVec 1 := Scalar.cmpi .slt v341 c32_i32_220
  let v343 : BitVec 32 := Scalar.extui v342
  let c0_i32_221 : BitVec 32 := 0#32
  let v344 : BitVec 1 := Scalar.cmpi .ne v343 c0_i32_221
  v344

def k0_off46 (i : grid0.Coords) : Fin 1 → Nat :=
  let arg0 : BitVec 32 := BitVec.ofNat 32 (i 0).val
  let c32_i32 : BitVec 32 := 32#32
  let v0 : BitVec 32 := Scalar.muli arg0 c32_i32
  let c9_i32 : BitVec 32 := 9#32
  let c3_i32_219 : BitVec 32 := 3#32
  let v341 : BitVec 32 := Scalar.addi c9_i32 c3_i32_219
  let v1094 : BitVec 32 := Scalar.addi v0 v341
  let v1095 : Index := Scalar.indexCast v1094
  ![v1095.toNat]
def k0_off47 : Fin 1 → Nat :=
  let c9_i32 : BitVec 32 := 9#32
  let c3_i32_219 : BitVec 32 := 3#32
  let v341 : BitVec 32 := Scalar.addi c9_i32 c3_i32_219
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v341 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off48 : Fin 3 → Nat :=
  let c9_i32 : BitVec 32 := 9#32
  let c3_i32_219 : BitVec 32 := 3#32
  let v341 : BitVec 32 := Scalar.addi c9_i32 c3_i32_219
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v341 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off49 (v1096 : BitVec 32) : Fin 3 → Nat :=
  let c0_i32_700 : BitVec 32 := 0#32
  let c0_i32_701 : BitVec 32 := 0#32
  ![v1096.toNat, 0, 0]

def k0_chk13 (v1096 : BitVec 32) : Prop :=
  (∀ (k0_h10 : k0_cond10 = 1#1), ∀ a, (k0_off49 v1096) a + S1x280x384.size a ≤ S128x280x384.size a)
instance k0_chk13.dec : ∀ (v1096 : BitVec 32), Decidable (k0_chk13 v1096) := fun v1096 => decidable_of_iff' _ (Iff.of_eq (k0_chk13.eq_1 v1096))
theorem k0_off49_inb : ∀ (v1096 : BitVec 32) (k0_hw13 : k0_chk13 v1096), ∀ (k0_h10 : k0_cond10 = 1#1), ∀ a, (k0_off49 v1096) a + S1x280x384.size a ≤ S128x280x384.size a := fun v1096 k0_hw13 k0_h10 => k0_hw13 k0_h10

def k0_cond11 : BitVec 1 :=
  let c10_i32 : BitVec 32 := 10#32
  let c3_i32_240 : BitVec 32 := 3#32
  let v374 : BitVec 32 := Scalar.addi c10_i32 c3_i32_240
  let c32_i32_241 : BitVec 32 := 32#32
  let v375 : BitVec 1 := Scalar.cmpi .slt v374 c32_i32_241
  let v376 : BitVec 32 := Scalar.extui v375
  let c0_i32_242 : BitVec 32 := 0#32
  let v377 : BitVec 1 := Scalar.cmpi .ne v376 c0_i32_242
  v377

def k0_off50 (i : grid0.Coords) : Fin 1 → Nat :=
  let arg0 : BitVec 32 := BitVec.ofNat 32 (i 0).val
  let c32_i32 : BitVec 32 := 32#32
  let v0 : BitVec 32 := Scalar.muli arg0 c32_i32
  let c10_i32 : BitVec 32 := 10#32
  let c3_i32_240 : BitVec 32 := 3#32
  let v374 : BitVec 32 := Scalar.addi c10_i32 c3_i32_240
  let v1094 : BitVec 32 := Scalar.addi v0 v374
  let v1095 : Index := Scalar.indexCast v1094
  ![v1095.toNat]
def k0_off51 : Fin 1 → Nat :=
  let c10_i32 : BitVec 32 := 10#32
  let c3_i32_240 : BitVec 32 := 3#32
  let v374 : BitVec 32 := Scalar.addi c10_i32 c3_i32_240
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v374 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off52 : Fin 3 → Nat :=
  let c10_i32 : BitVec 32 := 10#32
  let c3_i32_240 : BitVec 32 := 3#32
  let v374 : BitVec 32 := Scalar.addi c10_i32 c3_i32_240
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v374 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off53 (v1096 : BitVec 32) : Fin 3 → Nat :=
  let c0_i32_700 : BitVec 32 := 0#32
  let c0_i32_701 : BitVec 32 := 0#32
  ![v1096.toNat, 0, 0]

def k0_chk14 (v1096 : BitVec 32) : Prop :=
  (∀ (k0_h11 : k0_cond11 = 1#1), ∀ a, (k0_off53 v1096) a + S1x280x384.size a ≤ S128x280x384.size a)
instance k0_chk14.dec : ∀ (v1096 : BitVec 32), Decidable (k0_chk14 v1096) := fun v1096 => decidable_of_iff' _ (Iff.of_eq (k0_chk14.eq_1 v1096))
theorem k0_off53_inb : ∀ (v1096 : BitVec 32) (k0_hw14 : k0_chk14 v1096), ∀ (k0_h11 : k0_cond11 = 1#1), ∀ a, (k0_off53 v1096) a + S1x280x384.size a ≤ S128x280x384.size a := fun v1096 k0_hw14 k0_h11 => k0_hw14 k0_h11

def k0_cond12 : BitVec 1 :=
  let c11_i32 : BitVec 32 := 11#32
  let c3_i32_261 : BitVec 32 := 3#32
  let v407 : BitVec 32 := Scalar.addi c11_i32 c3_i32_261
  let c32_i32_262 : BitVec 32 := 32#32
  let v408 : BitVec 1 := Scalar.cmpi .slt v407 c32_i32_262
  let v409 : BitVec 32 := Scalar.extui v408
  let c0_i32_263 : BitVec 32 := 0#32
  let v410 : BitVec 1 := Scalar.cmpi .ne v409 c0_i32_263
  v410

def k0_off54 (i : grid0.Coords) : Fin 1 → Nat :=
  let arg0 : BitVec 32 := BitVec.ofNat 32 (i 0).val
  let c32_i32 : BitVec 32 := 32#32
  let v0 : BitVec 32 := Scalar.muli arg0 c32_i32
  let c11_i32 : BitVec 32 := 11#32
  let c3_i32_261 : BitVec 32 := 3#32
  let v407 : BitVec 32 := Scalar.addi c11_i32 c3_i32_261
  let v1094 : BitVec 32 := Scalar.addi v0 v407
  let v1095 : Index := Scalar.indexCast v1094
  ![v1095.toNat]
def k0_off55 : Fin 1 → Nat :=
  let c11_i32 : BitVec 32 := 11#32
  let c3_i32_261 : BitVec 32 := 3#32
  let v407 : BitVec 32 := Scalar.addi c11_i32 c3_i32_261
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v407 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off56 : Fin 3 → Nat :=
  let c11_i32 : BitVec 32 := 11#32
  let c3_i32_261 : BitVec 32 := 3#32
  let v407 : BitVec 32 := Scalar.addi c11_i32 c3_i32_261
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v407 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off57 (v1096 : BitVec 32) : Fin 3 → Nat :=
  let c0_i32_700 : BitVec 32 := 0#32
  let c0_i32_701 : BitVec 32 := 0#32
  ![v1096.toNat, 0, 0]

def k0_chk15 (v1096 : BitVec 32) : Prop :=
  (∀ (k0_h12 : k0_cond12 = 1#1), ∀ a, (k0_off57 v1096) a + S1x280x384.size a ≤ S128x280x384.size a)
instance k0_chk15.dec : ∀ (v1096 : BitVec 32), Decidable (k0_chk15 v1096) := fun v1096 => decidable_of_iff' _ (Iff.of_eq (k0_chk15.eq_1 v1096))
theorem k0_off57_inb : ∀ (v1096 : BitVec 32) (k0_hw15 : k0_chk15 v1096), ∀ (k0_h12 : k0_cond12 = 1#1), ∀ a, (k0_off57 v1096) a + S1x280x384.size a ≤ S128x280x384.size a := fun v1096 k0_hw15 k0_h12 => k0_hw15 k0_h12

def k0_cond13 : BitVec 1 :=
  let c12_i32 : BitVec 32 := 12#32
  let c3_i32_282 : BitVec 32 := 3#32
  let v440 : BitVec 32 := Scalar.addi c12_i32 c3_i32_282
  let c32_i32_283 : BitVec 32 := 32#32
  let v441 : BitVec 1 := Scalar.cmpi .slt v440 c32_i32_283
  let v442 : BitVec 32 := Scalar.extui v441
  let c0_i32_284 : BitVec 32 := 0#32
  let v443 : BitVec 1 := Scalar.cmpi .ne v442 c0_i32_284
  v443

def k0_off58 (i : grid0.Coords) : Fin 1 → Nat :=
  let arg0 : BitVec 32 := BitVec.ofNat 32 (i 0).val
  let c32_i32 : BitVec 32 := 32#32
  let v0 : BitVec 32 := Scalar.muli arg0 c32_i32
  let c12_i32 : BitVec 32 := 12#32
  let c3_i32_282 : BitVec 32 := 3#32
  let v440 : BitVec 32 := Scalar.addi c12_i32 c3_i32_282
  let v1094 : BitVec 32 := Scalar.addi v0 v440
  let v1095 : Index := Scalar.indexCast v1094
  ![v1095.toNat]
def k0_off59 : Fin 1 → Nat :=
  let c12_i32 : BitVec 32 := 12#32
  let c3_i32_282 : BitVec 32 := 3#32
  let v440 : BitVec 32 := Scalar.addi c12_i32 c3_i32_282
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v440 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off60 : Fin 3 → Nat :=
  let c12_i32 : BitVec 32 := 12#32
  let c3_i32_282 : BitVec 32 := 3#32
  let v440 : BitVec 32 := Scalar.addi c12_i32 c3_i32_282
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v440 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off61 (v1096 : BitVec 32) : Fin 3 → Nat :=
  let c0_i32_700 : BitVec 32 := 0#32
  let c0_i32_701 : BitVec 32 := 0#32
  ![v1096.toNat, 0, 0]

def k0_chk16 (v1096 : BitVec 32) : Prop :=
  (∀ (k0_h13 : k0_cond13 = 1#1), ∀ a, (k0_off61 v1096) a + S1x280x384.size a ≤ S128x280x384.size a)
instance k0_chk16.dec : ∀ (v1096 : BitVec 32), Decidable (k0_chk16 v1096) := fun v1096 => decidable_of_iff' _ (Iff.of_eq (k0_chk16.eq_1 v1096))
theorem k0_off61_inb : ∀ (v1096 : BitVec 32) (k0_hw16 : k0_chk16 v1096), ∀ (k0_h13 : k0_cond13 = 1#1), ∀ a, (k0_off61 v1096) a + S1x280x384.size a ≤ S128x280x384.size a := fun v1096 k0_hw16 k0_h13 => k0_hw16 k0_h13

def k0_cond14 : BitVec 1 :=
  let c13_i32 : BitVec 32 := 13#32
  let c3_i32_303 : BitVec 32 := 3#32
  let v473 : BitVec 32 := Scalar.addi c13_i32 c3_i32_303
  let c32_i32_304 : BitVec 32 := 32#32
  let v474 : BitVec 1 := Scalar.cmpi .slt v473 c32_i32_304
  let v475 : BitVec 32 := Scalar.extui v474
  let c0_i32_305 : BitVec 32 := 0#32
  let v476 : BitVec 1 := Scalar.cmpi .ne v475 c0_i32_305
  v476

def k0_off62 (i : grid0.Coords) : Fin 1 → Nat :=
  let arg0 : BitVec 32 := BitVec.ofNat 32 (i 0).val
  let c32_i32 : BitVec 32 := 32#32
  let v0 : BitVec 32 := Scalar.muli arg0 c32_i32
  let c13_i32 : BitVec 32 := 13#32
  let c3_i32_303 : BitVec 32 := 3#32
  let v473 : BitVec 32 := Scalar.addi c13_i32 c3_i32_303
  let v1094 : BitVec 32 := Scalar.addi v0 v473
  let v1095 : Index := Scalar.indexCast v1094
  ![v1095.toNat]
def k0_off63 : Fin 1 → Nat :=
  let c13_i32 : BitVec 32 := 13#32
  let c3_i32_303 : BitVec 32 := 3#32
  let v473 : BitVec 32 := Scalar.addi c13_i32 c3_i32_303
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v473 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off64 : Fin 3 → Nat :=
  let c13_i32 : BitVec 32 := 13#32
  let c3_i32_303 : BitVec 32 := 3#32
  let v473 : BitVec 32 := Scalar.addi c13_i32 c3_i32_303
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v473 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off65 (v1096 : BitVec 32) : Fin 3 → Nat :=
  let c0_i32_700 : BitVec 32 := 0#32
  let c0_i32_701 : BitVec 32 := 0#32
  ![v1096.toNat, 0, 0]

def k0_chk17 (v1096 : BitVec 32) : Prop :=
  (∀ (k0_h14 : k0_cond14 = 1#1), ∀ a, (k0_off65 v1096) a + S1x280x384.size a ≤ S128x280x384.size a)
instance k0_chk17.dec : ∀ (v1096 : BitVec 32), Decidable (k0_chk17 v1096) := fun v1096 => decidable_of_iff' _ (Iff.of_eq (k0_chk17.eq_1 v1096))
theorem k0_off65_inb : ∀ (v1096 : BitVec 32) (k0_hw17 : k0_chk17 v1096), ∀ (k0_h14 : k0_cond14 = 1#1), ∀ a, (k0_off65 v1096) a + S1x280x384.size a ≤ S128x280x384.size a := fun v1096 k0_hw17 k0_h14 => k0_hw17 k0_h14

def k0_cond15 : BitVec 1 :=
  let c14_i32 : BitVec 32 := 14#32
  let c3_i32_324 : BitVec 32 := 3#32
  let v506 : BitVec 32 := Scalar.addi c14_i32 c3_i32_324
  let c32_i32_325 : BitVec 32 := 32#32
  let v507 : BitVec 1 := Scalar.cmpi .slt v506 c32_i32_325
  let v508 : BitVec 32 := Scalar.extui v507
  let c0_i32_326 : BitVec 32 := 0#32
  let v509 : BitVec 1 := Scalar.cmpi .ne v508 c0_i32_326
  v509

def k0_off66 (i : grid0.Coords) : Fin 1 → Nat :=
  let arg0 : BitVec 32 := BitVec.ofNat 32 (i 0).val
  let c32_i32 : BitVec 32 := 32#32
  let v0 : BitVec 32 := Scalar.muli arg0 c32_i32
  let c14_i32 : BitVec 32 := 14#32
  let c3_i32_324 : BitVec 32 := 3#32
  let v506 : BitVec 32 := Scalar.addi c14_i32 c3_i32_324
  let v1094 : BitVec 32 := Scalar.addi v0 v506
  let v1095 : Index := Scalar.indexCast v1094
  ![v1095.toNat]
def k0_off67 : Fin 1 → Nat :=
  let c14_i32 : BitVec 32 := 14#32
  let c3_i32_324 : BitVec 32 := 3#32
  let v506 : BitVec 32 := Scalar.addi c14_i32 c3_i32_324
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v506 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off68 : Fin 3 → Nat :=
  let c14_i32 : BitVec 32 := 14#32
  let c3_i32_324 : BitVec 32 := 3#32
  let v506 : BitVec 32 := Scalar.addi c14_i32 c3_i32_324
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v506 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off69 (v1096 : BitVec 32) : Fin 3 → Nat :=
  let c0_i32_700 : BitVec 32 := 0#32
  let c0_i32_701 : BitVec 32 := 0#32
  ![v1096.toNat, 0, 0]

def k0_chk18 (v1096 : BitVec 32) : Prop :=
  (∀ (k0_h15 : k0_cond15 = 1#1), ∀ a, (k0_off69 v1096) a + S1x280x384.size a ≤ S128x280x384.size a)
instance k0_chk18.dec : ∀ (v1096 : BitVec 32), Decidable (k0_chk18 v1096) := fun v1096 => decidable_of_iff' _ (Iff.of_eq (k0_chk18.eq_1 v1096))
theorem k0_off69_inb : ∀ (v1096 : BitVec 32) (k0_hw18 : k0_chk18 v1096), ∀ (k0_h15 : k0_cond15 = 1#1), ∀ a, (k0_off69 v1096) a + S1x280x384.size a ≤ S128x280x384.size a := fun v1096 k0_hw18 k0_h15 => k0_hw18 k0_h15

def k0_cond16 : BitVec 1 :=
  let c15_i32 : BitVec 32 := 15#32
  let c3_i32_345 : BitVec 32 := 3#32
  let v539 : BitVec 32 := Scalar.addi c15_i32 c3_i32_345
  let c32_i32_346 : BitVec 32 := 32#32
  let v540 : BitVec 1 := Scalar.cmpi .slt v539 c32_i32_346
  let v541 : BitVec 32 := Scalar.extui v540
  let c0_i32_347 : BitVec 32 := 0#32
  let v542 : BitVec 1 := Scalar.cmpi .ne v541 c0_i32_347
  v542

def k0_off70 (i : grid0.Coords) : Fin 1 → Nat :=
  let arg0 : BitVec 32 := BitVec.ofNat 32 (i 0).val
  let c32_i32 : BitVec 32 := 32#32
  let v0 : BitVec 32 := Scalar.muli arg0 c32_i32
  let c15_i32 : BitVec 32 := 15#32
  let c3_i32_345 : BitVec 32 := 3#32
  let v539 : BitVec 32 := Scalar.addi c15_i32 c3_i32_345
  let v1094 : BitVec 32 := Scalar.addi v0 v539
  let v1095 : Index := Scalar.indexCast v1094
  ![v1095.toNat]
def k0_off71 : Fin 1 → Nat :=
  let c15_i32 : BitVec 32 := 15#32
  let c3_i32_345 : BitVec 32 := 3#32
  let v539 : BitVec 32 := Scalar.addi c15_i32 c3_i32_345
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v539 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off72 : Fin 3 → Nat :=
  let c15_i32 : BitVec 32 := 15#32
  let c3_i32_345 : BitVec 32 := 3#32
  let v539 : BitVec 32 := Scalar.addi c15_i32 c3_i32_345
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v539 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off73 (v1096 : BitVec 32) : Fin 3 → Nat :=
  let c0_i32_700 : BitVec 32 := 0#32
  let c0_i32_701 : BitVec 32 := 0#32
  ![v1096.toNat, 0, 0]

def k0_chk19 (v1096 : BitVec 32) : Prop :=
  (∀ (k0_h16 : k0_cond16 = 1#1), ∀ a, (k0_off73 v1096) a + S1x280x384.size a ≤ S128x280x384.size a)
instance k0_chk19.dec : ∀ (v1096 : BitVec 32), Decidable (k0_chk19 v1096) := fun v1096 => decidable_of_iff' _ (Iff.of_eq (k0_chk19.eq_1 v1096))
theorem k0_off73_inb : ∀ (v1096 : BitVec 32) (k0_hw19 : k0_chk19 v1096), ∀ (k0_h16 : k0_cond16 = 1#1), ∀ a, (k0_off73 v1096) a + S1x280x384.size a ≤ S128x280x384.size a := fun v1096 k0_hw19 k0_h16 => k0_hw19 k0_h16

def k0_cond17 : BitVec 1 :=
  let c16_i32 : BitVec 32 := 16#32
  let c3_i32_366 : BitVec 32 := 3#32
  let v572 : BitVec 32 := Scalar.addi c16_i32 c3_i32_366
  let c32_i32_367 : BitVec 32 := 32#32
  let v573 : BitVec 1 := Scalar.cmpi .slt v572 c32_i32_367
  let v574 : BitVec 32 := Scalar.extui v573
  let c0_i32_368 : BitVec 32 := 0#32
  let v575 : BitVec 1 := Scalar.cmpi .ne v574 c0_i32_368
  v575

def k0_off74 (i : grid0.Coords) : Fin 1 → Nat :=
  let arg0 : BitVec 32 := BitVec.ofNat 32 (i 0).val
  let c32_i32 : BitVec 32 := 32#32
  let v0 : BitVec 32 := Scalar.muli arg0 c32_i32
  let c16_i32 : BitVec 32 := 16#32
  let c3_i32_366 : BitVec 32 := 3#32
  let v572 : BitVec 32 := Scalar.addi c16_i32 c3_i32_366
  let v1094 : BitVec 32 := Scalar.addi v0 v572
  let v1095 : Index := Scalar.indexCast v1094
  ![v1095.toNat]
def k0_off75 : Fin 1 → Nat :=
  let c16_i32 : BitVec 32 := 16#32
  let c3_i32_366 : BitVec 32 := 3#32
  let v572 : BitVec 32 := Scalar.addi c16_i32 c3_i32_366
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v572 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off76 : Fin 3 → Nat :=
  let c16_i32 : BitVec 32 := 16#32
  let c3_i32_366 : BitVec 32 := 3#32
  let v572 : BitVec 32 := Scalar.addi c16_i32 c3_i32_366
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v572 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off77 (v1096 : BitVec 32) : Fin 3 → Nat :=
  let c0_i32_700 : BitVec 32 := 0#32
  let c0_i32_701 : BitVec 32 := 0#32
  ![v1096.toNat, 0, 0]

def k0_chk20 (v1096 : BitVec 32) : Prop :=
  (∀ (k0_h17 : k0_cond17 = 1#1), ∀ a, (k0_off77 v1096) a + S1x280x384.size a ≤ S128x280x384.size a)
instance k0_chk20.dec : ∀ (v1096 : BitVec 32), Decidable (k0_chk20 v1096) := fun v1096 => decidable_of_iff' _ (Iff.of_eq (k0_chk20.eq_1 v1096))
theorem k0_off77_inb : ∀ (v1096 : BitVec 32) (k0_hw20 : k0_chk20 v1096), ∀ (k0_h17 : k0_cond17 = 1#1), ∀ a, (k0_off77 v1096) a + S1x280x384.size a ≤ S128x280x384.size a := fun v1096 k0_hw20 k0_h17 => k0_hw20 k0_h17

def k0_cond18 : BitVec 1 :=
  let c17_i32 : BitVec 32 := 17#32
  let c3_i32_387 : BitVec 32 := 3#32
  let v605 : BitVec 32 := Scalar.addi c17_i32 c3_i32_387
  let c32_i32_388 : BitVec 32 := 32#32
  let v606 : BitVec 1 := Scalar.cmpi .slt v605 c32_i32_388
  let v607 : BitVec 32 := Scalar.extui v606
  let c0_i32_389 : BitVec 32 := 0#32
  let v608 : BitVec 1 := Scalar.cmpi .ne v607 c0_i32_389
  v608

def k0_off78 (i : grid0.Coords) : Fin 1 → Nat :=
  let arg0 : BitVec 32 := BitVec.ofNat 32 (i 0).val
  let c32_i32 : BitVec 32 := 32#32
  let v0 : BitVec 32 := Scalar.muli arg0 c32_i32
  let c17_i32 : BitVec 32 := 17#32
  let c3_i32_387 : BitVec 32 := 3#32
  let v605 : BitVec 32 := Scalar.addi c17_i32 c3_i32_387
  let v1094 : BitVec 32 := Scalar.addi v0 v605
  let v1095 : Index := Scalar.indexCast v1094
  ![v1095.toNat]
def k0_off79 : Fin 1 → Nat :=
  let c17_i32 : BitVec 32 := 17#32
  let c3_i32_387 : BitVec 32 := 3#32
  let v605 : BitVec 32 := Scalar.addi c17_i32 c3_i32_387
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v605 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off80 : Fin 3 → Nat :=
  let c17_i32 : BitVec 32 := 17#32
  let c3_i32_387 : BitVec 32 := 3#32
  let v605 : BitVec 32 := Scalar.addi c17_i32 c3_i32_387
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v605 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off81 (v1096 : BitVec 32) : Fin 3 → Nat :=
  let c0_i32_700 : BitVec 32 := 0#32
  let c0_i32_701 : BitVec 32 := 0#32
  ![v1096.toNat, 0, 0]

def k0_chk21 (v1096 : BitVec 32) : Prop :=
  (∀ (k0_h18 : k0_cond18 = 1#1), ∀ a, (k0_off81 v1096) a + S1x280x384.size a ≤ S128x280x384.size a)
instance k0_chk21.dec : ∀ (v1096 : BitVec 32), Decidable (k0_chk21 v1096) := fun v1096 => decidable_of_iff' _ (Iff.of_eq (k0_chk21.eq_1 v1096))
theorem k0_off81_inb : ∀ (v1096 : BitVec 32) (k0_hw21 : k0_chk21 v1096), ∀ (k0_h18 : k0_cond18 = 1#1), ∀ a, (k0_off81 v1096) a + S1x280x384.size a ≤ S128x280x384.size a := fun v1096 k0_hw21 k0_h18 => k0_hw21 k0_h18

def k0_cond19 : BitVec 1 :=
  let c18_i32 : BitVec 32 := 18#32
  let c3_i32_408 : BitVec 32 := 3#32
  let v638 : BitVec 32 := Scalar.addi c18_i32 c3_i32_408
  let c32_i32_409 : BitVec 32 := 32#32
  let v639 : BitVec 1 := Scalar.cmpi .slt v638 c32_i32_409
  let v640 : BitVec 32 := Scalar.extui v639
  let c0_i32_410 : BitVec 32 := 0#32
  let v641 : BitVec 1 := Scalar.cmpi .ne v640 c0_i32_410
  v641

def k0_off82 (i : grid0.Coords) : Fin 1 → Nat :=
  let arg0 : BitVec 32 := BitVec.ofNat 32 (i 0).val
  let c32_i32 : BitVec 32 := 32#32
  let v0 : BitVec 32 := Scalar.muli arg0 c32_i32
  let c18_i32 : BitVec 32 := 18#32
  let c3_i32_408 : BitVec 32 := 3#32
  let v638 : BitVec 32 := Scalar.addi c18_i32 c3_i32_408
  let v1094 : BitVec 32 := Scalar.addi v0 v638
  let v1095 : Index := Scalar.indexCast v1094
  ![v1095.toNat]
def k0_off83 : Fin 1 → Nat :=
  let c18_i32 : BitVec 32 := 18#32
  let c3_i32_408 : BitVec 32 := 3#32
  let v638 : BitVec 32 := Scalar.addi c18_i32 c3_i32_408
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v638 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off84 : Fin 3 → Nat :=
  let c18_i32 : BitVec 32 := 18#32
  let c3_i32_408 : BitVec 32 := 3#32
  let v638 : BitVec 32 := Scalar.addi c18_i32 c3_i32_408
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v638 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off85 (v1096 : BitVec 32) : Fin 3 → Nat :=
  let c0_i32_700 : BitVec 32 := 0#32
  let c0_i32_701 : BitVec 32 := 0#32
  ![v1096.toNat, 0, 0]

def k0_chk22 (v1096 : BitVec 32) : Prop :=
  (∀ (k0_h19 : k0_cond19 = 1#1), ∀ a, (k0_off85 v1096) a + S1x280x384.size a ≤ S128x280x384.size a)
instance k0_chk22.dec : ∀ (v1096 : BitVec 32), Decidable (k0_chk22 v1096) := fun v1096 => decidable_of_iff' _ (Iff.of_eq (k0_chk22.eq_1 v1096))
theorem k0_off85_inb : ∀ (v1096 : BitVec 32) (k0_hw22 : k0_chk22 v1096), ∀ (k0_h19 : k0_cond19 = 1#1), ∀ a, (k0_off85 v1096) a + S1x280x384.size a ≤ S128x280x384.size a := fun v1096 k0_hw22 k0_h19 => k0_hw22 k0_h19

def k0_cond20 : BitVec 1 :=
  let c19_i32 : BitVec 32 := 19#32
  let c3_i32_429 : BitVec 32 := 3#32
  let v671 : BitVec 32 := Scalar.addi c19_i32 c3_i32_429
  let c32_i32_430 : BitVec 32 := 32#32
  let v672 : BitVec 1 := Scalar.cmpi .slt v671 c32_i32_430
  let v673 : BitVec 32 := Scalar.extui v672
  let c0_i32_431 : BitVec 32 := 0#32
  let v674 : BitVec 1 := Scalar.cmpi .ne v673 c0_i32_431
  v674

def k0_off86 (i : grid0.Coords) : Fin 1 → Nat :=
  let arg0 : BitVec 32 := BitVec.ofNat 32 (i 0).val
  let c32_i32 : BitVec 32 := 32#32
  let v0 : BitVec 32 := Scalar.muli arg0 c32_i32
  let c19_i32 : BitVec 32 := 19#32
  let c3_i32_429 : BitVec 32 := 3#32
  let v671 : BitVec 32 := Scalar.addi c19_i32 c3_i32_429
  let v1094 : BitVec 32 := Scalar.addi v0 v671
  let v1095 : Index := Scalar.indexCast v1094
  ![v1095.toNat]
def k0_off87 : Fin 1 → Nat :=
  let c19_i32 : BitVec 32 := 19#32
  let c3_i32_429 : BitVec 32 := 3#32
  let v671 : BitVec 32 := Scalar.addi c19_i32 c3_i32_429
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v671 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off88 : Fin 3 → Nat :=
  let c19_i32 : BitVec 32 := 19#32
  let c3_i32_429 : BitVec 32 := 3#32
  let v671 : BitVec 32 := Scalar.addi c19_i32 c3_i32_429
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v671 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off89 (v1096 : BitVec 32) : Fin 3 → Nat :=
  let c0_i32_700 : BitVec 32 := 0#32
  let c0_i32_701 : BitVec 32 := 0#32
  ![v1096.toNat, 0, 0]

def k0_chk23 (v1096 : BitVec 32) : Prop :=
  (∀ (k0_h20 : k0_cond20 = 1#1), ∀ a, (k0_off89 v1096) a + S1x280x384.size a ≤ S128x280x384.size a)
instance k0_chk23.dec : ∀ (v1096 : BitVec 32), Decidable (k0_chk23 v1096) := fun v1096 => decidable_of_iff' _ (Iff.of_eq (k0_chk23.eq_1 v1096))
theorem k0_off89_inb : ∀ (v1096 : BitVec 32) (k0_hw23 : k0_chk23 v1096), ∀ (k0_h20 : k0_cond20 = 1#1), ∀ a, (k0_off89 v1096) a + S1x280x384.size a ≤ S128x280x384.size a := fun v1096 k0_hw23 k0_h20 => k0_hw23 k0_h20

def k0_cond21 : BitVec 1 :=
  let c20_i32 : BitVec 32 := 20#32
  let c3_i32_450 : BitVec 32 := 3#32
  let v704 : BitVec 32 := Scalar.addi c20_i32 c3_i32_450
  let c32_i32_451 : BitVec 32 := 32#32
  let v705 : BitVec 1 := Scalar.cmpi .slt v704 c32_i32_451
  let v706 : BitVec 32 := Scalar.extui v705
  let c0_i32_452 : BitVec 32 := 0#32
  let v707 : BitVec 1 := Scalar.cmpi .ne v706 c0_i32_452
  v707

def k0_off90 (i : grid0.Coords) : Fin 1 → Nat :=
  let arg0 : BitVec 32 := BitVec.ofNat 32 (i 0).val
  let c32_i32 : BitVec 32 := 32#32
  let v0 : BitVec 32 := Scalar.muli arg0 c32_i32
  let c20_i32 : BitVec 32 := 20#32
  let c3_i32_450 : BitVec 32 := 3#32
  let v704 : BitVec 32 := Scalar.addi c20_i32 c3_i32_450
  let v1094 : BitVec 32 := Scalar.addi v0 v704
  let v1095 : Index := Scalar.indexCast v1094
  ![v1095.toNat]
def k0_off91 : Fin 1 → Nat :=
  let c20_i32 : BitVec 32 := 20#32
  let c3_i32_450 : BitVec 32 := 3#32
  let v704 : BitVec 32 := Scalar.addi c20_i32 c3_i32_450
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v704 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off92 : Fin 3 → Nat :=
  let c20_i32 : BitVec 32 := 20#32
  let c3_i32_450 : BitVec 32 := 3#32
  let v704 : BitVec 32 := Scalar.addi c20_i32 c3_i32_450
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v704 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off93 (v1096 : BitVec 32) : Fin 3 → Nat :=
  let c0_i32_700 : BitVec 32 := 0#32
  let c0_i32_701 : BitVec 32 := 0#32
  ![v1096.toNat, 0, 0]

def k0_chk24 (v1096 : BitVec 32) : Prop :=
  (∀ (k0_h21 : k0_cond21 = 1#1), ∀ a, (k0_off93 v1096) a + S1x280x384.size a ≤ S128x280x384.size a)
instance k0_chk24.dec : ∀ (v1096 : BitVec 32), Decidable (k0_chk24 v1096) := fun v1096 => decidable_of_iff' _ (Iff.of_eq (k0_chk24.eq_1 v1096))
theorem k0_off93_inb : ∀ (v1096 : BitVec 32) (k0_hw24 : k0_chk24 v1096), ∀ (k0_h21 : k0_cond21 = 1#1), ∀ a, (k0_off93 v1096) a + S1x280x384.size a ≤ S128x280x384.size a := fun v1096 k0_hw24 k0_h21 => k0_hw24 k0_h21

def k0_cond22 : BitVec 1 :=
  let c21_i32 : BitVec 32 := 21#32
  let c3_i32_471 : BitVec 32 := 3#32
  let v737 : BitVec 32 := Scalar.addi c21_i32 c3_i32_471
  let c32_i32_472 : BitVec 32 := 32#32
  let v738 : BitVec 1 := Scalar.cmpi .slt v737 c32_i32_472
  let v739 : BitVec 32 := Scalar.extui v738
  let c0_i32_473 : BitVec 32 := 0#32
  let v740 : BitVec 1 := Scalar.cmpi .ne v739 c0_i32_473
  v740

def k0_off94 (i : grid0.Coords) : Fin 1 → Nat :=
  let arg0 : BitVec 32 := BitVec.ofNat 32 (i 0).val
  let c32_i32 : BitVec 32 := 32#32
  let v0 : BitVec 32 := Scalar.muli arg0 c32_i32
  let c21_i32 : BitVec 32 := 21#32
  let c3_i32_471 : BitVec 32 := 3#32
  let v737 : BitVec 32 := Scalar.addi c21_i32 c3_i32_471
  let v1094 : BitVec 32 := Scalar.addi v0 v737
  let v1095 : Index := Scalar.indexCast v1094
  ![v1095.toNat]
def k0_off95 : Fin 1 → Nat :=
  let c21_i32 : BitVec 32 := 21#32
  let c3_i32_471 : BitVec 32 := 3#32
  let v737 : BitVec 32 := Scalar.addi c21_i32 c3_i32_471
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v737 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off96 : Fin 3 → Nat :=
  let c21_i32 : BitVec 32 := 21#32
  let c3_i32_471 : BitVec 32 := 3#32
  let v737 : BitVec 32 := Scalar.addi c21_i32 c3_i32_471
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v737 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off97 (v1096 : BitVec 32) : Fin 3 → Nat :=
  let c0_i32_700 : BitVec 32 := 0#32
  let c0_i32_701 : BitVec 32 := 0#32
  ![v1096.toNat, 0, 0]

def k0_chk25 (v1096 : BitVec 32) : Prop :=
  (∀ (k0_h22 : k0_cond22 = 1#1), ∀ a, (k0_off97 v1096) a + S1x280x384.size a ≤ S128x280x384.size a)
instance k0_chk25.dec : ∀ (v1096 : BitVec 32), Decidable (k0_chk25 v1096) := fun v1096 => decidable_of_iff' _ (Iff.of_eq (k0_chk25.eq_1 v1096))
theorem k0_off97_inb : ∀ (v1096 : BitVec 32) (k0_hw25 : k0_chk25 v1096), ∀ (k0_h22 : k0_cond22 = 1#1), ∀ a, (k0_off97 v1096) a + S1x280x384.size a ≤ S128x280x384.size a := fun v1096 k0_hw25 k0_h22 => k0_hw25 k0_h22

def k0_cond23 : BitVec 1 :=
  let c22_i32 : BitVec 32 := 22#32
  let c3_i32_492 : BitVec 32 := 3#32
  let v770 : BitVec 32 := Scalar.addi c22_i32 c3_i32_492
  let c32_i32_493 : BitVec 32 := 32#32
  let v771 : BitVec 1 := Scalar.cmpi .slt v770 c32_i32_493
  let v772 : BitVec 32 := Scalar.extui v771
  let c0_i32_494 : BitVec 32 := 0#32
  let v773 : BitVec 1 := Scalar.cmpi .ne v772 c0_i32_494
  v773

def k0_off98 (i : grid0.Coords) : Fin 1 → Nat :=
  let arg0 : BitVec 32 := BitVec.ofNat 32 (i 0).val
  let c32_i32 : BitVec 32 := 32#32
  let v0 : BitVec 32 := Scalar.muli arg0 c32_i32
  let c22_i32 : BitVec 32 := 22#32
  let c3_i32_492 : BitVec 32 := 3#32
  let v770 : BitVec 32 := Scalar.addi c22_i32 c3_i32_492
  let v1094 : BitVec 32 := Scalar.addi v0 v770
  let v1095 : Index := Scalar.indexCast v1094
  ![v1095.toNat]
def k0_off99 : Fin 1 → Nat :=
  let c22_i32 : BitVec 32 := 22#32
  let c3_i32_492 : BitVec 32 := 3#32
  let v770 : BitVec 32 := Scalar.addi c22_i32 c3_i32_492
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v770 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off100 : Fin 3 → Nat :=
  let c22_i32 : BitVec 32 := 22#32
  let c3_i32_492 : BitVec 32 := 3#32
  let v770 : BitVec 32 := Scalar.addi c22_i32 c3_i32_492
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v770 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off101 (v1096 : BitVec 32) : Fin 3 → Nat :=
  let c0_i32_700 : BitVec 32 := 0#32
  let c0_i32_701 : BitVec 32 := 0#32
  ![v1096.toNat, 0, 0]

def k0_chk26 (v1096 : BitVec 32) : Prop :=
  (∀ (k0_h23 : k0_cond23 = 1#1), ∀ a, (k0_off101 v1096) a + S1x280x384.size a ≤ S128x280x384.size a)
instance k0_chk26.dec : ∀ (v1096 : BitVec 32), Decidable (k0_chk26 v1096) := fun v1096 => decidable_of_iff' _ (Iff.of_eq (k0_chk26.eq_1 v1096))
theorem k0_off101_inb : ∀ (v1096 : BitVec 32) (k0_hw26 : k0_chk26 v1096), ∀ (k0_h23 : k0_cond23 = 1#1), ∀ a, (k0_off101 v1096) a + S1x280x384.size a ≤ S128x280x384.size a := fun v1096 k0_hw26 k0_h23 => k0_hw26 k0_h23

def k0_cond24 : BitVec 1 :=
  let c23_i32 : BitVec 32 := 23#32
  let c3_i32_513 : BitVec 32 := 3#32
  let v803 : BitVec 32 := Scalar.addi c23_i32 c3_i32_513
  let c32_i32_514 : BitVec 32 := 32#32
  let v804 : BitVec 1 := Scalar.cmpi .slt v803 c32_i32_514
  let v805 : BitVec 32 := Scalar.extui v804
  let c0_i32_515 : BitVec 32 := 0#32
  let v806 : BitVec 1 := Scalar.cmpi .ne v805 c0_i32_515
  v806

def k0_off102 (i : grid0.Coords) : Fin 1 → Nat :=
  let arg0 : BitVec 32 := BitVec.ofNat 32 (i 0).val
  let c32_i32 : BitVec 32 := 32#32
  let v0 : BitVec 32 := Scalar.muli arg0 c32_i32
  let c23_i32 : BitVec 32 := 23#32
  let c3_i32_513 : BitVec 32 := 3#32
  let v803 : BitVec 32 := Scalar.addi c23_i32 c3_i32_513
  let v1094 : BitVec 32 := Scalar.addi v0 v803
  let v1095 : Index := Scalar.indexCast v1094
  ![v1095.toNat]
def k0_off103 : Fin 1 → Nat :=
  let c23_i32 : BitVec 32 := 23#32
  let c3_i32_513 : BitVec 32 := 3#32
  let v803 : BitVec 32 := Scalar.addi c23_i32 c3_i32_513
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v803 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off104 : Fin 3 → Nat :=
  let c23_i32 : BitVec 32 := 23#32
  let c3_i32_513 : BitVec 32 := 3#32
  let v803 : BitVec 32 := Scalar.addi c23_i32 c3_i32_513
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v803 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off105 (v1096 : BitVec 32) : Fin 3 → Nat :=
  let c0_i32_700 : BitVec 32 := 0#32
  let c0_i32_701 : BitVec 32 := 0#32
  ![v1096.toNat, 0, 0]

def k0_chk27 (v1096 : BitVec 32) : Prop :=
  (∀ (k0_h24 : k0_cond24 = 1#1), ∀ a, (k0_off105 v1096) a + S1x280x384.size a ≤ S128x280x384.size a)
instance k0_chk27.dec : ∀ (v1096 : BitVec 32), Decidable (k0_chk27 v1096) := fun v1096 => decidable_of_iff' _ (Iff.of_eq (k0_chk27.eq_1 v1096))
theorem k0_off105_inb : ∀ (v1096 : BitVec 32) (k0_hw27 : k0_chk27 v1096), ∀ (k0_h24 : k0_cond24 = 1#1), ∀ a, (k0_off105 v1096) a + S1x280x384.size a ≤ S128x280x384.size a := fun v1096 k0_hw27 k0_h24 => k0_hw27 k0_h24

def k0_cond25 : BitVec 1 :=
  let c24_i32 : BitVec 32 := 24#32
  let c3_i32_534 : BitVec 32 := 3#32
  let v836 : BitVec 32 := Scalar.addi c24_i32 c3_i32_534
  let c32_i32_535 : BitVec 32 := 32#32
  let v837 : BitVec 1 := Scalar.cmpi .slt v836 c32_i32_535
  let v838 : BitVec 32 := Scalar.extui v837
  let c0_i32_536 : BitVec 32 := 0#32
  let v839 : BitVec 1 := Scalar.cmpi .ne v838 c0_i32_536
  v839

def k0_off106 (i : grid0.Coords) : Fin 1 → Nat :=
  let arg0 : BitVec 32 := BitVec.ofNat 32 (i 0).val
  let c32_i32 : BitVec 32 := 32#32
  let v0 : BitVec 32 := Scalar.muli arg0 c32_i32
  let c24_i32 : BitVec 32 := 24#32
  let c3_i32_534 : BitVec 32 := 3#32
  let v836 : BitVec 32 := Scalar.addi c24_i32 c3_i32_534
  let v1094 : BitVec 32 := Scalar.addi v0 v836
  let v1095 : Index := Scalar.indexCast v1094
  ![v1095.toNat]
def k0_off107 : Fin 1 → Nat :=
  let c24_i32 : BitVec 32 := 24#32
  let c3_i32_534 : BitVec 32 := 3#32
  let v836 : BitVec 32 := Scalar.addi c24_i32 c3_i32_534
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v836 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off108 : Fin 3 → Nat :=
  let c24_i32 : BitVec 32 := 24#32
  let c3_i32_534 : BitVec 32 := 3#32
  let v836 : BitVec 32 := Scalar.addi c24_i32 c3_i32_534
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v836 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off109 (v1096 : BitVec 32) : Fin 3 → Nat :=
  let c0_i32_700 : BitVec 32 := 0#32
  let c0_i32_701 : BitVec 32 := 0#32
  ![v1096.toNat, 0, 0]

def k0_chk28 (v1096 : BitVec 32) : Prop :=
  (∀ (k0_h25 : k0_cond25 = 1#1), ∀ a, (k0_off109 v1096) a + S1x280x384.size a ≤ S128x280x384.size a)
instance k0_chk28.dec : ∀ (v1096 : BitVec 32), Decidable (k0_chk28 v1096) := fun v1096 => decidable_of_iff' _ (Iff.of_eq (k0_chk28.eq_1 v1096))
theorem k0_off109_inb : ∀ (v1096 : BitVec 32) (k0_hw28 : k0_chk28 v1096), ∀ (k0_h25 : k0_cond25 = 1#1), ∀ a, (k0_off109 v1096) a + S1x280x384.size a ≤ S128x280x384.size a := fun v1096 k0_hw28 k0_h25 => k0_hw28 k0_h25

def k0_cond26 : BitVec 1 :=
  let c25_i32 : BitVec 32 := 25#32
  let c3_i32_555 : BitVec 32 := 3#32
  let v869 : BitVec 32 := Scalar.addi c25_i32 c3_i32_555
  let c32_i32_556 : BitVec 32 := 32#32
  let v870 : BitVec 1 := Scalar.cmpi .slt v869 c32_i32_556
  let v871 : BitVec 32 := Scalar.extui v870
  let c0_i32_557 : BitVec 32 := 0#32
  let v872 : BitVec 1 := Scalar.cmpi .ne v871 c0_i32_557
  v872

def k0_off110 (i : grid0.Coords) : Fin 1 → Nat :=
  let arg0 : BitVec 32 := BitVec.ofNat 32 (i 0).val
  let c32_i32 : BitVec 32 := 32#32
  let v0 : BitVec 32 := Scalar.muli arg0 c32_i32
  let c25_i32 : BitVec 32 := 25#32
  let c3_i32_555 : BitVec 32 := 3#32
  let v869 : BitVec 32 := Scalar.addi c25_i32 c3_i32_555
  let v1094 : BitVec 32 := Scalar.addi v0 v869
  let v1095 : Index := Scalar.indexCast v1094
  ![v1095.toNat]
def k0_off111 : Fin 1 → Nat :=
  let c25_i32 : BitVec 32 := 25#32
  let c3_i32_555 : BitVec 32 := 3#32
  let v869 : BitVec 32 := Scalar.addi c25_i32 c3_i32_555
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v869 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off112 : Fin 3 → Nat :=
  let c25_i32 : BitVec 32 := 25#32
  let c3_i32_555 : BitVec 32 := 3#32
  let v869 : BitVec 32 := Scalar.addi c25_i32 c3_i32_555
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v869 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off113 (v1096 : BitVec 32) : Fin 3 → Nat :=
  let c0_i32_700 : BitVec 32 := 0#32
  let c0_i32_701 : BitVec 32 := 0#32
  ![v1096.toNat, 0, 0]

def k0_chk29 (v1096 : BitVec 32) : Prop :=
  (∀ (k0_h26 : k0_cond26 = 1#1), ∀ a, (k0_off113 v1096) a + S1x280x384.size a ≤ S128x280x384.size a)
instance k0_chk29.dec : ∀ (v1096 : BitVec 32), Decidable (k0_chk29 v1096) := fun v1096 => decidable_of_iff' _ (Iff.of_eq (k0_chk29.eq_1 v1096))
theorem k0_off113_inb : ∀ (v1096 : BitVec 32) (k0_hw29 : k0_chk29 v1096), ∀ (k0_h26 : k0_cond26 = 1#1), ∀ a, (k0_off113 v1096) a + S1x280x384.size a ≤ S128x280x384.size a := fun v1096 k0_hw29 k0_h26 => k0_hw29 k0_h26

def k0_cond27 : BitVec 1 :=
  let c26_i32 : BitVec 32 := 26#32
  let c3_i32_576 : BitVec 32 := 3#32
  let v902 : BitVec 32 := Scalar.addi c26_i32 c3_i32_576
  let c32_i32_577 : BitVec 32 := 32#32
  let v903 : BitVec 1 := Scalar.cmpi .slt v902 c32_i32_577
  let v904 : BitVec 32 := Scalar.extui v903
  let c0_i32_578 : BitVec 32 := 0#32
  let v905 : BitVec 1 := Scalar.cmpi .ne v904 c0_i32_578
  v905

def k0_off114 (i : grid0.Coords) : Fin 1 → Nat :=
  let arg0 : BitVec 32 := BitVec.ofNat 32 (i 0).val
  let c32_i32 : BitVec 32 := 32#32
  let v0 : BitVec 32 := Scalar.muli arg0 c32_i32
  let c26_i32 : BitVec 32 := 26#32
  let c3_i32_576 : BitVec 32 := 3#32
  let v902 : BitVec 32 := Scalar.addi c26_i32 c3_i32_576
  let v1094 : BitVec 32 := Scalar.addi v0 v902
  let v1095 : Index := Scalar.indexCast v1094
  ![v1095.toNat]
def k0_off115 : Fin 1 → Nat :=
  let c26_i32 : BitVec 32 := 26#32
  let c3_i32_576 : BitVec 32 := 3#32
  let v902 : BitVec 32 := Scalar.addi c26_i32 c3_i32_576
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v902 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off116 : Fin 3 → Nat :=
  let c26_i32 : BitVec 32 := 26#32
  let c3_i32_576 : BitVec 32 := 3#32
  let v902 : BitVec 32 := Scalar.addi c26_i32 c3_i32_576
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v902 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off117 (v1096 : BitVec 32) : Fin 3 → Nat :=
  let c0_i32_700 : BitVec 32 := 0#32
  let c0_i32_701 : BitVec 32 := 0#32
  ![v1096.toNat, 0, 0]

def k0_chk30 (v1096 : BitVec 32) : Prop :=
  (∀ (k0_h27 : k0_cond27 = 1#1), ∀ a, (k0_off117 v1096) a + S1x280x384.size a ≤ S128x280x384.size a)
instance k0_chk30.dec : ∀ (v1096 : BitVec 32), Decidable (k0_chk30 v1096) := fun v1096 => decidable_of_iff' _ (Iff.of_eq (k0_chk30.eq_1 v1096))
theorem k0_off117_inb : ∀ (v1096 : BitVec 32) (k0_hw30 : k0_chk30 v1096), ∀ (k0_h27 : k0_cond27 = 1#1), ∀ a, (k0_off117 v1096) a + S1x280x384.size a ≤ S128x280x384.size a := fun v1096 k0_hw30 k0_h27 => k0_hw30 k0_h27

def k0_cond28 : BitVec 1 :=
  let c27_i32 : BitVec 32 := 27#32
  let c3_i32_597 : BitVec 32 := 3#32
  let v935 : BitVec 32 := Scalar.addi c27_i32 c3_i32_597
  let c32_i32_598 : BitVec 32 := 32#32
  let v936 : BitVec 1 := Scalar.cmpi .slt v935 c32_i32_598
  let v937 : BitVec 32 := Scalar.extui v936
  let c0_i32_599 : BitVec 32 := 0#32
  let v938 : BitVec 1 := Scalar.cmpi .ne v937 c0_i32_599
  v938

def k0_off118 (i : grid0.Coords) : Fin 1 → Nat :=
  let arg0 : BitVec 32 := BitVec.ofNat 32 (i 0).val
  let c32_i32 : BitVec 32 := 32#32
  let v0 : BitVec 32 := Scalar.muli arg0 c32_i32
  let c27_i32 : BitVec 32 := 27#32
  let c3_i32_597 : BitVec 32 := 3#32
  let v935 : BitVec 32 := Scalar.addi c27_i32 c3_i32_597
  let v1094 : BitVec 32 := Scalar.addi v0 v935
  let v1095 : Index := Scalar.indexCast v1094
  ![v1095.toNat]
def k0_off119 : Fin 1 → Nat :=
  let c27_i32 : BitVec 32 := 27#32
  let c3_i32_597 : BitVec 32 := 3#32
  let v935 : BitVec 32 := Scalar.addi c27_i32 c3_i32_597
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v935 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off120 : Fin 3 → Nat :=
  let c27_i32 : BitVec 32 := 27#32
  let c3_i32_597 : BitVec 32 := 3#32
  let v935 : BitVec 32 := Scalar.addi c27_i32 c3_i32_597
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v935 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off121 (v1096 : BitVec 32) : Fin 3 → Nat :=
  let c0_i32_700 : BitVec 32 := 0#32
  let c0_i32_701 : BitVec 32 := 0#32
  ![v1096.toNat, 0, 0]

def k0_chk31 (v1096 : BitVec 32) : Prop :=
  (∀ (k0_h28 : k0_cond28 = 1#1), ∀ a, (k0_off121 v1096) a + S1x280x384.size a ≤ S128x280x384.size a)
instance k0_chk31.dec : ∀ (v1096 : BitVec 32), Decidable (k0_chk31 v1096) := fun v1096 => decidable_of_iff' _ (Iff.of_eq (k0_chk31.eq_1 v1096))
theorem k0_off121_inb : ∀ (v1096 : BitVec 32) (k0_hw31 : k0_chk31 v1096), ∀ (k0_h28 : k0_cond28 = 1#1), ∀ a, (k0_off121 v1096) a + S1x280x384.size a ≤ S128x280x384.size a := fun v1096 k0_hw31 k0_h28 => k0_hw31 k0_h28

def k0_cond29 : BitVec 1 :=
  let c28_i32 : BitVec 32 := 28#32
  let c3_i32_618 : BitVec 32 := 3#32
  let v968 : BitVec 32 := Scalar.addi c28_i32 c3_i32_618
  let c32_i32_619 : BitVec 32 := 32#32
  let v969 : BitVec 1 := Scalar.cmpi .slt v968 c32_i32_619
  let v970 : BitVec 32 := Scalar.extui v969
  let c0_i32_620 : BitVec 32 := 0#32
  let v971 : BitVec 1 := Scalar.cmpi .ne v970 c0_i32_620
  v971

def k0_off122 (i : grid0.Coords) : Fin 1 → Nat :=
  let arg0 : BitVec 32 := BitVec.ofNat 32 (i 0).val
  let c32_i32 : BitVec 32 := 32#32
  let v0 : BitVec 32 := Scalar.muli arg0 c32_i32
  let c28_i32 : BitVec 32 := 28#32
  let c3_i32_618 : BitVec 32 := 3#32
  let v968 : BitVec 32 := Scalar.addi c28_i32 c3_i32_618
  let v1094 : BitVec 32 := Scalar.addi v0 v968
  let v1095 : Index := Scalar.indexCast v1094
  ![v1095.toNat]
def k0_off123 : Fin 1 → Nat :=
  let c28_i32 : BitVec 32 := 28#32
  let c3_i32_618 : BitVec 32 := 3#32
  let v968 : BitVec 32 := Scalar.addi c28_i32 c3_i32_618
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v968 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off124 : Fin 3 → Nat :=
  let c28_i32 : BitVec 32 := 28#32
  let c3_i32_618 : BitVec 32 := 3#32
  let v968 : BitVec 32 := Scalar.addi c28_i32 c3_i32_618
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v968 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off125 (v1096 : BitVec 32) : Fin 3 → Nat :=
  let c0_i32_700 : BitVec 32 := 0#32
  let c0_i32_701 : BitVec 32 := 0#32
  ![v1096.toNat, 0, 0]

def k0_chk32 (v1096 : BitVec 32) : Prop :=
  (∀ (k0_h29 : k0_cond29 = 1#1), ∀ a, (k0_off125 v1096) a + S1x280x384.size a ≤ S128x280x384.size a)
instance k0_chk32.dec : ∀ (v1096 : BitVec 32), Decidable (k0_chk32 v1096) := fun v1096 => decidable_of_iff' _ (Iff.of_eq (k0_chk32.eq_1 v1096))
theorem k0_off125_inb : ∀ (v1096 : BitVec 32) (k0_hw32 : k0_chk32 v1096), ∀ (k0_h29 : k0_cond29 = 1#1), ∀ a, (k0_off125 v1096) a + S1x280x384.size a ≤ S128x280x384.size a := fun v1096 k0_hw32 k0_h29 => k0_hw32 k0_h29

def k0_cond30 : BitVec 1 :=
  let c29_i32 : BitVec 32 := 29#32
  let c3_i32_639 : BitVec 32 := 3#32
  let v1001 : BitVec 32 := Scalar.addi c29_i32 c3_i32_639
  let c32_i32_640 : BitVec 32 := 32#32
  let v1002 : BitVec 1 := Scalar.cmpi .slt v1001 c32_i32_640
  let v1003 : BitVec 32 := Scalar.extui v1002
  let c0_i32_641 : BitVec 32 := 0#32
  let v1004 : BitVec 1 := Scalar.cmpi .ne v1003 c0_i32_641
  v1004

def k0_off126 (i : grid0.Coords) : Fin 1 → Nat :=
  let arg0 : BitVec 32 := BitVec.ofNat 32 (i 0).val
  let c32_i32 : BitVec 32 := 32#32
  let v0 : BitVec 32 := Scalar.muli arg0 c32_i32
  let c29_i32 : BitVec 32 := 29#32
  let c3_i32_639 : BitVec 32 := 3#32
  let v1001 : BitVec 32 := Scalar.addi c29_i32 c3_i32_639
  let v1094 : BitVec 32 := Scalar.addi v0 v1001
  let v1095 : Index := Scalar.indexCast v1094
  ![v1095.toNat]
def k0_off127 : Fin 1 → Nat :=
  let c29_i32 : BitVec 32 := 29#32
  let c3_i32_639 : BitVec 32 := 3#32
  let v1001 : BitVec 32 := Scalar.addi c29_i32 c3_i32_639
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v1001 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off128 : Fin 3 → Nat :=
  let c29_i32 : BitVec 32 := 29#32
  let c3_i32_639 : BitVec 32 := 3#32
  let v1001 : BitVec 32 := Scalar.addi c29_i32 c3_i32_639
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v1001 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off129 (v1096 : BitVec 32) : Fin 3 → Nat :=
  let c0_i32_700 : BitVec 32 := 0#32
  let c0_i32_701 : BitVec 32 := 0#32
  ![v1096.toNat, 0, 0]

def k0_chk33 (v1096 : BitVec 32) : Prop :=
  (∀ (k0_h30 : k0_cond30 = 1#1), ∀ a, (k0_off129 v1096) a + S1x280x384.size a ≤ S128x280x384.size a)
instance k0_chk33.dec : ∀ (v1096 : BitVec 32), Decidable (k0_chk33 v1096) := fun v1096 => decidable_of_iff' _ (Iff.of_eq (k0_chk33.eq_1 v1096))
theorem k0_off129_inb : ∀ (v1096 : BitVec 32) (k0_hw33 : k0_chk33 v1096), ∀ (k0_h30 : k0_cond30 = 1#1), ∀ a, (k0_off129 v1096) a + S1x280x384.size a ≤ S128x280x384.size a := fun v1096 k0_hw33 k0_h30 => k0_hw33 k0_h30

def k0_cond31 : BitVec 1 :=
  let c30_i32 : BitVec 32 := 30#32
  let c3_i32_660 : BitVec 32 := 3#32
  let v1034 : BitVec 32 := Scalar.addi c30_i32 c3_i32_660
  let c32_i32_661 : BitVec 32 := 32#32
  let v1035 : BitVec 1 := Scalar.cmpi .slt v1034 c32_i32_661
  let v1036 : BitVec 32 := Scalar.extui v1035
  let c0_i32_662 : BitVec 32 := 0#32
  let v1037 : BitVec 1 := Scalar.cmpi .ne v1036 c0_i32_662
  v1037

def k0_off130 (i : grid0.Coords) : Fin 1 → Nat :=
  let arg0 : BitVec 32 := BitVec.ofNat 32 (i 0).val
  let c32_i32 : BitVec 32 := 32#32
  let v0 : BitVec 32 := Scalar.muli arg0 c32_i32
  let c30_i32 : BitVec 32 := 30#32
  let c3_i32_660 : BitVec 32 := 3#32
  let v1034 : BitVec 32 := Scalar.addi c30_i32 c3_i32_660
  let v1094 : BitVec 32 := Scalar.addi v0 v1034
  let v1095 : Index := Scalar.indexCast v1094
  ![v1095.toNat]
def k0_off131 : Fin 1 → Nat :=
  let c30_i32 : BitVec 32 := 30#32
  let c3_i32_660 : BitVec 32 := 3#32
  let v1034 : BitVec 32 := Scalar.addi c30_i32 c3_i32_660
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v1034 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off132 : Fin 3 → Nat :=
  let c30_i32 : BitVec 32 := 30#32
  let c3_i32_660 : BitVec 32 := 3#32
  let v1034 : BitVec 32 := Scalar.addi c30_i32 c3_i32_660
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v1034 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off133 (v1096 : BitVec 32) : Fin 3 → Nat :=
  let c0_i32_700 : BitVec 32 := 0#32
  let c0_i32_701 : BitVec 32 := 0#32
  ![v1096.toNat, 0, 0]

def k0_chk34 (v1096 : BitVec 32) : Prop :=
  (∀ (k0_h31 : k0_cond31 = 1#1), ∀ a, (k0_off133 v1096) a + S1x280x384.size a ≤ S128x280x384.size a)
instance k0_chk34.dec : ∀ (v1096 : BitVec 32), Decidable (k0_chk34 v1096) := fun v1096 => decidable_of_iff' _ (Iff.of_eq (k0_chk34.eq_1 v1096))
theorem k0_off133_inb : ∀ (v1096 : BitVec 32) (k0_hw34 : k0_chk34 v1096), ∀ (k0_h31 : k0_cond31 = 1#1), ∀ a, (k0_off133 v1096) a + S1x280x384.size a ≤ S128x280x384.size a := fun v1096 k0_hw34 k0_h31 => k0_hw34 k0_h31

def k0_cond32 : BitVec 1 :=
  let c31_i32 : BitVec 32 := 31#32
  let c3_i32_681 : BitVec 32 := 3#32
  let v1067 : BitVec 32 := Scalar.addi c31_i32 c3_i32_681
  let c32_i32_682 : BitVec 32 := 32#32
  let v1068 : BitVec 1 := Scalar.cmpi .slt v1067 c32_i32_682
  let v1069 : BitVec 32 := Scalar.extui v1068
  let c0_i32_683 : BitVec 32 := 0#32
  let v1070 : BitVec 1 := Scalar.cmpi .ne v1069 c0_i32_683
  v1070

def k0_off134 (i : grid0.Coords) : Fin 1 → Nat :=
  let arg0 : BitVec 32 := BitVec.ofNat 32 (i 0).val
  let c32_i32 : BitVec 32 := 32#32
  let v0 : BitVec 32 := Scalar.muli arg0 c32_i32
  let c31_i32 : BitVec 32 := 31#32
  let c3_i32_681 : BitVec 32 := 3#32
  let v1067 : BitVec 32 := Scalar.addi c31_i32 c3_i32_681
  let v1094 : BitVec 32 := Scalar.addi v0 v1067
  let v1095 : Index := Scalar.indexCast v1094
  ![v1095.toNat]
def k0_off135 : Fin 1 → Nat :=
  let c31_i32 : BitVec 32 := 31#32
  let c3_i32_681 : BitVec 32 := 3#32
  let v1067 : BitVec 32 := Scalar.addi c31_i32 c3_i32_681
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v1067 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  ![v1093.toNat]
def k0_off136 : Fin 3 → Nat :=
  let c31_i32 : BitVec 32 := 31#32
  let c3_i32_681 : BitVec 32 := 3#32
  let v1067 : BitVec 32 := Scalar.addi c31_i32 c3_i32_681
  let c4_i32_692 : BitVec 32 := 4#32
  let c0_i32_693 : BitVec 32 := 0#32
  let v1084 : BitVec 1 := Scalar.cmpi .eq c4_i32_692 c0_i32_693
  let c1_i32_694 : BitVec 32 := 1#32
  let v1085 : BitVec 32 := Scalar.select v1084 c1_i32_694 c4_i32_692
  let v1086 : BitVec 32 := Scalar.remsi v1067 v1085
  let c0_i32_696 : BitVec 32 := 0#32
  let v1088 : BitVec 1 := Scalar.cmpi .slt v1086 c0_i32_696
  let c0_i32_697 : BitVec 32 := 0#32
  let v1089 : BitVec 1 := Scalar.cmpi .slt v1085 c0_i32_697
  let v1090 : BitVec 1 := Scalar.xori v1088 v1089
  let c0_i32_695 : BitVec 32 := 0#32
  let v1087 : BitVec 1 := Scalar.cmpi .ne v1086 c0_i32_695
  let v1091 : BitVec 1 := Scalar.andi v1090 v1087
  let v1092 : BitVec 32 := Scalar.addi v1086 v1085
  let v1093 : BitVec 32 := Scalar.select v1091 v1092 v1086
  let c0_i32_698 : BitVec 32 := 0#32
  let c0_i32_699 : BitVec 32 := 0#32
  ![v1093.toNat, 0, 0]
def k0_off137 (v1096 : BitVec 32) : Fin 3 → Nat :=
  let c0_i32_700 : BitVec 32 := 0#32
  let c0_i32_701 : BitVec 32 := 0#32
  ![v1096.toNat, 0, 0]

def k0_chk35 (v1096 : BitVec 32) : Prop :=
  (∀ (k0_h32 : k0_cond32 = 1#1), ∀ a, (k0_off137 v1096) a + S1x280x384.size a ≤ S128x280x384.size a)
instance k0_chk35.dec : ∀ (v1096 : BitVec 32), Decidable (k0_chk35 v1096) := fun v1096 => decidable_of_iff' _ (Iff.of_eq (k0_chk35.eq_1 v1096))
theorem k0_off137_inb : ∀ (v1096 : BitVec 32) (k0_hw35 : k0_chk35 v1096), ∀ (k0_h32 : k0_cond32 = 1#1), ∀ a, (k0_off137 v1096) a + S1x280x384.size a ≤ S128x280x384.size a := fun v1096 k0_hw35 k0_h32 => k0_hw35 k0_h32

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x273x360 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x273x360 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S256 : S_.BroadcastsInDim S256 (![] : Fin 0 → Fin S256.rank)
  pads_S128x273x273_S128x280x384_000_070_01110 : S128x273x273.Pads (![0, 0, 0] : Fin 3 → Nat) ![0, 7, 111] ![0, 0, 0] S128x280x384
  h_S_ : 0 < S_.numel
  numel1_S1 : S1.numel = 1
  inb_S4_S1_0 : ∀ a, (![0] : Fin 1 → Nat) a + S1.size a ≤ S4.size a
  squeezes_S1_S_ : S1.Squeezes S_
  inb_S4x280x384_S1x280x384_0_0_0 : ∀ a, (![0, 0, 0] : Fin 3 → Nat) a + S1x280x384.size a ≤ S4x280x384.size a
  squeezes_S1x280x384_S280x384 : S1x280x384.Squeezes S280x384
  inb_S4_S1_1 : ∀ a, (![1] : Fin 1 → Nat) a + S1.size a ≤ S4.size a
  inb_S4x280x384_S1x280x384_1_0_0 : ∀ a, (![1, 0, 0] : Fin 3 → Nat) a + S1x280x384.size a ≤ S4x280x384.size a
  inb_S4_S1_2 : ∀ a, (![2] : Fin 1 → Nat) a + S1.size a ≤ S4.size a
  inb_S4x280x384_S1x280x384_2_0_0 : ∀ a, (![2, 0, 0] : Fin 3 → Nat) a + S1x280x384.size a ≤ S4x280x384.size a
  inb_S128x280x384_S1x280x384_0_0_0 : ∀ a, (![0, 0, 0] : Fin 3 → Nat) a + S1x280x384.size a ≤ S128x280x384.size a
  h_S1x280x384 : 0 < S1x280x384.numel
  shapeCasts_S1x280x384_S280x384 : S1x280x384.ShapeCasts S280x384
  slices_S280x384_o0_0_S273x384 : S280x384.Slices ![0, 0] S273x384
  inb_S32x273x360_S1x273x360_0_0_0 : ∀ a, (![0, 0, 0] : Fin 3 → Nat) a + S1x273x360.size a ≤ S32x273x360.size a
  h_S1x273x360 : 0 < S1x273x360.numel
  shapeCasts_S1x273x360_S273x360 : S1x273x360.ShapeCasts S273x360
  slices_S384x360_o0_0_S273x360 : S384x360.Slices ![0, 0] S273x360
  shapeCasts_S273x360_S1x273x360 : S273x360.ShapeCasts S1x273x360
  inb_S32x273x360_S1x273x360_1_0_0 : ∀ a, (![1, 0, 0] : Fin 3 → Nat) a + S1x273x360.size a ≤ S32x273x360.size a
  inb_S32x273x360_S1x273x360_2_0_0 : ∀ a, (![2, 0, 0] : Fin 3 → Nat) a + S1x273x360.size a ≤ S32x273x360.size a
  inb_S32x273x360_S1x273x360_3_0_0 : ∀ a, (![3, 0, 0] : Fin 3 → Nat) a + S1x273x360.size a ≤ S32x273x360.size a
  inb_S32x273x360_S1x273x360_4_0_0 : ∀ a, (![4, 0, 0] : Fin 3 → Nat) a + S1x273x360.size a ≤ S32x273x360.size a
  inb_S32x273x360_S1x273x360_5_0_0 : ∀ a, (![5, 0, 0] : Fin 3 → Nat) a + S1x273x360.size a ≤ S32x273x360.size a
  inb_S32x273x360_S1x273x360_6_0_0 : ∀ a, (![6, 0, 0] : Fin 3 → Nat) a + S1x273x360.size a ≤ S32x273x360.size a
  inb_S32x273x360_S1x273x360_7_0_0 : ∀ a, (![7, 0, 0] : Fin 3 → Nat) a + S1x273x360.size a ≤ S32x273x360.size a
  inb_S32x273x360_S1x273x360_8_0_0 : ∀ a, (![8, 0, 0] : Fin 3 → Nat) a + S1x273x360.size a ≤ S32x273x360.size a
  inb_S32x273x360_S1x273x360_9_0_0 : ∀ a, (![9, 0, 0] : Fin 3 → Nat) a + S1x273x360.size a ≤ S32x273x360.size a
  inb_S32x273x360_S1x273x360_10_0_0 : ∀ a, (![10, 0, 0] : Fin 3 → Nat) a + S1x273x360.size a ≤ S32x273x360.size a
  inb_S32x273x360_S1x273x360_11_0_0 : ∀ a, (![11, 0, 0] : Fin 3 → Nat) a + S1x273x360.size a ≤ S32x273x360.size a
  inb_S32x273x360_S1x273x360_12_0_0 : ∀ a, (![12, 0, 0] : Fin 3 → Nat) a + S1x273x360.size a ≤ S32x273x360.size a
  inb_S32x273x360_S1x273x360_13_0_0 : ∀ a, (![13, 0, 0] : Fin 3 → Nat) a + S1x273x360.size a ≤ S32x273x360.size a
  inb_S32x273x360_S1x273x360_14_0_0 : ∀ a, (![14, 0, 0] : Fin 3 → Nat) a + S1x273x360.size a ≤ S32x273x360.size a
  inb_S32x273x360_S1x273x360_15_0_0 : ∀ a, (![15, 0, 0] : Fin 3 → Nat) a + S1x273x360.size a ≤ S32x273x360.size a
  inb_S32x273x360_S1x273x360_16_0_0 : ∀ a, (![16, 0, 0] : Fin 3 → Nat) a + S1x273x360.size a ≤ S32x273x360.size a
  inb_S32x273x360_S1x273x360_17_0_0 : ∀ a, (![17, 0, 0] : Fin 3 → Nat) a + S1x273x360.size a ≤ S32x273x360.size a
  inb_S32x273x360_S1x273x360_18_0_0 : ∀ a, (![18, 0, 0] : Fin 3 → Nat) a + S1x273x360.size a ≤ S32x273x360.size a
  inb_S32x273x360_S1x273x360_19_0_0 : ∀ a, (![19, 0, 0] : Fin 3 → Nat) a + S1x273x360.size a ≤ S32x273x360.size a
  inb_S32x273x360_S1x273x360_20_0_0 : ∀ a, (![20, 0, 0] : Fin 3 → Nat) a + S1x273x360.size a ≤ S32x273x360.size a
  inb_S32x273x360_S1x273x360_21_0_0 : ∀ a, (![21, 0, 0] : Fin 3 → Nat) a + S1x273x360.size a ≤ S32x273x360.size a
  inb_S32x273x360_S1x273x360_22_0_0 : ∀ a, (![22, 0, 0] : Fin 3 → Nat) a + S1x273x360.size a ≤ S32x273x360.size a
  inb_S32x273x360_S1x273x360_23_0_0 : ∀ a, (![23, 0, 0] : Fin 3 → Nat) a + S1x273x360.size a ≤ S32x273x360.size a
  inb_S32x273x360_S1x273x360_24_0_0 : ∀ a, (![24, 0, 0] : Fin 3 → Nat) a + S1x273x360.size a ≤ S32x273x360.size a
  inb_S32x273x360_S1x273x360_25_0_0 : ∀ a, (![25, 0, 0] : Fin 3 → Nat) a + S1x273x360.size a ≤ S32x273x360.size a
  inb_S32x273x360_S1x273x360_26_0_0 : ∀ a, (![26, 0, 0] : Fin 3 → Nat) a + S1x273x360.size a ≤ S32x273x360.size a
  inb_S32x273x360_S1x273x360_27_0_0 : ∀ a, (![27, 0, 0] : Fin 3 → Nat) a + S1x273x360.size a ≤ S32x273x360.size a
  inb_S32x273x360_S1x273x360_28_0_0 : ∀ a, (![28, 0, 0] : Fin 3 → Nat) a + S1x273x360.size a ≤ S32x273x360.size a
  inb_S32x273x360_S1x273x360_29_0_0 : ∀ a, (![29, 0, 0] : Fin 3 → Nat) a + S1x273x360.size a ≤ S32x273x360.size a
  inb_S32x273x360_S1x273x360_30_0_0 : ∀ a, (![30, 0, 0] : Fin 3 → Nat) a + S1x273x360.size a ≤ S32x273x360.size a
  inb_S32x273x360_S1x273x360_31_0_0 : ∀ a, (![31, 0, 0] : Fin 3 → Nat) a + S1x273x360.size a ≤ S32x273x360.size a
  dot_S273x384_S273x360_S384x360_0_0_1_1_n_n_wf : DotDims.WF S273x384 S273x360 S384x360 [0] [0] [1] [1] [] []
  hcc0_scratch1 : 4 + S4.numel ≤ 8
  hrank0 : 0 < grid0.rank
  k0_off1_inb : ∀ i : grid0.Coords, ∀ a, (k0_off1 i) a + S1.size a ≤ S256.size a
  k0_off3_inb : ∀ i : grid0.Coords, ∀ a, (k0_off3 i) a + S1.size a ≤ S256.size a
  k0_off5_inb : ∀ i : grid0.Coords, ∀ a, (k0_off5 i) a + S1.size a ≤ S256.size a
  k0_off7_inb : ∀ (r : Fin 32), ∀ a, (k0_off7 (BitVec.ofNat 32 r.val)) a + S1.size a ≤ S4.size a
  k0_off8_inb : ∀ (r : Fin 32), ∀ a, (k0_off8 (BitVec.ofNat 32 r.val)) a + S1x280x384.size a ≤ S4x280x384.size a
  k0_off9_inb : ∀ i : grid0.Coords, ∀ (k0_h1 : k0_cond1 = 1#1), ∀ a, (k0_off9 i) a + S1.size a ≤ S256.size a
  k0_off10_inb : ∀ (k0_h1 : k0_cond1 = 1#1), ∀ a, k0_off10 a + S1.size a ≤ S4.size a
  k0_off11_inb : ∀ (k0_h1 : k0_cond1 = 1#1), ∀ a, k0_off11 a + S1x280x384.size a ≤ S4x280x384.size a
  k0_off13_inb : ∀ (r : Fin 32), ∀ a, (k0_off13 (BitVec.ofNat 32 r.val)) a + S1x280x384.size a ≤ S4x280x384.size a
  k0_off14_inb : ∀ i : grid0.Coords, ∀ (k0_h2 : k0_cond2 = 1#1), ∀ a, (k0_off14 i) a + S1.size a ≤ S256.size a
  k0_off15_inb : ∀ (k0_h2 : k0_cond2 = 1#1), ∀ a, k0_off15 a + S1.size a ≤ S4.size a
  k0_off16_inb : ∀ (k0_h2 : k0_cond2 = 1#1), ∀ a, k0_off16 a + S1x280x384.size a ≤ S4x280x384.size a
  k0_off18_inb : ∀ i : grid0.Coords, ∀ (k0_h3 : k0_cond3 = 1#1), ∀ a, (k0_off18 i) a + S1.size a ≤ S256.size a
  k0_off19_inb : ∀ (k0_h3 : k0_cond3 = 1#1), ∀ a, k0_off19 a + S1.size a ≤ S4.size a
  k0_off20_inb : ∀ (k0_h3 : k0_cond3 = 1#1), ∀ a, k0_off20 a + S1x280x384.size a ≤ S4x280x384.size a
  k0_off22_inb : ∀ i : grid0.Coords, ∀ (k0_h4 : k0_cond4 = 1#1), ∀ a, (k0_off22 i) a + S1.size a ≤ S256.size a
  k0_off23_inb : ∀ (k0_h4 : k0_cond4 = 1#1), ∀ a, k0_off23 a + S1.size a ≤ S4.size a
  k0_off24_inb : ∀ (k0_h4 : k0_cond4 = 1#1), ∀ a, k0_off24 a + S1x280x384.size a ≤ S4x280x384.size a
  k0_off26_inb : ∀ i : grid0.Coords, ∀ (k0_h5 : k0_cond5 = 1#1), ∀ a, (k0_off26 i) a + S1.size a ≤ S256.size a
  k0_off27_inb : ∀ (k0_h5 : k0_cond5 = 1#1), ∀ a, k0_off27 a + S1.size a ≤ S4.size a
  k0_off28_inb : ∀ (k0_h5 : k0_cond5 = 1#1), ∀ a, k0_off28 a + S1x280x384.size a ≤ S4x280x384.size a
  k0_off30_inb : ∀ i : grid0.Coords, ∀ (k0_h6 : k0_cond6 = 1#1), ∀ a, (k0_off30 i) a + S1.size a ≤ S256.size a
  k0_off31_inb : ∀ (k0_h6 : k0_cond6 = 1#1), ∀ a, k0_off31 a + S1.size a ≤ S4.size a
  k0_off32_inb : ∀ (k0_h6 : k0_cond6 = 1#1), ∀ a, k0_off32 a + S1x280x384.size a ≤ S4x280x384.size a
  k0_off34_inb : ∀ i : grid0.Coords, ∀ (k0_h7 : k0_cond7 = 1#1), ∀ a, (k0_off34 i) a + S1.size a ≤ S256.size a
  k0_off35_inb : ∀ (k0_h7 : k0_cond7 = 1#1), ∀ a, k0_off35 a + S1.size a ≤ S4.size a
  k0_off36_inb : ∀ (k0_h7 : k0_cond7 = 1#1), ∀ a, k0_off36 a + S1x280x384.size a ≤ S4x280x384.size a
  k0_off38_inb : ∀ i : grid0.Coords, ∀ (k0_h8 : k0_cond8 = 1#1), ∀ a, (k0_off38 i) a + S1.size a ≤ S256.size a
  k0_off39_inb : ∀ (k0_h8 : k0_cond8 = 1#1), ∀ a, k0_off39 a + S1.size a ≤ S4.size a
  k0_off40_inb : ∀ (k0_h8 : k0_cond8 = 1#1), ∀ a, k0_off40 a + S1x280x384.size a ≤ S4x280x384.size a
  k0_off42_inb : ∀ i : grid0.Coords, ∀ (k0_h9 : k0_cond9 = 1#1), ∀ a, (k0_off42 i) a + S1.size a ≤ S256.size a
  k0_off43_inb : ∀ (k0_h9 : k0_cond9 = 1#1), ∀ a, k0_off43 a + S1.size a ≤ S4.size a
  k0_off44_inb : ∀ (k0_h9 : k0_cond9 = 1#1), ∀ a, k0_off44 a + S1x280x384.size a ≤ S4x280x384.size a
  k0_off46_inb : ∀ i : grid0.Coords, ∀ (k0_h10 : k0_cond10 = 1#1), ∀ a, (k0_off46 i) a + S1.size a ≤ S256.size a
  k0_off47_inb : ∀ (k0_h10 : k0_cond10 = 1#1), ∀ a, k0_off47 a + S1.size a ≤ S4.size a
  k0_off48_inb : ∀ (k0_h10 : k0_cond10 = 1#1), ∀ a, k0_off48 a + S1x280x384.size a ≤ S4x280x384.size a
  k0_off50_inb : ∀ i : grid0.Coords, ∀ (k0_h11 : k0_cond11 = 1#1), ∀ a, (k0_off50 i) a + S1.size a ≤ S256.size a
  k0_off51_inb : ∀ (k0_h11 : k0_cond11 = 1#1), ∀ a, k0_off51 a + S1.size a ≤ S4.size a
  k0_off52_inb : ∀ (k0_h11 : k0_cond11 = 1#1), ∀ a, k0_off52 a + S1x280x384.size a ≤ S4x280x384.size a
  k0_off54_inb : ∀ i : grid0.Coords, ∀ (k0_h12 : k0_cond12 = 1#1), ∀ a, (k0_off54 i) a + S1.size a ≤ S256.size a
  k0_off55_inb : ∀ (k0_h12 : k0_cond12 = 1#1), ∀ a, k0_off55 a + S1.size a ≤ S4.size a
  k0_off56_inb : ∀ (k0_h12 : k0_cond12 = 1#1), ∀ a, k0_off56 a + S1x280x384.size a ≤ S4x280x384.size a
  k0_off58_inb : ∀ i : grid0.Coords, ∀ (k0_h13 : k0_cond13 = 1#1), ∀ a, (k0_off58 i) a + S1.size a ≤ S256.size a
  k0_off59_inb : ∀ (k0_h13 : k0_cond13 = 1#1), ∀ a, k0_off59 a + S1.size a ≤ S4.size a
  k0_off60_inb : ∀ (k0_h13 : k0_cond13 = 1#1), ∀ a, k0_off60 a + S1x280x384.size a ≤ S4x280x384.size a
  k0_off62_inb : ∀ i : grid0.Coords, ∀ (k0_h14 : k0_cond14 = 1#1), ∀ a, (k0_off62 i) a + S1.size a ≤ S256.size a
  k0_off63_inb : ∀ (k0_h14 : k0_cond14 = 1#1), ∀ a, k0_off63 a + S1.size a ≤ S4.size a
  k0_off64_inb : ∀ (k0_h14 : k0_cond14 = 1#1), ∀ a, k0_off64 a + S1x280x384.size a ≤ S4x280x384.size a
  k0_off66_inb : ∀ i : grid0.Coords, ∀ (k0_h15 : k0_cond15 = 1#1), ∀ a, (k0_off66 i) a + S1.size a ≤ S256.size a
  k0_off67_inb : ∀ (k0_h15 : k0_cond15 = 1#1), ∀ a, k0_off67 a + S1.size a ≤ S4.size a
  k0_off68_inb : ∀ (k0_h15 : k0_cond15 = 1#1), ∀ a, k0_off68 a + S1x280x384.size a ≤ S4x280x384.size a
  k0_off70_inb : ∀ i : grid0.Coords, ∀ (k0_h16 : k0_cond16 = 1#1), ∀ a, (k0_off70 i) a + S1.size a ≤ S256.size a
  k0_off71_inb : ∀ (k0_h16 : k0_cond16 = 1#1), ∀ a, k0_off71 a + S1.size a ≤ S4.size a
  k0_off72_inb : ∀ (k0_h16 : k0_cond16 = 1#1), ∀ a, k0_off72 a + S1x280x384.size a ≤ S4x280x384.size a
  k0_off74_inb : ∀ i : grid0.Coords, ∀ (k0_h17 : k0_cond17 = 1#1), ∀ a, (k0_off74 i) a + S1.size a ≤ S256.size a
  k0_off75_inb : ∀ (k0_h17 : k0_cond17 = 1#1), ∀ a, k0_off75 a + S1.size a ≤ S4.size a
  k0_off76_inb : ∀ (k0_h17 : k0_cond17 = 1#1), ∀ a, k0_off76 a + S1x280x384.size a ≤ S4x280x384.size a
  k0_off78_inb : ∀ i : grid0.Coords, ∀ (k0_h18 : k0_cond18 = 1#1), ∀ a, (k0_off78 i) a + S1.size a ≤ S256.size a
  k0_off79_inb : ∀ (k0_h18 : k0_cond18 = 1#1), ∀ a, k0_off79 a + S1.size a ≤ S4.size a
  k0_off80_inb : ∀ (k0_h18 : k0_cond18 = 1#1), ∀ a, k0_off80 a + S1x280x384.size a ≤ S4x280x384.size a
  k0_off82_inb : ∀ i : grid0.Coords, ∀ (k0_h19 : k0_cond19 = 1#1), ∀ a, (k0_off82 i) a + S1.size a ≤ S256.size a
  k0_off83_inb : ∀ (k0_h19 : k0_cond19 = 1#1), ∀ a, k0_off83 a + S1.size a ≤ S4.size a
  k0_off84_inb : ∀ (k0_h19 : k0_cond19 = 1#1), ∀ a, k0_off84 a + S1x280x384.size a ≤ S4x280x384.size a
  k0_off86_inb : ∀ i : grid0.Coords, ∀ (k0_h20 : k0_cond20 = 1#1), ∀ a, (k0_off86 i) a + S1.size a ≤ S256.size a
  k0_off87_inb : ∀ (k0_h20 : k0_cond20 = 1#1), ∀ a, k0_off87 a + S1.size a ≤ S4.size a
  k0_off88_inb : ∀ (k0_h20 : k0_cond20 = 1#1), ∀ a, k0_off88 a + S1x280x384.size a ≤ S4x280x384.size a
  k0_off90_inb : ∀ i : grid0.Coords, ∀ (k0_h21 : k0_cond21 = 1#1), ∀ a, (k0_off90 i) a + S1.size a ≤ S256.size a
  k0_off91_inb : ∀ (k0_h21 : k0_cond21 = 1#1), ∀ a, k0_off91 a + S1.size a ≤ S4.size a
  k0_off92_inb : ∀ (k0_h21 : k0_cond21 = 1#1), ∀ a, k0_off92 a + S1x280x384.size a ≤ S4x280x384.size a
  k0_off94_inb : ∀ i : grid0.Coords, ∀ (k0_h22 : k0_cond22 = 1#1), ∀ a, (k0_off94 i) a + S1.size a ≤ S256.size a
  k0_off95_inb : ∀ (k0_h22 : k0_cond22 = 1#1), ∀ a, k0_off95 a + S1.size a ≤ S4.size a
  k0_off96_inb : ∀ (k0_h22 : k0_cond22 = 1#1), ∀ a, k0_off96 a + S1x280x384.size a ≤ S4x280x384.size a
  k0_off98_inb : ∀ i : grid0.Coords, ∀ (k0_h23 : k0_cond23 = 1#1), ∀ a, (k0_off98 i) a + S1.size a ≤ S256.size a
  k0_off99_inb : ∀ (k0_h23 : k0_cond23 = 1#1), ∀ a, k0_off99 a + S1.size a ≤ S4.size a
  k0_off100_inb : ∀ (k0_h23 : k0_cond23 = 1#1), ∀ a, k0_off100 a + S1x280x384.size a ≤ S4x280x384.size a
  k0_off102_inb : ∀ i : grid0.Coords, ∀ (k0_h24 : k0_cond24 = 1#1), ∀ a, (k0_off102 i) a + S1.size a ≤ S256.size a
  k0_off103_inb : ∀ (k0_h24 : k0_cond24 = 1#1), ∀ a, k0_off103 a + S1.size a ≤ S4.size a
  k0_off104_inb : ∀ (k0_h24 : k0_cond24 = 1#1), ∀ a, k0_off104 a + S1x280x384.size a ≤ S4x280x384.size a
  k0_off106_inb : ∀ i : grid0.Coords, ∀ (k0_h25 : k0_cond25 = 1#1), ∀ a, (k0_off106 i) a + S1.size a ≤ S256.size a
  k0_off107_inb : ∀ (k0_h25 : k0_cond25 = 1#1), ∀ a, k0_off107 a + S1.size a ≤ S4.size a
  k0_off108_inb : ∀ (k0_h25 : k0_cond25 = 1#1), ∀ a, k0_off108 a + S1x280x384.size a ≤ S4x280x384.size a
  k0_off110_inb : ∀ i : grid0.Coords, ∀ (k0_h26 : k0_cond26 = 1#1), ∀ a, (k0_off110 i) a + S1.size a ≤ S256.size a
  k0_off111_inb : ∀ (k0_h26 : k0_cond26 = 1#1), ∀ a, k0_off111 a + S1.size a ≤ S4.size a
  k0_off112_inb : ∀ (k0_h26 : k0_cond26 = 1#1), ∀ a, k0_off112 a + S1x280x384.size a ≤ S4x280x384.size a
  k0_off114_inb : ∀ i : grid0.Coords, ∀ (k0_h27 : k0_cond27 = 1#1), ∀ a, (k0_off114 i) a + S1.size a ≤ S256.size a
  k0_off115_inb : ∀ (k0_h27 : k0_cond27 = 1#1), ∀ a, k0_off115 a + S1.size a ≤ S4.size a
  k0_off116_inb : ∀ (k0_h27 : k0_cond27 = 1#1), ∀ a, k0_off116 a + S1x280x384.size a ≤ S4x280x384.size a
  k0_off118_inb : ∀ i : grid0.Coords, ∀ (k0_h28 : k0_cond28 = 1#1), ∀ a, (k0_off118 i) a + S1.size a ≤ S256.size a
  k0_off119_inb : ∀ (k0_h28 : k0_cond28 = 1#1), ∀ a, k0_off119 a + S1.size a ≤ S4.size a
  k0_off120_inb : ∀ (k0_h28 : k0_cond28 = 1#1), ∀ a, k0_off120 a + S1x280x384.size a ≤ S4x280x384.size a
  k0_off122_inb : ∀ i : grid0.Coords, ∀ (k0_h29 : k0_cond29 = 1#1), ∀ a, (k0_off122 i) a + S1.size a ≤ S256.size a
  k0_off123_inb : ∀ (k0_h29 : k0_cond29 = 1#1), ∀ a, k0_off123 a + S1.size a ≤ S4.size a
  k0_off124_inb : ∀ (k0_h29 : k0_cond29 = 1#1), ∀ a, k0_off124 a + S1x280x384.size a ≤ S4x280x384.size a
  k0_off126_inb : ∀ i : grid0.Coords, ∀ (k0_h30 : k0_cond30 = 1#1), ∀ a, (k0_off126 i) a + S1.size a ≤ S256.size a
  k0_off127_inb : ∀ (k0_h30 : k0_cond30 = 1#1), ∀ a, k0_off127 a + S1.size a ≤ S4.size a
  k0_off128_inb : ∀ (k0_h30 : k0_cond30 = 1#1), ∀ a, k0_off128 a + S1x280x384.size a ≤ S4x280x384.size a
  k0_off130_inb : ∀ i : grid0.Coords, ∀ (k0_h31 : k0_cond31 = 1#1), ∀ a, (k0_off130 i) a + S1.size a ≤ S256.size a
  k0_off131_inb : ∀ (k0_h31 : k0_cond31 = 1#1), ∀ a, k0_off131 a + S1.size a ≤ S4.size a
  k0_off132_inb : ∀ (k0_h31 : k0_cond31 = 1#1), ∀ a, k0_off132 a + S1x280x384.size a ≤ S4x280x384.size a
  k0_off134_inb : ∀ i : grid0.Coords, ∀ (k0_h32 : k0_cond32 = 1#1), ∀ a, (k0_off134 i) a + S1.size a ≤ S256.size a
  k0_off135_inb : ∀ (k0_h32 : k0_cond32 = 1#1), ∀ a, k0_off135 a + S1.size a ≤ S4.size a
  k0_off136_inb : ∀ (k0_h32 : k0_cond32 = 1#1), ∀ a, k0_off136 a + S1x280x384.size a ≤ S4x280x384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x273x360.size a ≤ S256x273x360.size a
  hwx0_0 : ∀ i : grid0.Coords, EltTy.bits .f32 = 32 ∨ (Rect.block (s := S256x273x360) S32x273x360.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S32x273x360.size a ≤ S256x273x360.size a
  hwx0_1 : ∀ i : grid0.Coords, EltTy.bits .f32 = 32 ∨ (Rect.block (s := S256x273x360) S32x273x360.size (cc0_transform_2 i) (hinb0_1 i)).WholeWords (EltTy.packing .f32)

variable [Facts₀]

abbrev cc0_scratch1 : DmaSems sig S4 := SemArray.consecutive 4 S4 hcc0_scratch1
def dot_S273x384_S273x360_S384x360_0_0_1_1_n_n : DotDims S273x384 S273x360 S384x360 where
  lhsContracting := [0]
  rhsContracting := [0]
  lhsNonContracting := [1]
  rhsNonContracting := [1]
  lhsBatch := []
  rhsBatch := []
  wf := dot_S273x384_S273x360_S384x360_0_0_1_1_n_n_wf

abbrev spec0_0 : Pipeline.WinSpec sig grid0.rank :=
  Pipeline.WinSpec.ofSpec (Memref.whole main_arg0) S32x273x360.size reads0_0 false false 2 stage0_0 sem0_0 nbuf0_0 hstage0_0

abbrev spec0_1 : Pipeline.WinSpec sig grid0.rank :=
  Pipeline.WinSpec.ofSpec (Memref.whole main_v2) S32x273x360.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S256x273x360 : Shape := ⟨3, ![256, 273, 360]⟩
abbrev S256 : Shape := ⟨1, ![256]⟩
abbrev S128x273x273 : Shape := ⟨3, ![128, 273, 273]⟩
abbrev S_ : Shape := ⟨0, ![]⟩
abbrev S256x1 : Shape := ⟨2, ![256, 1]⟩
abbrev S256x273x273 : Shape := ⟨3, ![256, 273, 273]⟩

abbrev nBuf : Space → Nat
  | .hbm => 13
  | .vmem => 0
  | .smem => 0
  | _ => 0

abbrev bufTy : (tb : Table) → Fin (tcTables nBuf tb) → BufTy
  | .hbm, ⟨0, _⟩ => ⟨S256x273x360, .f32⟩
  | .hbm, ⟨1, _⟩ => ⟨S256, .i32⟩
  | .hbm, ⟨2, _⟩ => ⟨S128x273x273, .f32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S256x273x273, .f32⟩
  | .hbm, ⟨12, _⟩ => ⟨S256x273x360, .f32⟩
  | _, _ => ⟨S256x273x360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  gather_S128x273x273_S256x1_S256x273x273_12_0_n_n_0_1_1273273_wf : GatherDims.WF S128x273x273 S256x1 S256x273x273 [1, 2] [0] [] [0] [] 1 ![1, 273, 273]
  dot_S256x273x273_S256x273x360_S256x273x360_1_1_2_2_0_0_wf : DotDims.WF S256x273x273 S256x273x360 S256x273x360 [1] [1] [2] [2] [0] [0]

variable [Facts₀]

def gather_S128x273x273_S256x1_S256x273x273_12_0_n_n_0_1_1273273 : GatherDims S128x273x273 S256x1 S256x273x273 where
  offsetDims := [1, 2]
  collapsedSliceDims := [0]
  operandBatchingDims := []
  startIndicesBatchingDims := []
  startIndexMap := [0]
  indexVectorDim := 1
  sliceSizes := ![1, 273, 273]
  wf := gather_S128x273x273_S256x1_S256x273x273_12_0_n_n_0_1_1273273_wf
def dot_S256x273x273_S256x273x360_S256x273x360_1_1_2_2_0_0 : DotDims S256x273x273 S256x273x360 S256x273x360 where
  lhsContracting := [1]
  rhsContracting := [1]
  lhsNonContracting := [2]
  rhsNonContracting := [2]
  lhsBatch := [0]
  rhsBatch := [0]
  wf := dot_S256x273x273_S256x273x360_S256x273x360_1_1_2_2_0_0_wf

class Facts : Prop extends Facts₀ where

variable [Facts]
-- ==== Proof.BitsShared.lean ====
/-
  The setting of the frame proof of `Cert.Kernel`'s program. @main clamps the subject ids into [0, 127] (a maximum with 0,
  then a minimum with 127), pads every 273×273 weight matrix with zeros to a 280×384 slab, and launches one region of
  8 grid points. The clamped ids are the region's prefetched table, held in scalar memory; the padded weights stay in
  HBM and are no window of the pipeline: the kernel copies the slab of row `table[32·t + b]` into one of the four slots
  of its own scratch, on one of its own four DMA semaphores, and waits for every copy it starts before the point ends.
  So between points nothing is in flight, the four cells stand at zero, the padded weights are as the region found
  them, and the scratch holds something the next point never reads before overwriting: the region invariant is the
  library's `Pipeline.ΦD` beside the table's half (`Pipeline.ΦT`).
  This module names what the body's run and the launch are stated over: the buffers as the region finds them, the
  table, the staging memrefs, the kernel's own cells, and the invariant's conjuncts one by one.
-/
import proofs.«418997_j6725918786146_3_alg».proof.Proof.Gen.Kernel.Launch
import proofs.«418997_j6725918786146_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s buffers when the region is entered: the launch memory after the four stretches of host operations
    (two integer constants; the clamp; one more constant; the zero padding). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main reduces to the region holding the buffers at `V`: the stretches run one after the other. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-! ## The table of row numbers -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table, so the pipeline asks nothing of its contents. -/
abbrev adm : (pcfg0 (F := F)).Adm := ⟨tbl m, trivial⟩
abbrev cfgM : Pipeline.Cfg sig Λ₀ := cfg0 (adm m)

/-- The table, and the padded weights, as the body is handed them: whole buffers. -/
abbrev tblM : Memref sig .tc .smem S256 .i32 := Memref.whole main_v0
abbrev htblM : tblM.IsWhole := Memref.isWhole_whole _
abbrev wM : Memref sig .tc .hbm S128x280x384 .f32 := Memref.whole main_v1
abbrev hwM : wM.IsWhole := Memref.isWhole_whole _
/-- The scratch of four weight slots. -/
abbrev slotsM : Memref sig .tc .vmem S4x280x384 .f32 := Memref.whole cc0_scratch0
abbrev hslotsM : slotsM.IsWhole := Memref.isWhole_whole _

/-- A memref's buffer on core `c`. -/
abbrev MBuf (c : Dev nD) {sp : Space} {S : Shape} {e : EltTy} (M : Memref sig .tc sp S e) : Type := Buf (Elt F) (M.view.loc (c : Thread nD τ))
/-- The table held by the body: the half of it the region hands out, read-only. -/
abbrev tblPt (c : Dev nD) (f : MBuf (F := F) c tblM) : sProp 𝕄 := tblM.view.loc (c : Thread nD τ) ↦{fullShare.right} f
/-- The padded weights held at a share. Up to three copies out of them are in flight at once, and two of them may
    read the same row, so the body holds them as one read share per DMA cell (the cells are numbered 4 to 7 in the
    core's pool, so the full share is cut eight ways) beside the remainder. -/
abbrev wAt (c : Dev nD) (q : PosShare TreeShare) (f : MBuf (F := F) c wM) : sProp 𝕄 := wM.view.loc (c : Thread nD τ) ↦{q} f
abbrev wToks (c : Dev nD) (f : MBuf (F := F) c wM) : sProp 𝕄 :=
  iprop(wAt c (Transfers.shareDrop fullShare 8) f ∗ wAt c (Transfers.shareTok fullShare 8 0) f ∗ wAt c (Transfers.shareTok fullShare 8 1) f
    ∗ wAt c (Transfers.shareTok fullShare 8 2) f ∗ wAt c (Transfers.shareTok fullShare 8 3) f ∗ wAt c (Transfers.shareTok fullShare 8 4) f
    ∗ wAt c (Transfers.shareTok fullShare 8 5) f ∗ wAt c (Transfers.shareTok fullShare 8 6) f ∗ wAt c (Transfers.shareTok fullShare 8 7) f)

/-- The whole points-to is the nine parts, and back. -/
theorem wToks_iff (c : Dev nD) (f : MBuf (F := F) c wM) : (wAt c fullShare f : sProp 𝕄) ⊣⊢ wToks c f := by
  have h := Transfers.pointsTo_toks (Ix := Unit) (Name := ℕ) (U := Pipeline.UD sig nD τ) (Lvl := ℕ) (Val := Elt F)
    (ℓ := wM.view.loc (c : Thread nD τ)) (S := Finset.univ) (f := f) fullShare 8
  rw [BI.bigSep_eq_bigSepL_of_eq [(0 : Fin 8), 1, 2, 3, 4, 5, 6, 7] (by decide) (by decide)] at h
  exact h

/-- The table's half, as the region hands it. -/
theorem PhiT_eq (c : Dev nD) : (Pipeline.ΦT pre0 (tbl m) c : sProp 𝕄) = tblPt c (tbl m 0) := by
  unfold Pipeline.ΦT Pipeline.prefHeld
  rw [show (Finset.univ : Finset (Fin 1)) = {(0 : Fin 1)} from by decide, bigSep_singleton]
  rfl

/-! ## The windows -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The input window's current staging buffer holds its block at every point, for any proof data over `V` whose
    body leaves the block in place. -/
theorem before0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it. -/
abbrev xStage (t : Fin (cfgM m).N) : Memref sig .tc .vmem S32x273x360 .f32 := spec0_0.stage ((cfgM m).slots t 0)
abbrev hxStage (t : Fin (cfgM m).N) : (xStage m t).IsWhole := hstage0_0 (((cfgM m).slots t 0).cast nbuf0_0)
abbrev oStage (t : Fin (cfgM m).N) : Memref sig .tc .vmem S32x273x360 .f32 := spec0_1.stage ((cfgM m).slots t 1)
abbrev hoStage (t : Fin (cfgM m).N) : (oStage m t).IsWhole := hstage0_1 (((cfgM m).slots t 1).cast nbuf0_1)
/-- One staging buffer of the output window, through which its contents are stated. -/
abbrev oView : View sig .tc .vmem S32x273x360 .f32 := (Memref.whole cc0_stg1_0 : Memref sig .tc .vmem S32x273x360 .f32).view

/-- The kernel body at point `t`, on what the pipeline calls it with. -/
abbrev bodyAt (t : Fin (cfgM m).N) : Prog (TpuEff nD τ sig (Elt F) Λ₀ .tc) PUnit :=
  cc0__kernel (grid0.coords t) tblM htblM (xStage m t) (hxStage m t) wM hwM (oStage m t) (hoStage m t) slotsM hslotsM cc0_scratch1

/-! ## The kernel's own cells and the operand it moves itself -/

abbrev osem : Fin 4 → SemLoc sig := fun j => (![SemLoc.dma 4, SemLoc.dma 5, SemLoc.dma 6, SemLoc.dma 7] : Fin 4 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem [0, 1, 2, 3] (by decide) (by decide)]; rfl
/-- The padded weights: unscoped, no window's array, no table. -/
def H0 : Finset (Ref sig .tc) := {main_v1}
theorem H0_sub : H0 ⊆ Pipeline.restRefsP sig pre0 spec0 := by decide
theorem hbmPts_eq (c : Dev nD) :
    (bigSep H0 (fun b => ((c : Thread nD τ).loc b) ↦{fullShare} V m c b) : sProp 𝕄) = iprop(wAt c fullShare (V m c main_v1)) := by
  rw [BI.bigSep_eq_bigSepL_of_eq [main_v1] (by decide) (by decide)]; rfl

/-- The invariant conjunct by conjunct: the scratch at some contents, the generator register at some state, the four
    cells at zero, the padded weights whole at their region-entry contents. -/
theorem PhiD_eq (c : Dev nD) :
    (Pipeline.ΦD osem spec0 H0 (V m) c : sProp 𝕄)
      = iprop(iprop((∃ d, owns (c : Thread nD τ) slotsM fullShare d)) ∗ (∃ r, prngReg c r)
          ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
          ∗ iprop(wAt c fullShare (V m c main_v1))) := by
  rw [Pipeline.ΦD_eq, scopedRest0_eq, ownSems_eq, hbmPts_eq]; simp only [slotsM, owns_whole]; try rfl

/-! ## The scratch as its four slots -/

theorem inb_slot (s : Fin 4) : ∀ a, (![s.val, 0, 0] : Fin 3 → Nat) a + S1x280x384.size a ≤ S4x280x384.size a := by
  have := s.isLt; intro a; fin_cases a <;> simp <;> omega
/-- Slot `s` of the scratch, spelt as the body's copies spell their destination. -/
abbrev slotM (s : Fin 4) : Memref sig .tc .vmem S280x384 .f32 :=
  (slotsM.slice (Rect.unit (s := S4x280x384) ![s.val, 0, 0] S1x280x384.size (inb_slot s)) (fun _ => rfl)).squeeze S280x384 Facts₀.squeezes_S1x280x384_S280x384
abbrev slotSet (s : Fin 4) : Finset S4x280x384.Idx := (Rect.unit (s := S4x280x384) ![s.val, 0, 0] S1x280x384.size (inb_slot s)).set
theorem slotSet_eq (s : Fin 4) : (slotM s).view.set = slotSet s := by
  simp only [slotM, Memref.view_squeeze, View.set_reshape]; exact View.set_slice_whole _ _
theorem slots_disjoint (s s' : Fin 4) (h : s ≠ s') : Disjoint (slotSet s) (slotSet s') :=
  Ring.lead_disjoint (s := S4x280x384) (0 : Fin 3) 1 (fun s : Fin 4 => (![s.val, 0, 0] : Fin 3 → Nat)) S1x280x384.size inb_slot (fun s => by simp) rfl s s' h
theorem slots_cover : Finset.univ.biUnion slotSet = Finset.univ :=
  Ring.lead_cover (s := S4x280x384) (0 : Fin 3) 1 (fun s : Fin 4 => (![s.val, 0, 0] : Fin 3 → Nat)) S1x280x384.size inb_slot (fun s => by simp)
    (fun s a ha => by fin_cases a <;> first | exact absurd rfl ha | rfl) rfl (fun a ha => by fin_cases a <;> first | exact absurd rfl ha | rfl) rfl

/-- A conjunction over the four slots, one by one. -/
theorem bigSep_fin4 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- Slot `s` held at `f`. -/
abbrev slotP (c : Dev nD) (s : Fin 4) (f : MBuf (F := F) c (slotM s)) : sProp 𝕄 := (slotM s).view.loc (c : Thread nD τ) ↦[(slotM s).view.set]{fullShare} f
theorem slotP_eq (c : Dev nD) (s : Fin 4) (f) : slotP (F := F) c s f = (((c : Thread nD τ).loc cc0_scratch0) ↦[slotSet s]{fullShare} f : sProp 𝕄) := by
  unfold slotP; rw [slotSet_eq]

set_option maxHeartbeats 1000000 in
/-- The scratch whole at anything is its four slots at something each, -/
theorem slots_in (c : Dev nD) : iprop(∃ d, owns (c : Thread nD τ) slotsM fullShare d)
    ⊢ (iprop((∃ f, slotP (F := F) c 0 f) ∗ (∃ f, slotP (F := F) c 1 f) ∗ (∃ f, slotP (F := F) c 2 f) ∗ ∃ f, slotP (F := F) c 3 f) : sProp 𝕄) := by
  simp only [slotsM, owns_whole]
  iintro ⟨%f, H⟩
  ihave H4 := (Entails.of_eq ((Ring.pointsTo_blocks (Ix := Unit) (Name := ℕ) (U := Pipeline.UD sig nD τ) (Lvl := ℕ) (ℓ := (c : Thread nD τ).loc cc0_scratch0) (q := fullShare) slotSet slots_disjoint slots_cover f).trans
    (bigSep_fin4 _))) $$ H
  icases H4 with ⟨H0, H1, H2, H3⟩
  isplitl [H0]; · iexists f; iapply (Entails.of_eq (slotP_eq c 0 _).symm); iexact H0
  isplitl [H1]; · iexists f; iapply (Entails.of_eq (slotP_eq c 1 _).symm); iexact H1
  isplitl [H2]; · iexists f; iapply (Entails.of_eq (slotP_eq c 2 _).symm); iexact H2
  iexists f; iapply (Entails.of_eq (slotP_eq c 3 _).symm); iexact H3

set_option maxHeartbeats 1000000 in
/-- and back. -/
theorem slots_out (c : Dev nD) : (iprop((∃ f, slotP (F := F) c 0 f) ∗ (∃ f, slotP (F := F) c 1 f) ∗ (∃ f, slotP (F := F) c 2 f) ∗ ∃ f, slotP (F := F) c 3 f) : sProp 𝕄)
    ⊢ iprop(∃ d, owns (c : Thread nD τ) slotsM fullShare d) := by
  simp only [slotsM, owns_whole]
  iintro ⟨⟨%f0, H0⟩, ⟨%f1, H1⟩, ⟨%f2, H2⟩, ⟨%f3, H3⟩⟩
  iapply (Ring.pointsTo_blocks_join_exists slotSet slots_disjoint slots_cover f0)
  irw [bigSep_fin4]
  isplitl [H0]; · iexists f0; iapply (Entails.of_eq (slotP_eq c 0 f0)); iexact H0
  isplitl [H1]; · iexists f1; iapply (Entails.of_eq (slotP_eq c 1 f1)); iexact H1
  isplitl [H2]; · iexists f2; iapply (Entails.of_eq (slotP_eq c 2 f2)); iexact H2
  iexists f3; iapply (Entails.of_eq (slotP_eq c 3 f3)); iexact H3

/-! ## What the body assumes of the table's words -/

/-- Every word the body can read off the table names one of the 128 rows of the padded weights. The body assumes, after
    each table read, that the row's slab lies inside the array; this is what makes each of those assumptions true. -/
def RowsOk (c : Dev nD) (xt : MBuf (F := F) c tblM) : Prop :=
  ∀ (R : LoadRect S256) (j : R.shape.Idx), (tblM.view.readAt (Elt F) R xt j).toNat < 128

/-- A slab starting at a row below 128 lies inside the 128 slabs. -/
theorem slab_fits (v : BitVec 32) (h : v.toNat < 128) (a : Fin 3) :
    (![v.toNat, 0, 0] : Fin 3 → Nat) a + S1x280x384.size a ≤ S128x280x384.size a := by
  fin_cases a <;> simp [Shape.size] <;> omega

/-- The table's words, on every core, name rows of the padded weights. -/
abbrev TableOk (m : (ℓ : Loc nD τ sig) → Buf (Elt F) ℓ) : Prop := ∀ c : Dev nD, RowsOk c (tbl m 0)

/-! ## The frame claim's post from the frame run's -/

/-- A run to the library's frame post, read at the three arguments (the staged input by `Dat.arrAt_in`, the two
    others by the post's second clause), is the frame claim's post. -/
theorem frame_of (dats : (p : Fin 1) → (c : Dev nD) → Dat τ (Elt F) Unit ℕ (Pipeline.UD sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

end Cert.Kernel.Hand

end
-- ==== Proof.BitsRun.lean ====
/-
  One grid point of `Cert.Kernel`'s kernel, run whole. The point primes three copies (samples 0, 1, 2 of its tile into
  slots 0, 1, 2), then for each sample b = 0 … 31 in turn: waits for slot b mod 4, starts sample b + 3's copy into
  slot (b + 3) mod 4 when b + 3 < 32, loads the slot and the sample's 273×360 slab of the input block, and stores
  their product's first 273 rows as slab b of the output block. Each copy reads the row of the padded weights that
  the table's word for the sample names; the body assumes that row inside the array, which `RowsOk` grants.
  Every copy is waited for on its own cell before its slot is loaded and before the cell is used again, so each wait
  closes exactly one copy. The scratch is handed to the run slot by slot: a copy takes its slot whole and lands in it
  whole, so what a slot holds when it is loaded is the row copied into it, whatever the slot held before. The copy's
  source row is lent from the read share of the copy's cell, so two copies of one row in flight at once do not meet.
  At the end the four cells are at zero, the shares are all back, the slots join to the scratch at some contents, and
  the output buffer holds its 32 slabs, listed last first.
-/
import proofs.«418997_j6725918786146_3_alg».proof.Proof.BitsShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- a slot is held under the name its copies give it; the loads name it through the whole scratch
set_option sl_exec.respelt true in
set_option maxHeartbeats 4000000 in
/-- The slabs the body's stores leave in the output's staging memref, as pieces (last first), with the proof that from
    whole memrefs — the input block at its contents, the output's and the scratch at anything, the four cells at
    zero, the padded weights as read shares, the table's half — the body runs to the continuation holding all of it
    again and the output's buffer with those pieces written. -/
noncomputable def bodyRun (c : Dev nD) (i : grid0.Coords)
    (arg2 : Memref sig .tc .vmem S32x273x360 .f32) (harg2 : arg2.IsWhole)
    (arg4 : Memref sig .tc .vmem S32x273x360 .f32) (harg4 : arg4.IsWhole)
    (x0 : Vec F S32x273x360 .f32) (xt : MBuf (F := F) c tblM) (fw : MBuf (F := F) c wM)
    (hT : RowsOk c xt) :
    { L : List (View.Piece (Elt F) S32x273x360 .f32) //
      ∀ (W : Waits sig Unit) (K : PUnit → sProp 𝕄),
        iprop(owns (c : Thread nD τ) arg2 fullShare x0 ∗ (∃ d, owns (c : Thread nD τ) arg4 fullShare d) ∗ (∃ d, owns (c : Thread nD τ) slotsM fullShare d)
            ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0
            ∗ wToks c fw ∗ tblPt c xt ∗ owes (c : Thread nD τ) 0 W
            ∗ (iprop(owns (c : Thread nD τ) arg2 fullShare x0 ∗ (∃ f, arg4.view.loc (c : Thread nD τ) ↦[arg4.view.set]{fullShare} arg4.view.writes (Elt F) f L) ∗ (∃ d, owns (c : Thread nD τ) slotsM fullShare d)
                ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0
                ∗ wToks c fw ∗ tblPt c xt ∗ (∃ W', owes (c : Thread nD τ) 0 W')) -∗ K ⟨⟩))
          ⊢ wp frame (wpE (defs₀ (F := F)) Variants.none c none) Set.univ (cc0__kernel i tblM htblM arg2 harg2 wM hwM arg4 harg4 slotsM hslotsM cc0_scratch1) K } := by
  refine ⟨?_, fun W K => ?run⟩
  case run =>
    simp only [cc0__kernel_eq_skeleton]; unfold cc0__kernel_skel
    simp only [k0_part32_eq_skeleton]; unfold k0_part32_skel
    simp only [k0_part1_eq_skeleton]
    iintro ⟨H0, H1, HS, Hq0, Hq1, Hq2, Hq3, ⟨Hwr, Hw0, Hw1, Hw2, Hw3, Hw4, Hw5, Hw6, Hw7⟩, Ht, HW, Hk⟩
    ihave HS' := (slots_in c) $$ HS
    icases HS' with ⟨⟨%fs0, Hs0⟩, ⟨%fs1, Hs1⟩, ⟨%fs2, Hs2⟩, ⟨%fs3, Hs3⟩⟩
    unfold owns
    icases H0 with ⟨%f0, %hf0, H0⟩
    icases H1 with ⟨%d1, %f1, -, H1⟩
    obtain rfl := harg2.eq_unread hf0
    sl_exec (disch := first | exact fun a => slab_fits _ (hT _ _) a | exact fun _ a => slab_fits _ (hT _ _) a)
    sl_step
    iapply Hk
    isplitl [H0]
    · iexists _; isplitr; · ipureintro; exact harg2.read_unread _
      iexact H0
    isplitl [H1]; · iexists _; iexact H1
    isplitl [Hs0 Hs1 Hs2 Hs3]
    · iapply (slots_out c)
      isplitl [Hs0]; · iexists _; iexact Hs0
      isplitl [Hs1]; · iexists _; iexact Hs1
      isplitl [Hs2]; · iexists _; iexact Hs2
      iexists _; iexact Hs3
    isplitl [Hq0]; · iexact Hq0
    isplitl [Hq1]; · iexact Hq1
    isplitl [Hq2]; · iexact Hq2
    isplitl [Hq3]; · iexact Hq3
    isplitl [Hwr Hw0 Hw1 Hw2 Hw3 Hw4 Hw5 Hw6 Hw7]
    · isplitl [Hwr]; · iexact Hwr
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      iexact Hw7
    isplitl [Ht]; · iexact Ht
    iexists _; iexact HW

end Cert.Kernel.Hand

end
-- ==== Proof.BitsFrame.lean ====
/-
  The frame of `Cert.Kernel`'s program: every weakly fair execution of @main terminates, nothing faults, and the three
  arguments end unchanged.
  The output window's 32 stores at a point are the 32 slabs of its block, so they cover it, and what the buffer holds
  after the body is those slabs read back, whatever it held before. The proof data says so point by point; the region
  invariant is the scratch at anything, the four cells at zero, the padded weights at their region-entry contents,
  and the table's half. The body obligation at a point is the whole-body run on the point's staging memrefs: the
  padded weights are cut into read shares for the run and joined after it. The launch is the library's frame run for
  a pipeline with prefetched tables whose kernel copies an operand left in HBM by itself within each point.
  The one hypothesis, `hR`, is that every word of the table names a row of the padded weights.
-/
import proofs.«418997_j6725918786146_3_alg».proof.Proof.BitsRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's 32 slab stores tile the output block, so every index of it lies in one of them. -/
theorem out_cover (c : Dev nD) (i : grid0.Coords) (arg2 : Memref sig .tc .vmem S32x273x360 .f32) (harg2 : arg2.IsWhole)
    (arg4 : Memref sig .tc .vmem S32x273x360 .f32) (harg4 : arg4.IsWhole)
    (x0 : Vec F S32x273x360 .f32) (xt : MBuf (F := F) c tblM) (fw : MBuf (F := F) c wM) (hT : RowsOk c xt) (y : S32x273x360.Idx) :
    ∃ pc ∈ (bodyRun c i arg2 harg2 arg4 harg4 x0 xt fw hT).1, y ∈ pc.1.set :=
  View.cover_of_tiledL (bodyRun c i arg2 harg2 arg4 harg4 x0 xt fw hT).1 S1x273x360.size (by sl_kernel_rfl) y

/-- What the run leaves in the output's staging buffer: its slabs read back over anything. -/
def outBlock (c : Dev nD) (i : grid0.Coords) (arg2 : Memref sig .tc .vmem S32x273x360 .f32) (harg2 : arg2.IsWhole)
    (arg4 : Memref sig .tc .vmem S32x273x360 .f32) (harg4 : arg4.IsWhole)
    (x0 : Vec F S32x273x360 .f32) (xt : MBuf (F := F) c tblM) (fw : MBuf (F := F) c wM) (hT : RowsOk c xt) : Vec F S32x273x360 .f32 :=
  oView.read (Elt F) (oView.writes (Elt F) oView.junk (bodyRun c i arg2 harg2 arg4 harg4 x0 xt fw hT).1)

/-- What the output's staging buffer holds after the body at point `t`. -/
def outAt (hR : TableOk m) (c : Dev nD) (t : Fin (cfgM m).N) : Vec F S32x273x360 .f32 :=
  outBlock c (grid0.coords t) (xStage m t) (hxStage m t) (oStage m t) (hoStage m t) (iblk m c 0 t) (tbl m 0) (V m c main_v1) (hR c)

/-- The proof data of the pipeline on core `c`. -/
def dats (hR : TableOk m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => (outAt m hR c t)
  Φ _ := iprop(Pipeline.ΦD osem spec0 H0 (V m) c ∗ Pipeline.ΦT pre0 (tbl m) c)
  q _ := fullShare
  owed _ := 0

theorem A_eq (hR : TableOk m) (c : Dev nD) (w : Fin (cfgM m).W) : (dats m hR 0 c).A w = V m c (Pipeline.arrRef spec0 w) := by
  dsimp only [dats]
theorem after_in (hR : TableOk m) (c : Dev nD) (t : Fin (cfgM m).N) : (dats m hR 0 c).after 0 t = iblk m c 0 t := by dsimp only [dats]; try rfl
theorem after_out (hR : TableOk m) (c : Dev nD) (t : Fin (cfgM m).N) : (dats m hR 0 c).after 1 t = outAt m hR c t := by dsimp only [dats]; try rfl
theorem before_in (hR : TableOk m) (c : Dev nD) (t : Fin (cfgM m).N) (d) : (dats m hR 0 c).before 0 t d = iblk m c 0 t :=
  before0_of m (dats m hR 0 c) (A_eq m hR c 0) (after_in m hR c) t d

/-- What the body is called with at point `t`, -/
def bodyPre (hR : TableOk m) (c : Dev nD) (t : Fin (cfgM m).N) : sProp 𝕄 :=
  iprop((dats m hR 0 c).Φ t.castSucc ∗ (dats m hR 0 c).owesAt () t.castSucc
    ∗ (∃ d, owns (c : Thread nD τ) (xStage m t) fullShare ((dats m hR 0 c).before 0 t d))
    ∗ (∃ d, owns (c : Thread nD τ) (oStage m t) fullShare ((dats m hR 0 c).before 1 t d)))

/-- and what it returns. -/
def bodyPost (hR : TableOk m) (c : Dev nD) (t : Fin (cfgM m).N) : sProp 𝕄 :=
  iprop((dats m hR 0 c).Φ t.succ ∗ (dats m hR 0 c).owesAt () t.succ
    ∗ owns (c : Thread nD τ) (xStage m t) fullShare ((dats m hR 0 c).after 0 t)
    ∗ owns (c : Thread nD τ) (oStage m t) fullShare ((dats m hR 0 c).after 1 t))

/-- The body at any point: the invariant hands the run the scratch, the cells at zero, the padded weights (cut into
    read shares for the run, joined after it) and the table's half, and takes them back as they were; the waits are
    recorded in the core's `owes`, within the next point's bound; the output's buffer holds its slabs. -/
theorem sound_body (hR : TableOk m) (c : Dev nD) (t : Fin (cfgM m).N) :
    bodyPre m hR c t ⊢ wp frame (wpE (defs₀ (F := F)) Variants.none c none) Set.univ (bodyAt m t) (fun _ => bodyPost m hR c t) := by
  unfold bodyPre bodyPost bodyAt
  simp only [before_in]
  rw [show (dats m hR 0 c).Φ t.succ = (dats m hR 0 c).Φ t.castSucc from rfl, after_in, after_out]
  rw [show (dats m hR 0 c).Φ t.castSucc = iprop(Pipeline.ΦD osem spec0 H0 (V m) c ∗ Pipeline.ΦT pre0 (tbl m) c) from rfl, PhiD_eq, PhiT_eq]
  unfold Dat.owesAt Pipeline.owesWithin
  rw [show (dats m hR 0 c).owed t.castSucc = 0 from rfl, show (dats m hR 0 c).owed t.succ = 0 from rfl]
  unfold outAt
  unfold outBlock
  iintro ⟨⟨⟨HS0, Hg, ⟨Hq0, Hq1, Hq2, Hq3⟩, Hw⟩, Ht⟩, ⟨%W, -, HW⟩, ⟨%d0, H0⟩, ⟨%d1, H1⟩⟩
  ihave Hw' := (wToks_iff c (V m c main_v1)).1 $$ Hw
  iapply ((bodyRun c (grid0.coords t) _ _ _ _ (iblk m c 0 t) (tbl m 0) (V m c main_v1) (hR c)).2 W _)
  isplitl [H0]; · iexact H0
  isplitl [H1]; · iexists _; iexact H1
  isplitl [HS0]; · iexact HS0
  isplitl [Hq0]; · iexact Hq0
  isplitl [Hq1]; · iexact Hq1
  isplitl [Hq2]; · iexact Hq2
  isplitl [Hq3]; · iexact Hq3
  isplitl [Hw']; · iexact Hw'
  isplitl [Ht]; · iexact Ht
  isplitl [HW]; · iexact HW
  iintro ⟨H0, ⟨%e1, H1⟩, HS0, Hq0, Hq1, Hq2, Hq3, Hw', Ht, ⟨%W', HW'⟩⟩
  ihave Hw := (wToks_iff c (V m c main_v1)).2 $$ Hw'
  isplitl [HS0 Hg Hq0 Hq1 Hq2 Hq3 Hw Ht]
  · isplitr [Ht]
    · isplitl [HS0]; · iexact HS0
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hw
    · iexact Ht
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (out_cover c _ _ _ _ _ _ _ _ _)

/-- The library's body obligation, at every point. -/
theorem body_obligation (hR : TableOk m) (c : Dev nD) : BodyObligation (dats (F := F) m hR 0 c) (defs₀ (F := F)) Variants.none () Set.univ := fun t => by
  rw [bigSep_W0, bigSep_W0]
  exact sound_body m hR c t

set_option backward.isDefEq.respectTransparency.types false in
/-- From any memory with zero counters every weakly fair execution of @main terminates, and every final state has the
    pipeline's arrays at what the library computes from the proof data and every other unscoped buffer as the region
    found it. -/
theorem run_main (hR : TableOk m) : θ_run defs (onTc (τ := τ) (main (F := F))) (s₀ m ρ) (Pipeline.FramePost (Pipeline.pin pcfgs fun _ => adm m) (dats m hR) 0 (V m)) :=
  Pipeline.θ_run_frameP_dma pcfgs (fun _ => adm m) (dats m hR) (0 : Fin 1) launch0 osem defs₀ Variants.none ownSemFacts H0 H0_sub m ρ main
    (hbody := fun c => (body_obligation m hR c).loose) (hshare := fun c => (dats m hR 0 c).share_full fun _ => rfl)
    (howed := fun _ _ => rfl) (V := V m) (hmain := hmain m Variants.none) (hA := A_eq m hR) (hpf := V_pre m)
    (hin := fun _ => .rfl)
    (hout := fun c => show iprop(Pipeline.ΦD osem spec0 H0 (V m) c ∗ Pipeline.ΦT pre0 (tbl m) c) ⊢ Pipeline.ΦD osem spec0 H0 (V m) c from by
      iintro ⟨HD, -⟩; iexact HD)

/-- The frame claim's statement at any `F`, under the table's words naming rows. -/
theorem frame (hR : TableOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m hR) (A_eq m hR) (run_main m ρ hR)

end Cert.Kernel.Hand

end
-- ==== Proof.Spec.lean ====
/-
  What both programs compute, as one function of the three arguments. Sample `b`'s subject id `s b`, read as a
  signed integer and clamped into [0, 127], selects one 273×273 matrix of the weight table, and the result's entry
  (b, d, t) is the sum over the input channel c of that matrix's entry (c, d) times the input's entry (b, c, t).
-/
import Idealize.ShloMosaic.PureOps.Ideal
import Idealize.ShloMosaic.Lib.ValueIdx

noncomputable section

namespace Cert.Spec

open Idealize.ShloMosaic Idealize.ShloMosaic.ValueIdx

/-- The shapes of the input, the subject ids, the weight table and the result (the input's). -/
abbrev SX : Shape := ⟨3, ![256, 273, 360]⟩
abbrev SS : Shape := ⟨1, ![256]⟩
abbrev SW : Shape := ⟨3, ![128, 273, 273]⟩

/-- The row of the weight table a subject id selects: the id read signed, clamped into [0, 127]. -/
def rowOf (s : BitVec 32) : Fin 128 := ⟨min s.toInt.toNat 127, by omega⟩

/-- The result: entry (b, d, t) is the sum over the channel c of W[row(s b), c, d] · X[b, c, t]. -/
def G (x : SX.Idx → EReal) (s : SS.Idx → BitVec 32) (w : SW.Idx → EReal) : SX.Idx → EReal :=
  fun j => ∑ k : Fin 273, w (ix3 (rowOf (s (ix1 (j 0)))) k (j 1)) * x (ix3 (j 0) k (j 2))

end Cert.Spec

end
-- ==== Proof.BitsTable.lean ====
/-
  What the host operations before the region leave in the two buffers the kernel reads besides its input window:
  the table of row numbers (the subject ids clamped into [0, 127]) and the padded weights (each 273×273 matrix with
  zeros appended up to 280×384).
-/
import proofs.«418997_j6725918786146_3_alg».proof.Proof.BitsShared
import proofs.«418997_j6725918786146_3_alg».proof.Proof.Spec
import Idealize.ShloMosaic.Lib.KernelVsHost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt F) ℓ)

/-! ## The clamp on one 32-bit word -/

/-- The signed minimum with 127 of the signed maximum with 0 of a word `s`, read unsigned, is `s` read signed and
    clamped into [0, 127]. Three cases. A negative `s` loses to 0 in the maximum, 0 wins the minimum against 127, and
    the clamp of a negative integer is 0 as well. A nonnegative `s` is its own maximum with 0 and its signed reading is
    its unsigned one; then either it exceeds 127 and both sides are 127, or it does not and both sides are `s`. -/
theorem clamp_toNat (s : BitVec 32) :
    (IntOp.minsi 127#32 (IntOp.maxsi 0#32 s)).toNat = min s.toInt.toNat 127 := by
  have hs : s.toNat < 2 ^ 32 := s.isLt
  have hi := BitVec.toInt_eq_toNat_cond s
  have h0 : (0#32 : BitVec 32).toInt = 0 := by decide
  have h127 : (127#32 : BitVec 32).toInt = 127 := by decide
  unfold IntOp.minsi IntOp.maxsi
  by_cases hneg : s.toInt < 0
  · have e1 : s.slt 0#32 = true := by simp only [BitVec.slt, h0, decide_eq_true_eq]; exact hneg
    have e2 : (127#32 : BitVec 32).slt 0#32 = false := by decide
    simp only [e1, e2, if_true, Bool.false_eq_true, if_false]
    show 0 = _
    omega
  · have e1 : s.slt 0#32 = false := by simp only [BitVec.slt, h0, decide_eq_false_iff_not]; exact hneg
    simp only [e1, Bool.false_eq_true, if_false]
    have hnat : s.toInt = (s.toNat : Int) := by
      split_ifs at hi with h2
      · exact hi
      · omega
    by_cases hbig : (127 : Int) < s.toInt
    · have e2 : (127#32 : BitVec 32).slt s = true := by simp only [BitVec.slt, h127, decide_eq_true_eq]; exact hbig
      simp only [e2, if_true]
      show 127 = _
      omega
    · have e2 : (127#32 : BitVec 32).slt s = false := by simp only [BitVec.slt, h127, decide_eq_false_iff_not]; exact hbig
      simp only [e2, Bool.false_eq_true, if_false]
      omega

/-- So the clamped word, read unsigned, is below 128. -/
theorem clamp_lt (s : BitVec 32) : (IntOp.minsi 127#32 (IntOp.maxsi 0#32 s)).toNat < 128 := by
  rw [clamp_toNat]; omega

/-! ## The two buffers after the host operations -/

/-- The table when the region is entered: the lanewise signed minimum of the constant 127 with the lanewise signed
    maximum of the constant 0 with the subject ids as launched. -/
theorem V_main_v0 (c : Dev nD) :
    (V m c main_v0 : S256.Idx → BitVec 32)
      = minsi (broadcastInDim S256 ![] bcast_S_S256 (constantI S_ 32 127#32))
          (maxsi (broadcastInDim S256 ![] bcast_S_S256 (constantI S_ 32 0#32)) (m ((c : Thread nD τ).loc main_arg1) : S256.Idx → BitVec 32)) := by
  dsimp only [V]
  simp only [hostOps0, hostOps0_1, hostOps0_2, hostOps0_3, List.flatten_cons, List.flatten_nil, List.append_nil, List.cons_append, List.nil_append]
  after_results
  rfl

/-- The padded weights when the region is entered: the weights as launched, padded with the float of the integer 0 by
    nothing below, by 7 rows and 111 columns above, and with nothing between the entries. -/
theorem V_main_v1 (c : Dev nD) :
    (V m c main_v1 : S128x280x384.Idx → Elt F .f32)
      = pad S128x280x384 ![0, 0, 0] ![0, 7, 111] ![0, 0, 0] (m ((c : Thread nD τ).loc main_arg2) : S128x273x273.Idx → Elt F .f32)
          (sitofp .f32 (constantI S_ 32 0#32) : S_.Idx → Elt F .f32) pads_S128x273x273_S128x280x384_000_070_01110 h_S_ := by
  dsimp only [V]
  simp only [hostOps0, hostOps0_1, hostOps0_2, hostOps0_3, List.flatten_cons, List.flatten_nil, List.append_nil, List.cons_append, List.nil_append]
  after_results
  rfl

/-! ## The three facts the other modules use -/

/-- Every word of the table is at most 127: it is a minimum with 127 of a maximum with 0. A read through the whole
    table is the table's word at the read's index, and that word is the clamp of a subject id. -/
theorem tableOk : TableOk m := by
  intro c R j
  show ((V m (0 : Dev nD) main_v0 : S256.Idx → BitVec 32) (R.idx j)).toNat < 128
  rw [V_main_v0]
  exact clamp_lt _

/-- The table's word for sample `j`, as a row number, is the row the specification selects for the sample's subject id:
    the maximum with 0 then the minimum with 127, read unsigned, is the id read signed and clamped into [0, 127]. -/
theorem tbl_row (c : Dev nD) (j : Fin 256) :
    ((tbl m 0 : S256.Idx → BitVec 32) (ix1 j)).toNat = (Cert.Spec.rowOf ((m ((c : Thread nD τ).loc main_arg1) : S256.Idx → BitVec 32) (ix1 j))).val := by
  obtain rfl : c = 0 := Subsingleton.elim _ _
  show ((V m (0 : Dev nD) main_v0 : S256.Idx → BitVec 32) (ix1 j)).toNat = _
  rw [V_main_v0]
  exact clamp_toNat _

/-- Inside the first 273 rows and columns of a slab the padded weights are the weights: with no padding below and
    none between the entries, the index (r, a, b) of the padded array is the operand's index (r, a, b) on every axis. -/
theorem wpad_apply (c : Dev nD) (r : Fin 128) (a : Fin 273) (b : Fin 273) :
    (V m c main_v1 : S128x280x384.Idx → Elt F .f32) (ix3 r ⟨a.val, by omega⟩ ⟨b.val, by omega⟩)
      = (m ((c : Thread nD τ).loc main_arg2) : S128x273x273.Idx → Elt F .f32) (ix3 r a b) := by
  rw [V_main_v1]
  refine pad_apply_of_inside _ _ _ _ _ _ _ _ (ix3 r a b) (fun k => ?_)
  fin_cases k
  · show r.val = 0 + r.val * (0 + 1); omega
  · show a.val = 0 + a.val * (0 + 1); omega
  · show b.val = 0 + b.val * (0 + 1); omega

end Cert.Kernel.Hand

end
-- ==== Proof.IdealShared.lean ====
/-
  The setting of the frame proof of `Cert.KernelIdeal`'s program. @main clamps the subject ids into [0, 127] (a maximum with 0,
  then a minimum with 127), pads every 273×273 weight matrix with zeros to a 280×384 slab, and launches one region of
  8 grid points. The clamped ids are the region's prefetched table, held in scalar memory; the padded weights stay in
  HBM and are no window of the pipeline: the kernel copies the slab of row `table[32·t + b]` into one of the four slots
  of its own scratch, on one of its own four DMA semaphores, and waits for every copy it starts before the point ends.
  So between points nothing is in flight, the four cells stand at zero, the padded weights are as the region found
  them, and the scratch holds something the next point never reads before overwriting: the region invariant is the
  library's `Pipeline.ΦD` beside the table's half (`Pipeline.ΦT`).
  This module names what the body's run and the launch are stated over: the buffers as the region finds them, the
  table, the staging memrefs, the kernel's own cells, and the invariant's conjuncts one by one.
-/
import proofs.«418997_j6725918786146_3_alg».proof.Proof.Gen.KernelIdeal.Launch
import proofs.«418997_j6725918786146_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s buffers when the region is entered: the launch memory after the four stretches of host operations
    (two integer constants; the clamp; one more constant; the zero padding). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main reduces to the region holding the buffers at `V`: the stretches run one after the other. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-! ## The table of row numbers -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table, so the pipeline asks nothing of its contents. -/
abbrev adm : (pcfg0 (F := F)).Adm := ⟨tbl m, trivial⟩
abbrev cfgM : Pipeline.Cfg sig Λ₀ := cfg0 (adm m)

/-- The table, and the padded weights, as the body is handed them: whole buffers. -/
abbrev tblM : Memref sig .tc .smem S256 .i32 := Memref.whole main_v0
abbrev htblM : tblM.IsWhole := Memref.isWhole_whole _
abbrev wM : Memref sig .tc .hbm S128x280x384 .f32 := Memref.whole main_v1
abbrev hwM : wM.IsWhole := Memref.isWhole_whole _
/-- The scratch of four weight slots. -/
abbrev slotsM : Memref sig .tc .vmem S4x280x384 .f32 := Memref.whole cc0_scratch0
abbrev hslotsM : slotsM.IsWhole := Memref.isWhole_whole _

/-- A memref's buffer on core `c`. -/
abbrev MBuf (c : Dev nD) {sp : Space} {S : Shape} {e : EltTy} (M : Memref sig .tc sp S e) : Type := Buf (Elt F) (M.view.loc (c : Thread nD τ))
/-- The table held by the body: the half of it the region hands out, read-only. -/
abbrev tblPt (c : Dev nD) (f : MBuf (F := F) c tblM) : sProp 𝕄 := tblM.view.loc (c : Thread nD τ) ↦{fullShare.right} f
/-- The padded weights held at a share. Up to three copies out of them are in flight at once, and two of them may
    read the same row, so the body holds them as one read share per DMA cell (the cells are numbered 4 to 7 in the
    core's pool, so the full share is cut eight ways) beside the remainder. -/
abbrev wAt (c : Dev nD) (q : PosShare TreeShare) (f : MBuf (F := F) c wM) : sProp 𝕄 := wM.view.loc (c : Thread nD τ) ↦{q} f
abbrev wToks (c : Dev nD) (f : MBuf (F := F) c wM) : sProp 𝕄 :=
  iprop(wAt c (Transfers.shareDrop fullShare 8) f ∗ wAt c (Transfers.shareTok fullShare 8 0) f ∗ wAt c (Transfers.shareTok fullShare 8 1) f
    ∗ wAt c (Transfers.shareTok fullShare 8 2) f ∗ wAt c (Transfers.shareTok fullShare 8 3) f ∗ wAt c (Transfers.shareTok fullShare 8 4) f
    ∗ wAt c (Transfers.shareTok fullShare 8 5) f ∗ wAt c (Transfers.shareTok fullShare 8 6) f ∗ wAt c (Transfers.shareTok fullShare 8 7) f)

/-- The whole points-to is the nine parts, and back. -/
theorem wToks_iff (c : Dev nD) (f : MBuf (F := F) c wM) : (wAt c fullShare f : sProp 𝕄) ⊣⊢ wToks c f := by
  have h := Transfers.pointsTo_toks (Ix := Unit) (Name := ℕ) (U := Pipeline.UD sig nD τ) (Lvl := ℕ) (Val := Elt F)
    (ℓ := wM.view.loc (c : Thread nD τ)) (S := Finset.univ) (f := f) fullShare 8
  rw [BI.bigSep_eq_bigSepL_of_eq [(0 : Fin 8), 1, 2, 3, 4, 5, 6, 7] (by decide) (by decide)] at h
  exact h

/-- The table's half, as the region hands it. -/
theorem PhiT_eq (c : Dev nD) : (Pipeline.ΦT pre0 (tbl m) c : sProp 𝕄) = tblPt c (tbl m 0) := by
  unfold Pipeline.ΦT Pipeline.prefHeld
  rw [show (Finset.univ : Finset (Fin 1)) = {(0 : Fin 1)} from by decide, bigSep_singleton]
  rfl

/-! ## The windows -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The input window's current staging buffer holds its block at every point, for any proof data over `V` whose
    body leaves the block in place. -/
theorem before0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it. -/
abbrev xStage (t : Fin (cfgM m).N) : Memref sig .tc .vmem S32x273x360 .f32 := spec0_0.stage ((cfgM m).slots t 0)
abbrev hxStage (t : Fin (cfgM m).N) : (xStage m t).IsWhole := hstage0_0 (((cfgM m).slots t 0).cast nbuf0_0)
abbrev oStage (t : Fin (cfgM m).N) : Memref sig .tc .vmem S32x273x360 .f32 := spec0_1.stage ((cfgM m).slots t 1)
abbrev hoStage (t : Fin (cfgM m).N) : (oStage m t).IsWhole := hstage0_1 (((cfgM m).slots t 1).cast nbuf0_1)
/-- One staging buffer of the output window, through which its contents are stated. -/
abbrev oView : View sig .tc .vmem S32x273x360 .f32 := (Memref.whole cc0_stg1_0 : Memref sig .tc .vmem S32x273x360 .f32).view

/-- The kernel body at point `t`, on what the pipeline calls it with. -/
abbrev bodyAt (t : Fin (cfgM m).N) : Prog (TpuEff nD τ sig (Elt F) Λ₀ .tc) PUnit :=
  cc0__kernel (grid0.coords t) tblM htblM (xStage m t) (hxStage m t) wM hwM (oStage m t) (hoStage m t) slotsM hslotsM cc0_scratch1

/-! ## The kernel's own cells and the operand it moves itself -/

abbrev osem : Fin 4 → SemLoc sig := fun j => (![SemLoc.dma 4, SemLoc.dma 5, SemLoc.dma 6, SemLoc.dma 7] : Fin 4 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem [0, 1, 2, 3] (by decide) (by decide)]; rfl
/-- The padded weights: unscoped, no window's array, no table. -/
def H0 : Finset (Ref sig .tc) := {main_v1}
theorem H0_sub : H0 ⊆ Pipeline.restRefsP sig pre0 spec0 := by decide
theorem hbmPts_eq (c : Dev nD) :
    (bigSep H0 (fun b => ((c : Thread nD τ).loc b) ↦{fullShare} V m c b) : sProp 𝕄) = iprop(wAt c fullShare (V m c main_v1)) := by
  rw [BI.bigSep_eq_bigSepL_of_eq [main_v1] (by decide) (by decide)]; rfl

/-- The invariant conjunct by conjunct: the scratch at some contents, the generator register at some state, the four
    cells at zero, the padded weights whole at their region-entry contents. -/
theorem PhiD_eq (c : Dev nD) :
    (Pipeline.ΦD osem spec0 H0 (V m) c : sProp 𝕄)
      = iprop(iprop((∃ d, owns (c : Thread nD τ) slotsM fullShare d)) ∗ (∃ r, prngReg c r)
          ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
          ∗ iprop(wAt c fullShare (V m c main_v1))) := by
  rw [Pipeline.ΦD_eq, scopedRest0_eq, ownSems_eq, hbmPts_eq]; simp only [slotsM, owns_whole]; try rfl

/-! ## The scratch as its four slots -/

theorem inb_slot (s : Fin 4) : ∀ a, (![s.val, 0, 0] : Fin 3 → Nat) a + S1x280x384.size a ≤ S4x280x384.size a := by
  have := s.isLt; intro a; fin_cases a <;> simp <;> omega
/-- Slot `s` of the scratch, spelt as the body's copies spell their destination. -/
abbrev slotM (s : Fin 4) : Memref sig .tc .vmem S280x384 .f32 :=
  (slotsM.slice (Rect.unit (s := S4x280x384) ![s.val, 0, 0] S1x280x384.size (inb_slot s)) (fun _ => rfl)).squeeze S280x384 Facts₀.squeezes_S1x280x384_S280x384
abbrev slotSet (s : Fin 4) : Finset S4x280x384.Idx := (Rect.unit (s := S4x280x384) ![s.val, 0, 0] S1x280x384.size (inb_slot s)).set
theorem slotSet_eq (s : Fin 4) : (slotM s).view.set = slotSet s := by
  simp only [slotM, Memref.view_squeeze, View.set_reshape]; exact View.set_slice_whole _ _
theorem slots_disjoint (s s' : Fin 4) (h : s ≠ s') : Disjoint (slotSet s) (slotSet s') :=
  Ring.lead_disjoint (s := S4x280x384) (0 : Fin 3) 1 (fun s : Fin 4 => (![s.val, 0, 0] : Fin 3 → Nat)) S1x280x384.size inb_slot (fun s => by simp) rfl s s' h
theorem slots_cover : Finset.univ.biUnion slotSet = Finset.univ :=
  Ring.lead_cover (s := S4x280x384) (0 : Fin 3) 1 (fun s : Fin 4 => (![s.val, 0, 0] : Fin 3 → Nat)) S1x280x384.size inb_slot (fun s => by simp)
    (fun s a ha => by fin_cases a <;> first | exact absurd rfl ha | rfl) rfl (fun a ha => by fin_cases a <;> first | exact absurd rfl ha | rfl) rfl

/-- A conjunction over the four slots, one by one. -/
theorem bigSep_fin4 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- Slot `s` held at `f`. -/
abbrev slotP (c : Dev nD) (s : Fin 4) (f : MBuf (F := F) c (slotM s)) : sProp 𝕄 := (slotM s).view.loc (c : Thread nD τ) ↦[(slotM s).view.set]{fullShare} f
theorem slotP_eq (c : Dev nD) (s : Fin 4) (f) : slotP (F := F) c s f = (((c : Thread nD τ).loc cc0_scratch0) ↦[slotSet s]{fullShare} f : sProp 𝕄) := by
  unfold slotP; rw [slotSet_eq]

set_option maxHeartbeats 1000000 in
/-- The scratch whole at anything is its four slots at something each, -/
theorem slots_in (c : Dev nD) : iprop(∃ d, owns (c : Thread nD τ) slotsM fullShare d)
    ⊢ (iprop((∃ f, slotP (F := F) c 0 f) ∗ (∃ f, slotP (F := F) c 1 f) ∗ (∃ f, slotP (F := F) c 2 f) ∗ ∃ f, slotP (F := F) c 3 f) : sProp 𝕄) := by
  simp only [slotsM, owns_whole]
  iintro ⟨%f, H⟩
  ihave H4 := (Entails.of_eq ((Ring.pointsTo_blocks (Ix := Unit) (Name := ℕ) (U := Pipeline.UD sig nD τ) (Lvl := ℕ) (ℓ := (c : Thread nD τ).loc cc0_scratch0) (q := fullShare) slotSet slots_disjoint slots_cover f).trans
    (bigSep_fin4 _))) $$ H
  icases H4 with ⟨H0, H1, H2, H3⟩
  isplitl [H0]; · iexists f; iapply (Entails.of_eq (slotP_eq c 0 _).symm); iexact H0
  isplitl [H1]; · iexists f; iapply (Entails.of_eq (slotP_eq c 1 _).symm); iexact H1
  isplitl [H2]; · iexists f; iapply (Entails.of_eq (slotP_eq c 2 _).symm); iexact H2
  iexists f; iapply (Entails.of_eq (slotP_eq c 3 _).symm); iexact H3

set_option maxHeartbeats 1000000 in
/-- and back. -/
theorem slots_out (c : Dev nD) : (iprop((∃ f, slotP (F := F) c 0 f) ∗ (∃ f, slotP (F := F) c 1 f) ∗ (∃ f, slotP (F := F) c 2 f) ∗ ∃ f, slotP (F := F) c 3 f) : sProp 𝕄)
    ⊢ iprop(∃ d, owns (c : Thread nD τ) slotsM fullShare d) := by
  simp only [slotsM, owns_whole]
  iintro ⟨⟨%f0, H0⟩, ⟨%f1, H1⟩, ⟨%f2, H2⟩, ⟨%f3, H3⟩⟩
  iapply (Ring.pointsTo_blocks_join_exists slotSet slots_disjoint slots_cover f0)
  irw [bigSep_fin4]
  isplitl [H0]; · iexists f0; iapply (Entails.of_eq (slotP_eq c 0 f0)); iexact H0
  isplitl [H1]; · iexists f1; iapply (Entails.of_eq (slotP_eq c 1 f1)); iexact H1
  isplitl [H2]; · iexists f2; iapply (Entails.of_eq (slotP_eq c 2 f2)); iexact H2
  iexists f3; iapply (Entails.of_eq (slotP_eq c 3 f3)); iexact H3

/-! ## What the body assumes of the table's words -/

/-- Every word the body can read off the table names one of the 128 rows of the padded weights. The body assumes, after
    each table read, that the row's slab lies inside the array; this is what makes each of those assumptions true. -/
def RowsOk (c : Dev nD) (xt : MBuf (F := F) c tblM) : Prop :=
  ∀ (R : LoadRect S256) (j : R.shape.Idx), (tblM.view.readAt (Elt F) R xt j).toNat < 128

/-- A slab starting at a row below 128 lies inside the 128 slabs. -/
theorem slab_fits (v : BitVec 32) (h : v.toNat < 128) (a : Fin 3) :
    (![v.toNat, 0, 0] : Fin 3 → Nat) a + S1x280x384.size a ≤ S128x280x384.size a := by
  fin_cases a <;> simp [Shape.size] <;> omega

/-- The table's words, on every core, name rows of the padded weights. -/
abbrev TableOk (m : (ℓ : Loc nD τ sig) → Buf (Elt F) ℓ) : Prop := ∀ c : Dev nD, RowsOk c (tbl m 0)

/-! ## The frame claim's post from the frame run's -/

/-- A run to the library's frame post, read at the three arguments (the staged input by `Dat.arrAt_in`, the two
    others by the post's second clause), is the frame claim's post. -/
theorem frame_of (dats : (p : Fin 1) → (c : Dev nD) → Dat τ (Elt F) Unit ℕ (Pipeline.UD sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

end Cert.KernelIdeal.Hand

end
-- ==== Proof.IdealRun.lean ====
/-
  One grid point of `Cert.KernelIdeal`'s kernel, run whole. The point primes three copies (samples 0, 1, 2 of its tile into
  slots 0, 1, 2), then for each sample b = 0 … 31 in turn: waits for slot b mod 4, starts sample b + 3's copy into
  slot (b + 3) mod 4 when b + 3 < 32, loads the slot and the sample's 273×360 slab of the input block, and stores
  their product's first 273 rows as slab b of the output block. Each copy reads the row of the padded weights that
  the table's word for the sample names; the body assumes that row inside the array, which `RowsOk` grants.
  Every copy is waited for on its own cell before its slot is loaded and before the cell is used again, so each wait
  closes exactly one copy. The scratch is handed to the run slot by slot: a copy takes its slot whole and lands in it
  whole, so what a slot holds when it is loaded is the row copied into it, whatever the slot held before. The copy's
  source row is lent from the read share of the copy's cell, so two copies of one row in flight at once do not meet.
  At the end the four cells are at zero, the shares are all back, the slots join to the scratch at some contents, and
  the output buffer holds its 32 slabs, listed last first.
-/
import proofs.«418997_j6725918786146_3_alg».proof.Proof.IdealShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- a slot is held under the name its copies give it; the loads name it through the whole scratch
set_option sl_exec.respelt true in
set_option maxHeartbeats 4000000 in
/-- The slabs the body's stores leave in the output's staging memref, as pieces (last first), with the proof that from
    whole memrefs — the input block at its contents, the output's and the scratch at anything, the four cells at
    zero, the padded weights as read shares, the table's half — the body runs to the continuation holding all of it
    again and the output's buffer with those pieces written. -/
noncomputable def bodyRun (c : Dev nD) (i : grid0.Coords)
    (arg2 : Memref sig .tc .vmem S32x273x360 .f32) (harg2 : arg2.IsWhole)
    (arg4 : Memref sig .tc .vmem S32x273x360 .f32) (harg4 : arg4.IsWhole)
    (x0 : Vec F S32x273x360 .f32) (xt : MBuf (F := F) c tblM) (fw : MBuf (F := F) c wM)
    (hT : RowsOk c xt) :
    { L : List (View.Piece (Elt F) S32x273x360 .f32) //
      ∀ (W : Waits sig Unit) (K : PUnit → sProp 𝕄),
        iprop(owns (c : Thread nD τ) arg2 fullShare x0 ∗ (∃ d, owns (c : Thread nD τ) arg4 fullShare d) ∗ (∃ d, owns (c : Thread nD τ) slotsM fullShare d)
            ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0
            ∗ wToks c fw ∗ tblPt c xt ∗ owes (c : Thread nD τ) 0 W
            ∗ (iprop(owns (c : Thread nD τ) arg2 fullShare x0 ∗ (∃ f, arg4.view.loc (c : Thread nD τ) ↦[arg4.view.set]{fullShare} arg4.view.writes (Elt F) f L) ∗ (∃ d, owns (c : Thread nD τ) slotsM fullShare d)
                ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0
                ∗ wToks c fw ∗ tblPt c xt ∗ (∃ W', owes (c : Thread nD τ) 0 W')) -∗ K ⟨⟩))
          ⊢ wp frame (wpE (defs₀ (F := F)) Variants.none c none) Set.univ (cc0__kernel i tblM htblM arg2 harg2 wM hwM arg4 harg4 slotsM hslotsM cc0_scratch1) K } := by
  refine ⟨?_, fun W K => ?run⟩
  case run =>
    simp only [cc0__kernel_eq_skeleton]; unfold cc0__kernel_skel
    simp only [k0_part32_eq_skeleton]; unfold k0_part32_skel
    simp only [k0_part1_eq_skeleton]
    iintro ⟨H0, H1, HS, Hq0, Hq1, Hq2, Hq3, ⟨Hwr, Hw0, Hw1, Hw2, Hw3, Hw4, Hw5, Hw6, Hw7⟩, Ht, HW, Hk⟩
    ihave HS' := (slots_in c) $$ HS
    icases HS' with ⟨⟨%fs0, Hs0⟩, ⟨%fs1, Hs1⟩, ⟨%fs2, Hs2⟩, ⟨%fs3, Hs3⟩⟩
    unfold owns
    icases H0 with ⟨%f0, %hf0, H0⟩
    icases H1 with ⟨%d1, %f1, -, H1⟩
    obtain rfl := harg2.eq_unread hf0
    sl_exec (disch := first | exact fun a => slab_fits _ (hT _ _) a | exact fun _ a => slab_fits _ (hT _ _) a)
    sl_step
    iapply Hk
    isplitl [H0]
    · iexists _; isplitr; · ipureintro; exact harg2.read_unread _
      iexact H0
    isplitl [H1]; · iexists _; iexact H1
    isplitl [Hs0 Hs1 Hs2 Hs3]
    · iapply (slots_out c)
      isplitl [Hs0]; · iexists _; iexact Hs0
      isplitl [Hs1]; · iexists _; iexact Hs1
      isplitl [Hs2]; · iexists _; iexact Hs2
      iexists _; iexact Hs3
    isplitl [Hq0]; · iexact Hq0
    isplitl [Hq1]; · iexact Hq1
    isplitl [Hq2]; · iexact Hq2
    isplitl [Hq3]; · iexact Hq3
    isplitl [Hwr Hw0 Hw1 Hw2 Hw3 Hw4 Hw5 Hw6 Hw7]
    · isplitl [Hwr]; · iexact Hwr
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      iexact Hw7
    isplitl [Ht]; · iexact Ht
    iexists _; iexact HW

end Cert.KernelIdeal.Hand

end
-- ==== Proof.IdealFrame.lean ====
/-
  The frame of `Cert.KernelIdeal`'s program: every weakly fair execution of @main terminates, nothing faults, and the three
  arguments end unchanged.
  The output window's 32 stores at a point are the 32 slabs of its block, so they cover it, and what the buffer holds
  after the body is those slabs read back, whatever it held before. The proof data says so point by point; the region
  invariant is the scratch at anything, the four cells at zero, the padded weights at their region-entry contents,
  and the table's half. The body obligation at a point is the whole-body run on the point's staging memrefs: the
  padded weights are cut into read shares for the run and joined after it. The launch is the library's frame run for
  a pipeline with prefetched tables whose kernel copies an operand left in HBM by itself within each point.
  The one hypothesis, `hR`, is that every word of the table names a row of the padded weights.
-/
import proofs.«418997_j6725918786146_3_alg».proof.Proof.IdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's 32 slab stores tile the output block, so every index of it lies in one of them. -/
theorem out_cover (c : Dev nD) (i : grid0.Coords) (arg2 : Memref sig .tc .vmem S32x273x360 .f32) (harg2 : arg2.IsWhole)
    (arg4 : Memref sig .tc .vmem S32x273x360 .f32) (harg4 : arg4.IsWhole)
    (x0 : Vec F S32x273x360 .f32) (xt : MBuf (F := F) c tblM) (fw : MBuf (F := F) c wM) (hT : RowsOk c xt) (y : S32x273x360.Idx) :
    ∃ pc ∈ (bodyRun c i arg2 harg2 arg4 harg4 x0 xt fw hT).1, y ∈ pc.1.set :=
  View.cover_of_tiledL (bodyRun c i arg2 harg2 arg4 harg4 x0 xt fw hT).1 S1x273x360.size (by sl_kernel_rfl) y

/-- What the run leaves in the output's staging buffer: its slabs read back over anything. -/
def outBlock (c : Dev nD) (i : grid0.Coords) (arg2 : Memref sig .tc .vmem S32x273x360 .f32) (harg2 : arg2.IsWhole)
    (arg4 : Memref sig .tc .vmem S32x273x360 .f32) (harg4 : arg4.IsWhole)
    (x0 : Vec F S32x273x360 .f32) (xt : MBuf (F := F) c tblM) (fw : MBuf (F := F) c wM) (hT : RowsOk c xt) : Vec F S32x273x360 .f32 :=
  oView.read (Elt F) (oView.writes (Elt F) oView.junk (bodyRun c i arg2 harg2 arg4 harg4 x0 xt fw hT).1)

/-- What the output's staging buffer holds after the body at point `t`. -/
def outAt (hR : TableOk m) (c : Dev nD) (t : Fin (cfgM m).N) : Vec F S32x273x360 .f32 :=
  outBlock c (grid0.coords t) (xStage m t) (hxStage m t) (oStage m t) (hoStage m t) (iblk m c 0 t) (tbl m 0) (V m c main_v1) (hR c)

/-- The proof data of the pipeline on core `c`. -/
def dats (hR : TableOk m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => (outAt m hR c t)
  Φ _ := iprop(Pipeline.ΦD osem spec0 H0 (V m) c ∗ Pipeline.ΦT pre0 (tbl m) c)
  q _ := fullShare
  owed _ := 0

theorem A_eq (hR : TableOk m) (c : Dev nD) (w : Fin (cfgM m).W) : (dats m hR 0 c).A w = V m c (Pipeline.arrRef spec0 w) := by
  dsimp only [dats]
theorem after_in (hR : TableOk m) (c : Dev nD) (t : Fin (cfgM m).N) : (dats m hR 0 c).after 0 t = iblk m c 0 t := by dsimp only [dats]; try rfl
theorem after_out (hR : TableOk m) (c : Dev nD) (t : Fin (cfgM m).N) : (dats m hR 0 c).after 1 t = outAt m hR c t := by dsimp only [dats]; try rfl
theorem before_in (hR : TableOk m) (c : Dev nD) (t : Fin (cfgM m).N) (d) : (dats m hR 0 c).before 0 t d = iblk m c 0 t :=
  before0_of m (dats m hR 0 c) (A_eq m hR c 0) (after_in m hR c) t d

/-- What the body is called with at point `t`, -/
def bodyPre (hR : TableOk m) (c : Dev nD) (t : Fin (cfgM m).N) : sProp 𝕄 :=
  iprop((dats m hR 0 c).Φ t.castSucc ∗ (dats m hR 0 c).owesAt () t.castSucc
    ∗ (∃ d, owns (c : Thread nD τ) (xStage m t) fullShare ((dats m hR 0 c).before 0 t d))
    ∗ (∃ d, owns (c : Thread nD τ) (oStage m t) fullShare ((dats m hR 0 c).before 1 t d)))

/-- and what it returns. -/
def bodyPost (hR : TableOk m) (c : Dev nD) (t : Fin (cfgM m).N) : sProp 𝕄 :=
  iprop((dats m hR 0 c).Φ t.succ ∗ (dats m hR 0 c).owesAt () t.succ
    ∗ owns (c : Thread nD τ) (xStage m t) fullShare ((dats m hR 0 c).after 0 t)
    ∗ owns (c : Thread nD τ) (oStage m t) fullShare ((dats m hR 0 c).after 1 t))

/-- The body at any point: the invariant hands the run the scratch, the cells at zero, the padded weights (cut into
    read shares for the run, joined after it) and the table's half, and takes them back as they were; the waits are
    recorded in the core's `owes`, within the next point's bound; the output's buffer holds its slabs. -/
theorem sound_body (hR : TableOk m) (c : Dev nD) (t : Fin (cfgM m).N) :
    bodyPre m hR c t ⊢ wp frame (wpE (defs₀ (F := F)) Variants.none c none) Set.univ (bodyAt m t) (fun _ => bodyPost m hR c t) := by
  unfold bodyPre bodyPost bodyAt
  simp only [before_in]
  rw [show (dats m hR 0 c).Φ t.succ = (dats m hR 0 c).Φ t.castSucc from rfl, after_in, after_out]
  rw [show (dats m hR 0 c).Φ t.castSucc = iprop(Pipeline.ΦD osem spec0 H0 (V m) c ∗ Pipeline.ΦT pre0 (tbl m) c) from rfl, PhiD_eq, PhiT_eq]
  unfold Dat.owesAt Pipeline.owesWithin
  rw [show (dats m hR 0 c).owed t.castSucc = 0 from rfl, show (dats m hR 0 c).owed t.succ = 0 from rfl]
  unfold outAt
  unfold outBlock
  iintro ⟨⟨⟨HS0, Hg, ⟨Hq0, Hq1, Hq2, Hq3⟩, Hw⟩, Ht⟩, ⟨%W, -, HW⟩, ⟨%d0, H0⟩, ⟨%d1, H1⟩⟩
  ihave Hw' := (wToks_iff c (V m c main_v1)).1 $$ Hw
  iapply ((bodyRun c (grid0.coords t) _ _ _ _ (iblk m c 0 t) (tbl m 0) (V m c main_v1) (hR c)).2 W _)
  isplitl [H0]; · iexact H0
  isplitl [H1]; · iexists _; iexact H1
  isplitl [HS0]; · iexact HS0
  isplitl [Hq0]; · iexact Hq0
  isplitl [Hq1]; · iexact Hq1
  isplitl [Hq2]; · iexact Hq2
  isplitl [Hq3]; · iexact Hq3
  isplitl [Hw']; · iexact Hw'
  isplitl [Ht]; · iexact Ht
  isplitl [HW]; · iexact HW
  iintro ⟨H0, ⟨%e1, H1⟩, HS0, Hq0, Hq1, Hq2, Hq3, Hw', Ht, ⟨%W', HW'⟩⟩
  ihave Hw := (wToks_iff c (V m c main_v1)).2 $$ Hw'
  isplitl [HS0 Hg Hq0 Hq1 Hq2 Hq3 Hw Ht]
  · isplitr [Ht]
    · isplitl [HS0]; · iexact HS0
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hw
    · iexact Ht
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (out_cover c _ _ _ _ _ _ _ _ _)

/-- The library's body obligation, at every point. -/
theorem body_obligation (hR : TableOk m) (c : Dev nD) : BodyObligation (dats (F := F) m hR 0 c) (defs₀ (F := F)) Variants.none () Set.univ := fun t => by
  rw [bigSep_W0, bigSep_W0]
  exact sound_body m hR c t

set_option backward.isDefEq.respectTransparency.types false in
/-- From any memory with zero counters every weakly fair execution of @main terminates, and every final state has the
    pipeline's arrays at what the library computes from the proof data and every other unscoped buffer as the region
    found it. -/
theorem run_main (hR : TableOk m) : θ_run defs (onTc (τ := τ) (main (F := F))) (s₀ m ρ) (Pipeline.FramePost (Pipeline.pin pcfgs fun _ => adm m) (dats m hR) 0 (V m)) :=
  Pipeline.θ_run_frameP_dma pcfgs (fun _ => adm m) (dats m hR) (0 : Fin 1) launch0 osem defs₀ Variants.none ownSemFacts H0 H0_sub m ρ main
    (hbody := fun c => (body_obligation m hR c).loose) (hshare := fun c => (dats m hR 0 c).share_full fun _ => rfl)
    (howed := fun _ _ => rfl) (V := V m) (hmain := hmain m Variants.none) (hA := A_eq m hR) (hpf := V_pre m)
    (hin := fun _ => .rfl)
    (hout := fun c => show iprop(Pipeline.ΦD osem spec0 H0 (V m) c ∗ Pipeline.ΦT pre0 (tbl m) c) ⊢ Pipeline.ΦD osem spec0 H0 (V m) c from by
      iintro ⟨HD, -⟩; iexact HD)

/-- The frame claim's statement at any `F`, under the table's words naming rows. -/
theorem frame (hR : TableOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m hR) (A_eq m hR) (run_main m ρ hR)

end Cert.KernelIdeal.Hand

end
-- ==== Proof.IdealTable.lean ====
/-
  What the host operations before the region leave in the two buffers the kernel reads besides its input window:
  the table of row numbers (the subject ids clamped into [0, 127]) and the padded weights (each 273×273 matrix with
  zeros appended up to 280×384).
-/
import proofs.«418997_j6725918786146_3_alg».proof.Proof.IdealShared
import proofs.«418997_j6725918786146_3_alg».proof.Proof.Spec
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt F) ℓ)

/-! ## The clamp on one 32-bit word -/

/-- The signed minimum with 127 of the signed maximum with 0 of a word `s`, read unsigned, is `s` read signed and
    clamped into [0, 127]. Three cases. A negative `s` loses to 0 in the maximum, 0 wins the minimum against 127, and
    the clamp of a negative integer is 0 as well. A nonnegative `s` is its own maximum with 0 and its signed reading is
    its unsigned one; then either it exceeds 127 and both sides are 127, or it does not and both sides are `s`. -/
theorem clamp_toNat (s : BitVec 32) :
    (IntOp.minsi 127#32 (IntOp.maxsi 0#32 s)).toNat = min s.toInt.toNat 127 := by
  have hs : s.toNat < 2 ^ 32 := s.isLt
  have hi := BitVec.toInt_eq_toNat_cond s
  have h0 : (0#32 : BitVec 32).toInt = 0 := by decide
  have h127 : (127#32 : BitVec 32).toInt = 127 := by decide
  unfold IntOp.minsi IntOp.maxsi
  by_cases hneg : s.toInt < 0
  · have e1 : s.slt 0#32 = true := by simp only [BitVec.slt, h0, decide_eq_true_eq]; exact hneg
    have e2 : (127#32 : BitVec 32).slt 0#32 = false := by decide
    simp only [e1, e2, if_true, Bool.false_eq_true, if_false]
    show 0 = _
    omega
  · have e1 : s.slt 0#32 = false := by simp only [BitVec.slt, h0, decide_eq_false_iff_not]; exact hneg
    simp only [e1, Bool.false_eq_true, if_false]
    have hnat : s.toInt = (s.toNat : Int) := by
      split_ifs at hi with h2
      · exact hi
      · omega
    by_cases hbig : (127 : Int) < s.toInt
    · have e2 : (127#32 : BitVec 32).slt s = true := by simp only [BitVec.slt, h127, decide_eq_true_eq]; exact hbig
      simp only [e2, if_true]
      show 127 = _
      omega
    · have e2 : (127#32 : BitVec 32).slt s = false := by simp only [BitVec.slt, h127, decide_eq_false_iff_not]; exact hbig
      simp only [e2, Bool.false_eq_true, if_false]
      omega

/-- So the clamped word, read unsigned, is below 128. -/
theorem clamp_lt (s : BitVec 32) : (IntOp.minsi 127#32 (IntOp.maxsi 0#32 s)).toNat < 128 := by
  rw [clamp_toNat]; omega

/-! ## The two buffers after the host operations -/

/-- The table when the region is entered: the lanewise signed minimum of the constant 127 with the lanewise signed
    maximum of the constant 0 with the subject ids as launched. -/
theorem V_main_v0 (c : Dev nD) :
    (V m c main_v0 : S256.Idx → BitVec 32)
      = minsi (broadcastInDim S256 ![] bcast_S_S256 (constantI S_ 32 127#32))
          (maxsi (broadcastInDim S256 ![] bcast_S_S256 (constantI S_ 32 0#32)) (m ((c : Thread nD τ).loc main_arg1) : S256.Idx → BitVec 32)) := by
  dsimp only [V]
  simp only [hostOps0, hostOps0_1, hostOps0_2, hostOps0_3, List.flatten_cons, List.flatten_nil, List.append_nil, List.cons_append, List.nil_append]
  after_results
  rfl

/-- The padded weights when the region is entered: the weights as launched, padded with the float of the integer 0 by
    nothing below, by 7 rows and 111 columns above, and with nothing between the entries. -/
theorem V_main_v1 (c : Dev nD) :
    (V m c main_v1 : S128x280x384.Idx → Elt F .f32)
      = pad S128x280x384 ![0, 0, 0] ![0, 7, 111] ![0, 0, 0] (m ((c : Thread nD τ).loc main_arg2) : S128x273x273.Idx → Elt F .f32)
          (sitofp .f32 (constantI S_ 32 0#32) : S_.Idx → Elt F .f32) pads_S128x273x273_S128x280x384_000_070_01110 h_S_ := by
  dsimp only [V]
  simp only [hostOps0, hostOps0_1, hostOps0_2, hostOps0_3, List.flatten_cons, List.flatten_nil, List.append_nil, List.cons_append, List.nil_append]
  after_results
  rfl

/-! ## The three facts the other modules use -/

/-- Every word of the table is at most 127: it is a minimum with 127 of a maximum with 0. A read through the whole
    table is the table's word at the read's index, and that word is the clamp of a subject id. -/
theorem tableOk : TableOk m := by
  intro c R j
  show ((V m (0 : Dev nD) main_v0 : S256.Idx → BitVec 32) (R.idx j)).toNat < 128
  rw [V_main_v0]
  exact clamp_lt _

/-- The table's word for sample `j`, as a row number, is the row the specification selects for the sample's subject id:
    the maximum with 0 then the minimum with 127, read unsigned, is the id read signed and clamped into [0, 127]. -/
theorem tbl_row (c : Dev nD) (j : Fin 256) :
    ((tbl m 0 : S256.Idx → BitVec 32) (ix1 j)).toNat = (Cert.Spec.rowOf ((m ((c : Thread nD τ).loc main_arg1) : S256.Idx → BitVec 32) (ix1 j))).val := by
  obtain rfl : c = 0 := Subsingleton.elim _ _
  show ((V m (0 : Dev nD) main_v0 : S256.Idx → BitVec 32) (ix1 j)).toNat = _
  rw [V_main_v0]
  exact clamp_toNat _

/-- Inside the first 273 rows and columns of a slab the padded weights are the weights: with no padding below and
    none between the entries, the index (r, a, b) of the padded array is the operand's index (r, a, b) on every axis. -/
theorem wpad_apply (c : Dev nD) (r : Fin 128) (a : Fin 273) (b : Fin 273) :
    (V m c main_v1 : S128x280x384.Idx → Elt F .f32) (ix3 r ⟨a.val, by omega⟩ ⟨b.val, by omega⟩)
      = (m ((c : Thread nD τ).loc main_arg2) : S128x273x273.Idx → Elt F .f32) (ix3 r a b) := by
  rw [V_main_v1]
  refine pad_apply_of_inside _ _ _ _ _ _ _ _ (ix3 r a b) (fun k => ?_)
  fin_cases k
  · show r.val = 0 + r.val * (0 + 1); omega
  · show a.val = 0 + a.val * (0 + 1); omega
  · show b.val = 0 + b.val * (0 + 1); omega

end Cert.KernelIdeal.Hand

end
-- ==== Proof.IdealReads.lean ====
/-
  Four reads the value of a grid point is made of, each through a view of a buffer: a slot of the scratch after a row
  was copied into it whole; the copied row itself, read off the padded weights; one word of the table; one sample's
  slab of the input block.
-/
import proofs.«418997_j6725918786146_3_alg».proof.Proof.IdealShared
import Idealize.ShloMosaic.Lib.ValueIdx
import Idealize.ShloMosaic.Lib.ValueLayout
import Idealize.ShloMosaic.Lib.Writes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-- Slot `k`'s entry (a, e) sits in the scratch where the scratch's own entry (k, a, e) sits: the squeeze puts the unit
    axis back at 0, and the unit-stride rectangle at offsets (k, 0, 0) adds them. -/
theorem slot_emb (k : Fin 4) (a : Fin 280) (e : Fin 384) :
    (slotM k).view.emb (ix2 a e) = slotsM.view.emb (ix3 k a e) := by
  simp only [slotM, slotsM, Memref.view_squeeze, Memref.view_slice, Memref.view_whole, View.emb_reshape, View.emb_slice, View.emb_whole,
    Function.Embedding.trans_apply, Equiv.coe_toEmbedding]
  refine congrArg _ ?_
  rw [reshapeEquiv_ix2_1ab]
  funext d
  apply Fin.ext
  rw [Rect.emb_apply, Rect.off_unit, Rect.stride_unit]
  match d with
  | ⟨0, _⟩ => show k.val + 1 * 0 = k.val; omega
  | ⟨1, _⟩ => show 0 + 1 * a.val = a.val; omega
  | ⟨2, _⟩ => show 0 + 1 * e.val = e.val; omega

/-- A slot loaded through the whole scratch, after copies landed in it whole, holds the LAST copy's payload: entry
    (0, a, e) of the load is the payload's entry (a, e), whatever the slot held before and whatever the earlier copies
    left. (The offsets are a variable with an equation, so that the lemma applies to the printed offset terms.) -/
theorem slot_read (c : Dev nD) (k : Fin 4) (off : Fin 3 → Nat) (hoff : off = ![k.val, 0, 0])
    (inb : ∀ a, off a + S1x280x384.size a ≤ S4x280x384.size a)
    (g : MBuf (F := F) c (slotM k)) (p : S280x384.Idx → Elt F .f32) (rest : List (View.Piece (Elt F) S280x384 .f32))
    (a : Fin 280) (e : Fin 384) :
    View.readAt (Elt F) slotsM.view (Rect.unit (s := S4x280x384) off S1x280x384.size inb).toLoadRect
        ((slotM k).view.writes (Elt F) g (⟨Rect.whole S280x384, p⟩ :: rest)) (ix3 (0 : Fin 1) a e)
      = p (ix2 a e) := by
  subst hoff
  rw [View.readAt_apply]
  -- the load's entry (0, a, e) is the scratch's entry (k + 0, 0 + a, 0 + e)
  have hidx : (Rect.unit (s := S4x280x384) ![k.val, 0, 0] S1x280x384.size inb).toLoadRect.idx (ix3 (0 : Fin 1) a e) = ix3 k a e := by
    funext d
    apply Fin.ext
    rw [LoadRect.idx_apply]
    match d with
    | ⟨0, _⟩ => show k.val + 1 * 0 = k.val; omega
    | ⟨1, _⟩ => show 0 + 1 * a.val = a.val; omega
    | ⟨2, _⟩ => show 0 + 1 * e.val = e.val; omega
  rw [hidx]
  -- through the slot's own view the last whole write is read back at (a, e)
  have hw := View.read_writes_cons_emb (Val := Elt F) (slotM k).view g (Rect.whole S280x384) p rest (ix2 a e)
  rw [Rect.emb_whole_apply, View.read_apply, slot_emb] at hw
  -- and both views read the same element of the scratch
  rw [View.read_apply]
  exact hw

/-- A copied row: the slab of the padded weights at row `r`, read through the copy's source view. -/
theorem row_read (c : Dev nD) (r : Fin 128) (off : Fin 3 → Nat) (hoff : off = ![r.val, 0, 0])
    (inb : ∀ a, off a + S1x280x384.size a ≤ S128x280x384.size a) (fw : MBuf (F := F) c wM) (a : Fin 280) (e : Fin 384) :
    (ReadAs.same.apply (View.read (Elt F)
        ((wM.slice (Rect.unit (s := S128x280x384) off S1x280x384.size inb) (fun _ => rfl)).squeeze S280x384 Facts₀.squeezes_S1x280x384_S280x384).view fw)
      : S280x384.Idx → Elt F .f32) (ix2 a e)
      = (fw : S128x280x384.Idx → Elt F .f32) (ix3 r a e) := by
  subst hoff
  rw [ReadAs.apply_same, View.read_apply]
  simp only [wM, Memref.view_squeeze, Memref.view_slice, Memref.view_whole, View.emb_reshape, View.emb_slice, View.emb_whole,
    Function.Embedding.trans_apply, Equiv.coe_toEmbedding]
  -- the squeeze puts the unit axis back at 0, and the rectangle at offsets (r, 0, 0) adds them: the element is (r, a, e)
  have hidx : (Rect.unit (s := S128x280x384) ![r.val, 0, 0] S1x280x384.size inb).emb
      (Shape.reshapeEquiv Facts₀.squeezes_S1x280x384_S280x384.numel_eq (ix2 a e)) = ix3 r a e := by
    rw [reshapeEquiv_ix2_1ab]
    funext d
    apply Fin.ext
    rw [Rect.emb_apply, Rect.off_unit, Rect.stride_unit]
    match d with
    | ⟨0, _⟩ => show r.val + 1 * 0 = r.val; omega
    | ⟨1, _⟩ => show 0 + 1 * a.val = a.val; omega
    | ⟨2, _⟩ => show 0 + 1 * e.val = e.val; omega
  rw [hidx]
  rfl

/-- One word of the table, read through the whole table's view at cell `n`. -/
theorem tbl_word (c : Dev nD) (n : Fin 256) (off : Fin 1 → Nat) (hoff : off = ![n.val])
    (inb : ∀ a, off a + S1.size a ≤ S256.size a) (xt : MBuf (F := F) c tblM) (j : (Rect.unit (s := S256) off S1.size inb).toLoadRect.shape.Idx) :
    tblM.view.readAt (Elt F) (Rect.unit (s := S256) off S1.size inb).toLoadRect xt j = (xt : S256.Idx → BitVec 32) (ix1 n) := by
  subst hoff
  rw [View.readAt_apply, View.read_apply]
  -- the shape read has one index, 0; the cell it names is n + 1 * 0
  have hidx : (Rect.unit (s := S256) ![n.val] S1.size inb).toLoadRect.idx j = ix1 n := by
    funext d
    apply Fin.ext
    rw [LoadRect.idx_apply]
    match d with
    | ⟨0, h0⟩ =>
      have hj : (j ⟨0, h0⟩).val < 1 := (j ⟨0, h0⟩).isLt
      show n.val + 1 * (j ⟨0, h0⟩).val = n.val
      omega
  rw [hidx]
  rfl

/-- Sample `b`'s slab of the input block, loaded through a whole staging memref holding the block `x0`: entry (0, k, t)
    is the block's entry (b, k, t). -/
theorem x_read (b : Fin 32) (off : Fin 3 → Nat) (hoff : off = ![b.val, 0, 0]) (size : Fin 3 → Nat) (hsize : size = S1x273x360.size)
    (inb : ∀ a, off a + size a ≤ S32x273x360.size a)
    (arg2 : Memref sig .tc .vmem S32x273x360 .f32) (harg2 : arg2.IsWhole) (x0 : Vec F S32x273x360 .f32)
    (j : (Rect.unit (s := S32x273x360) off size inb).toLoadRect.shape.Idx) :
    View.readAt (Elt F) arg2.view (Rect.unit (s := S32x273x360) off size inb).toLoadRect (harg2.unread x0) j
      = x0 (ix3 b ⟨(j 1).val, by have := (j 1).isLt; subst hsize; exact this⟩ ⟨(j 2).val, by have := (j 2).isLt; subst hsize; exact this⟩) := by
  subst hoff hsize
  -- the whole memref reads back the block it holds
  rw [View.readAt_apply, Memref.IsWhole.read_unread]
  -- the load's index (j₀, j₁, j₂), with j₀ < 1, names the block's entry (b + j₀, 0 + j₁, 0 + j₂)
  refine congrArg x0 (funext fun d => Fin.ext ?_)
  rw [LoadRect.idx_apply]
  match d with
  | ⟨0, h0⟩ =>
    have hj : (j ⟨0, h0⟩).val < 1 := (j ⟨0, h0⟩).isLt
    show b.val + 1 * (j ⟨0, h0⟩).val = b.val
    omega
  | ⟨1, h1⟩ => show 0 + 1 * (j 1).val = (j 1).val; omega
  | ⟨2, h2⟩ => show 0 + 1 * (j 2).val = (j 2).val; omega

end Cert.KernelIdeal.Hand

end
-- ==== Proof.Payload.lean ====
/-
  One sample's arithmetic at the ideal instance. The body takes the 280×384 slab copied into a slot, keeps its first
  273 rows, contracts them with the sample's 273×360 slab of the input over the channel (rows of both) into a zero
  accumulator, and keeps the first 273 rows of the 384×360 product: entry (d, t) of what it stores is the sum over
  the channel c of slab[c, d] · input[c, t].
-/
import proofs.«418997_j6725918786146_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The stored slab as one function of the loaded slot and the loaded input slab. -/
def slabMul (v : Vec Ideal S1x280x384 .f32) (u : Vec Ideal S1x273x360 .f32) : FVec Ideal S1x273x360 .f32 :=
  k0_pay2 (F := Ideal) v u

/-! ## The layout operations at an index -/

/-- The first 273 rows of the slot, read as a matrix: entry (c, d) is slot[0, c, d]. -/
theorem slotRows_apply (v : FVec Ideal S1x280x384 .f32) (h1 : S1x280x384.ShapeCasts S280x384)
    (h2 : S280x384.Slices ![0, 0] S273x384) (c : Fin 273) (d : Fin 384) :
    extractStridedSlice S273x384 ![0, 0] (shapeCast S280x384 v h1) h2 (ix2 c d)
      = v (ix3 (0 : Fin 1) (⟨c.val, by omega⟩ : Fin 280) d) := by
  refine (extractStridedSlice_apply ![0, 0] (shapeCast S280x384 v h1) h2 (ix2 c d)
    (ix2 (⟨c.val, by omega⟩ : Fin 280) d) (fun a => match a with
      | ⟨0, _⟩ => by show c.val = 0 + c.val; omega
      | ⟨1, _⟩ => by show d.val = 0 + d.val; omega)).trans ?_
  exact shapeCast_1ab_ab_apply v h1 _ d

/-- The input slab read as a matrix: entry (c, t) is input[0, c, t]. -/
theorem inputMat_apply (u : FVec Ideal S1x273x360 .f32) (h : S1x273x360.ShapeCasts S273x360) (c : Fin 273) (t : Fin 360) :
    shapeCast S273x360 u h (ix2 c t) = u (ix3 (0 : Fin 1) c t) :=
  shapeCast_1ab_ab_apply u h c t

/-- The first 273 rows of a 384×360 matrix, with a leading unit axis put in front: entry (0, d, t) is the matrix's
    entry (d, t). -/
theorem prodRows_apply (M : FVec Ideal S384x360 .f32) (h1 : S384x360.Slices ![0, 0] S273x360)
    (h2 : S273x360.ShapeCasts S1x273x360) (d : Fin 273) (t : Fin 360) :
    shapeCast S1x273x360 (extractStridedSlice S273x360 ![0, 0] M h1) h2 (ix3 (0 : Fin 1) d t)
      = M (ix2 (⟨d.val, by omega⟩ : Fin 384) t) := by
  refine (shapeCast_ab_1ab_apply (extractStridedSlice S273x360 ![0, 0] M h1) h2 (0 : Fin 1) d t).trans ?_
  exact extractStridedSlice_apply ![0, 0] M h1 (ix2 d t) (ix2 (⟨d.val, by omega⟩ : Fin 384) t) (fun a => match a with
      | ⟨0, _⟩ => by show d.val = 0 + d.val; omega
      | ⟨1, _⟩ => by show t.val = 0 + t.val; omega)

/-! ## The contraction at an index

The dot contracts axis 0 of both operands and keeps axis 1 of each: at the result index (d, t) and the contraction
position k the left operand is read at (k, d) and the right at (k, t). -/

theorem lhs_slab_0 (i : S384x360.Idx) (q : dot_S273x384_S273x360_S384x360_0_0_1_1_n_n.contr.Idx) :
    (dot_S273x384_S273x360_S384x360_0_0_1_1_n_n.lhsIdx i q 0).val = (q ⟨0, by decide⟩).val :=
  dot_S273x384_S273x360_S384x360_0_0_1_1_n_n.lhsIdx_val_of_single rfl i q

theorem lhs_slab_1 (i : S384x360.Idx) (q : dot_S273x384_S273x360_S384x360_0_0_1_1_n_n.contr.Idx) :
    (dot_S273x384_S273x360_S384x360_0_0_1_1_n_n.lhsIdx i q 1).val = (i 0).val := by
  unfold DotDims.lhsIdx
  rw [dif_neg (show ¬(1 : Fin S273x384.rank) ∈ dot_S273x384_S273x360_S384x360_0_0_1_1_n_n.lhsBatch by decide), dif_pos (show (1 : Fin S273x384.rank) ∈ dot_S273x384_S273x360_S384x360_0_0_1_1_n_n.lhsNonContracting by decide)]
  rfl

theorem rhs_slab_0 (i : S384x360.Idx) (q : dot_S273x384_S273x360_S384x360_0_0_1_1_n_n.contr.Idx) :
    (dot_S273x384_S273x360_S384x360_0_0_1_1_n_n.rhsIdx i q 0).val = (q ⟨0, by decide⟩).val :=
  dot_S273x384_S273x360_S384x360_0_0_1_1_n_n.rhsIdx_val_of_single rfl i q

theorem rhs_slab_1 (i : S384x360.Idx) (q : dot_S273x384_S273x360_S384x360_0_0_1_1_n_n.contr.Idx) :
    (dot_S273x384_S273x360_S384x360_0_0_1_1_n_n.rhsIdx i q 1).val = (i 1).val := by
  unfold DotDims.rhsIdx
  rw [dif_neg (show ¬(1 : Fin S273x360.rank) ∈ dot_S273x384_S273x360_S384x360_0_0_1_1_n_n.rhsBatch by decide), dif_pos (show (1 : Fin S273x360.rank) ∈ dot_S273x384_S273x360_S384x360_0_0_1_1_n_n.rhsNonContracting by decide)]
  rfl

/-- The product into the zero accumulator: entry (d, t) is the sum over the channel k of lhs[k, d] · rhs[k, t]. -/
theorem slabDot_apply (A : FVec Ideal S273x384 .f32) (B : FVec Ideal S273x360 .f32) (d : Fin 384) (t : Fin 360) :
    matmul (F := Ideal) dot_S273x384_S273x360_S384x360_0_0_1_1_n_n none A B (constant (F := Ideal) S384x360 .f32 0x00000000#32) (ix2 d t)
      = ∑ k : Fin 273, A (ix2 k d) * B (ix2 k t) := by
  simp only [matmul]
  rw [Ideal.matmul_constant_zero_apply, ← Equiv.sum_comp (contrEquiv1 dot_S273x384_S273x360_S384x360_0_0_1_1_n_n 273 rfl rfl).symm]
  refine Finset.sum_congr rfl fun k _ => ?_
  have hk := contrEquiv1_symm_val dot_S273x384_S273x360_S384x360_0_0_1_1_n_n 273 rfl rfl k
  have el : dot_S273x384_S273x360_S384x360_0_0_1_1_n_n.lhsIdx (ix2 d t) ((contrEquiv1 dot_S273x384_S273x360_S384x360_0_0_1_1_n_n 273 rfl rfl).symm k) = ix2 k d := funext fun a => Fin.ext (by
    match a with
    | ⟨0, _⟩ => exact (lhs_slab_0 _ _).trans hk
    | ⟨1, _⟩ => exact lhs_slab_1 _ _)
  have er : dot_S273x384_S273x360_S384x360_0_0_1_1_n_n.rhsIdx (ix2 d t) ((contrEquiv1 dot_S273x384_S273x360_S384x360_0_0_1_1_n_n 273 rfl rfl).symm k) = ix2 k t := funext fun a => Fin.ext (by
    match a with
    | ⟨0, _⟩ => exact (rhs_slab_0 _ _).trans hk
    | ⟨1, _⟩ => exact rhs_slab_1 _ _)
  rw [el, er]

/-! ## The stored slab -/

/-- Entry (0, d, t) of the stored slab is the sum over the channel of slot[0, c, d] · input[0, c, t]. -/
theorem slabMul_apply (v : Vec Ideal S1x280x384 .f32) (u : Vec Ideal S1x273x360 .f32) (d : Fin 273) (t : Fin 360) :
    slabMul v u (ix3 (0 : Fin 1) d t)
      = ∑ k : Fin 273, (v (ix3 (0 : Fin 1) ⟨k.val, by omega⟩ ⟨d.val, by omega⟩) : EReal) * (u (ix3 (0 : Fin 1) k t) : EReal) := by
  unfold slabMul k0_pay2
  refine (prodRows_apply _ _ _ d t).trans ?_
  refine (slabDot_apply _ _ (⟨d.val, by omega⟩ : Fin 384) t).trans ?_
  refine Finset.sum_congr rfl fun k _ => ?_
  rw [slotRows_apply, inputMat_apply]

/-! ## Every sample's payload is the same function

The unrolled body names the stored value once per sample; the names differ by their bound variables only. Where a
sample's value is named in two or three pieces, the pieces compose to the same function. -/

theorem pay2_eq (v : Vec Ideal S1x280x384 .f32) (u : Vec Ideal S1x273x360 .f32) :
    k0_pay2 (F := Ideal) v u = slabMul v u := rfl

theorem pay1_eq (v : Vec Ideal S1x280x384 .f32) (u : Vec Ideal S1x273x360 .f32) :
    k0_pay1 (F := Ideal) v u = slabMul v u := rfl

theorem pay3_eq (v : Vec Ideal S1x280x384 .f32) (u : Vec Ideal S1x273x360 .f32) :
    k0_pay3 (F := Ideal) v u = slabMul v u := rfl

theorem pay4_eq (v : Vec Ideal S1x280x384 .f32) (u : Vec Ideal S1x273x360 .f32) :
    k0_pay4 (F := Ideal) v u = slabMul v u := rfl

theorem pay5_eq (v : Vec Ideal S1x280x384 .f32) (u : Vec Ideal S1x273x360 .f32) :
    k0_pay5 (F := Ideal) v u = slabMul v u := rfl

theorem pay6_eq (v : Vec Ideal S1x280x384 .f32) (u : Vec Ideal S1x273x360 .f32) :
    k0_pay6 (F := Ideal) v u = slabMul v u := rfl

theorem pay7_eq (v : Vec Ideal S1x280x384 .f32) (u : Vec Ideal S1x273x360 .f32) :
    k0_pay7 (F := Ideal) v u = slabMul v u := rfl

theorem pay8_eq (v : Vec Ideal S1x280x384 .f32) (u : Vec Ideal S1x273x360 .f32) :
    k0_pay8 (F := Ideal) v u = slabMul v u := rfl

theorem pay9_eq (v : Vec Ideal S1x280x384 .f32) (u : Vec Ideal S1x273x360 .f32) :
    k0_pay9 (F := Ideal) v u = slabMul v u := rfl

theorem pay10_eq (v : Vec Ideal S1x280x384 .f32) (u : Vec Ideal S1x273x360 .f32) :
    k0_pay10 (F := Ideal) v u = slabMul v u := rfl

theorem pay11_eq (v : Vec Ideal S1x280x384 .f32) (u : Vec Ideal S1x273x360 .f32) :
    k0_pay11 (F := Ideal) v u = slabMul v u := rfl

theorem pay12_eq (v : Vec Ideal S1x280x384 .f32) (u : Vec Ideal S1x273x360 .f32) :
    k0_pay12 (F := Ideal) v u = slabMul v u := rfl

theorem pay13_eq (v : Vec Ideal S1x280x384 .f32) (u : Vec Ideal S1x273x360 .f32) :
    k0_pay13 (F := Ideal) v u = slabMul v u := rfl

theorem pay14_eq (v : Vec Ideal S1x280x384 .f32) (u : Vec Ideal S1x273x360 .f32) :
    k0_pay14 (F := Ideal) v u = slabMul v u := rfl

theorem pay15_eq (v : Vec Ideal S1x280x384 .f32) (u : Vec Ideal S1x273x360 .f32) :
    k0_pay15 (F := Ideal) v u = slabMul v u := rfl

theorem pay16_eq (v : Vec Ideal S1x280x384 .f32) (u : Vec Ideal S1x273x360 .f32) :
    k0_pay16 (F := Ideal) v u = slabMul v u := rfl

theorem pay17_eq (v : Vec Ideal S1x280x384 .f32) (u : Vec Ideal S1x273x360 .f32) :
    k0_pay17 (F := Ideal) v u = slabMul v u := rfl

theorem pay18_eq (v : Vec Ideal S1x280x384 .f32) (u : Vec Ideal S1x273x360 .f32) :
    k0_pay18 (F := Ideal) v u = slabMul v u := rfl

theorem pay19_eq (v : Vec Ideal S1x280x384 .f32) (u : Vec Ideal S1x273x360 .f32) :
    k0_pay19 (F := Ideal) v u = slabMul v u := rfl

theorem pay20_eq (v : Vec Ideal S1x280x384 .f32) (u : Vec Ideal S1x273x360 .f32) :
    k0_pay20 (F := Ideal) v u = slabMul v u := rfl

theorem pay21_eq (v : Vec Ideal S1x280x384 .f32) (u : Vec Ideal S1x273x360 .f32) :
    k0_pay21 (F := Ideal) v u = slabMul v u := rfl

theorem pay37_eq (v : Vec Ideal S1x280x384 .f32) (u : Vec Ideal S1x273x360 .f32) :
    k0_pay37 (F := Ideal) v u = slabMul v u := rfl

theorem pay38_eq (v : Vec Ideal S1x280x384 .f32) (u : Vec Ideal S1x273x360 .f32) :
    k0_pay38 (F := Ideal) v u = slabMul v u := rfl

theorem pay39_eq (v : Vec Ideal S1x280x384 .f32) (u : Vec Ideal S1x273x360 .f32) :
    k0_pay39 (F := Ideal) v u = slabMul v u := rfl

theorem pay40_eq (v : Vec Ideal S1x280x384 .f32) (u : Vec Ideal S1x273x360 .f32) :
    k0_pay40 (F := Ideal) v u = slabMul v u := rfl

/-- The sliced slot, then the product with the input slab. -/
theorem pay23_eq (v : Vec Ideal S1x280x384 .f32) (u : Vec Ideal S1x273x360 .f32) :
    k0_pay23 (F := Ideal) (k0_pay22 (F := Ideal) v) u = slabMul v u := rfl

/-- The sliced slot, then the product with the input slab. -/
theorem pay25_eq (v : Vec Ideal S1x280x384 .f32) (u : Vec Ideal S1x273x360 .f32) :
    k0_pay25 (F := Ideal) (k0_pay24 (F := Ideal) v) u = slabMul v u := rfl

/-- The sliced slot, then the product with the input slab. -/
theorem pay27_eq (v : Vec Ideal S1x280x384 .f32) (u : Vec Ideal S1x273x360 .f32) :
    k0_pay27 (F := Ideal) (k0_pay26 (F := Ideal) v) u = slabMul v u := rfl

/-- The sliced slot, the input slab as a matrix and the zero accumulator, then their product. -/
theorem pay30_eq (v : Vec Ideal S1x280x384 .f32) (u : Vec Ideal S1x273x360 .f32) :
    k0_pay30 (F := Ideal) (k0_pay28 (F := Ideal) v) (k0_pay29 (F := Ideal) u) (constant (F := Ideal) S384x360 .f32 0x00000000#32) = slabMul v u := rfl

/-- The first 273 rows of the product, then the leading unit axis. -/
theorem pay32_eq (v : Vec Ideal S1x280x384 .f32) (u : Vec Ideal S1x273x360 .f32) :
    k0_pay32 (F := Ideal) (k0_pay31 (F := Ideal) v u) = slabMul v u := rfl

/-- The first 273 rows of the product, then the leading unit axis. -/
theorem pay34_eq (v : Vec Ideal S1x280x384 .f32) (u : Vec Ideal S1x273x360 .f32) :
    k0_pay34 (F := Ideal) (k0_pay33 (F := Ideal) v u) = slabMul v u := rfl

/-- The first 273 rows of the product, then the leading unit axis. -/
theorem pay36_eq (v : Vec Ideal S1x280x384 .f32) (u : Vec Ideal S1x273x360 .f32) :
    k0_pay36 (F := Ideal) (k0_pay35 (F := Ideal) v u) = slabMul v u := rfl

end Cert.KernelIdeal.Pay

end
-- ==== Proof.IdealSlab.lean ====
/-
  One sample's slab of a grid point's output, at the ideal instance, in general form. The body's store for sample b
  holds the slab product (a contraction over the channel) of what it loaded from a slot and the sample's slab of the
  input block; the slot had the sample's row of the padded weights copied into it whole just before, the row being the
  one the table's word for the sample names. So the stored slab is the restriction to slab b of one function of the
  block's index, `blockG`: entry (b, d, t) is the sum over the channel c of padded weights[row(b), c, d] · input[b, c, t].
-/
import proofs.«418997_j6725918786146_3_alg».proof.Proof.IdealFrame
import proofs.«418997_j6725918786146_3_alg».proof.Proof.IdealReads
import proofs.«418997_j6725918786146_3_alg».proof.Proof.IdealTable
import proofs.«418997_j6725918786146_3_alg».proof.Proof.Payload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx Cert.KernelIdeal.Pay

/-! ## The block a point leaves, as arithmetic over plain arrays -/

/-- A word as a row number of the padded weights, clamped at 127 (the table's words are below 128 anyway). -/
def rowIx (v : BitVec 32) : Fin 128 := ⟨min v.toNat 127, by omega⟩

theorem rowIx_of_lt (v : BitVec 32) (h : v.toNat < 128) : rowIx v = ⟨v.toNat, h⟩ := Fin.ext (Nat.min_eq_left (by omega))

section Pure

variable (i0 : Fin 8) (tb : S256.Idx → BitVec 32) (w : S128x280x384.Idx → EReal) (x0 : S32x273x360.Idx → EReal)

/-- The table's word for sample `b` of tile `i0`. -/
def wordAt (b : Fin 32) : BitVec 32 := tb (ix1 (⟨32 * i0.val + b.val, by omega⟩ : Fin 256))

/-- What point `i0` leaves in its output block: slab `b`, entry (d, t), is the sum over the channel of the padded
    weights' entry (row named by the table for sample b, channel, d) times the input block's entry (b, channel, t). -/
def blockG : S32x273x360.Idx → EReal := fun y =>
  ∑ k : Fin 273, w (ix3 (rowIx (wordAt i0 tb (y 0))) (⟨k.val, by omega⟩ : Fin 280) (⟨(y 1).val, by have h : (y 1).val < 273 := (y 1).isLt; omega⟩ : Fin 384))
    * x0 (ix3 (y 0) k (y 2))

theorem unit_emb (b : Fin 32) (inb : ∀ a, (![b.val, 0, 0] : Fin 3 → Nat) a + S1x273x360.size a ≤ S32x273x360.size a)
    (d : Fin 273) (t : Fin 360) :
    (Rect.unit (s := S32x273x360) ![b.val, 0, 0] S1x273x360.size inb).emb (ix3 (0 : Fin 1) d t) = ix3 b d t := by
  funext a
  refine Fin.ext ?_
  rw [Rect.emb_apply]
  match a with
  | ⟨0, _⟩ => show b.val + 1 * 0 = b.val; omega
  | ⟨1, _⟩ => show 0 + 1 * d.val = d.val; omega
  | ⟨2, _⟩ => show 0 + 1 * t.val = t.val; omega

/-- A slab product of the row named for sample `b` and the sample's input slab is the block's slab `b`. -/
theorem piece_of (b : Fin 32) (off : Fin 3 → Nat) (hoff : off = ![b.val, 0, 0])
    (inb : ∀ a, off a + S1x273x360.size a ≤ S32x273x360.size a)
    (v : Vec Ideal S1x280x384 .f32) (u : Vec Ideal S1x273x360 .f32)
    (hv : ∀ (a : Fin 280) (e : Fin 384), (v (ix3 (0 : Fin 1) a e) : EReal) = w (ix3 (rowIx (wordAt i0 tb b)) a e))
    (hu : ∀ (k : Fin 273) (t : Fin 360), (u (ix3 (0 : Fin 1) k t) : EReal) = x0 (ix3 b k t))
    (x : S1x273x360.Idx) :
    slabMul v u x = blockG i0 tb w x0 ((Rect.unit (s := S32x273x360) off S1x273x360.size inb).emb x) := by
  subst hoff
  obtain ⟨d, t, rfl⟩ : ∃ (d : Fin 273) (t : Fin 360), x = ix3 (0 : Fin 1) d t := ⟨x 1, x 2, by
    funext a
    match a with
    | ⟨0, _⟩ => exact Fin.ext (by have h : (x 0).val < 1 := (x 0).isLt; show (x 0).val = 0; omega)
    | ⟨1, _⟩ => rfl
    | ⟨2, _⟩ => rfl⟩
  rw [slabMul_apply, unit_emb]
  show _ = ∑ k : Fin 273, w (ix3 (rowIx (wordAt i0 tb b)) (⟨k.val, _⟩ : Fin 280) (⟨d.val, _⟩ : Fin 384)) * x0 (ix3 b k t)
  refine Finset.sum_congr rfl fun k _ => ?_
  rw [hv, hu]

end Pure

/-! ## The point's run, read as that block -/

section Point

variable (c : Dev nD) (i : grid0.Coords)
  (arg2 : Memref sig .tc .vmem S32x273x360 .f32) (harg2 : arg2.IsWhole)
  (arg4 : Memref sig .tc .vmem S32x273x360 .f32) (harg4 : arg4.IsWhole)
  (x0 : Vec Ideal S32x273x360 .f32) (xt : MBuf (F := Ideal) c tblM) (fw : MBuf (F := Ideal) c wM) (hT : RowsOk c xt)

/-- The table and the padded weights as plain arrays. -/
abbrev tbF (xt : MBuf (F := Ideal) c tblM) : S256.Idx → BitVec 32 := xt
abbrev wF (fw : MBuf (F := Ideal) c wM) : S128x280x384.Idx → EReal := fw

include hT in
/-- A slot loaded after sample `b`'s row was copied into it holds that row of the padded weights: the copy's source is
    the slab at the row the table's word for the sample names, and the word is below 128. -/
theorem slot_row (b : Fin 32) (k : Fin 4) (offS : Fin 3 → Nat) (hoffS : offS = ![k.val, 0, 0])
    (inbS : ∀ a, offS a + S1x280x384.size a ≤ S4x280x384.size a)
    (g : MBuf (F := Ideal) c (slotM k)) (rest : List (View.Piece (Elt Ideal) S280x384 .f32))
    (offC : Fin 1 → Nat) (hoffC : offC = ![32 * (i 0).val + b.val]) (inbC : ∀ a, offC a + S1.size a ≤ S256.size a)
    (j : (Rect.unit (s := S256) offC S1.size inbC).toLoadRect.shape.Idx)
    (offW : Fin 3 → Nat)
    (hoffW : offW = ![(tblM.view.readAt (Elt Ideal) (Rect.unit (s := S256) offC S1.size inbC).toLoadRect xt j).toNat, 0, 0])
    (inbW : ∀ a, offW a + S1x280x384.size a ≤ S128x280x384.size a) (a : Fin 280) (e : Fin 384) :
    View.readAt (Elt Ideal) slotsM.view (Rect.unit (s := S4x280x384) offS S1x280x384.size inbS).toLoadRect
        ((slotM k).view.writes (Elt Ideal) g (⟨Rect.whole S280x384, ReadAs.same.apply (View.read (Elt Ideal)
          ((wM.slice (Rect.unit (s := S128x280x384) offW S1x280x384.size inbW) (fun _ => rfl)).squeeze S280x384 Facts₀.squeezes_S1x280x384_S280x384).view fw)⟩ :: rest))
        (ix3 (0 : Fin 1) a e)
      = wF c fw (ix3 (rowIx (wordAt (i 0) (tbF c xt) b)) a e) := by
  have hlt := hT (Rect.unit (s := S256) offC S1.size inbC).toLoadRect j
  have hw : tblM.view.readAt (Elt Ideal) (Rect.unit (s := S256) offC S1.size inbC).toLoadRect xt j = wordAt (i 0) (tbF c xt) b :=
    tbl_word c ⟨32 * (i 0).val + b.val, by have h1 : (i 0).val < 8 := (i 0).isLt; have := b.isLt; omega⟩ offC hoffC inbC xt j
  rw [hw] at hoffW hlt
  rw [slot_read c k offS hoffS inbS g _ rest a e, row_read c ⟨_, hlt⟩ offW hoffW inbW fw a e, rowIx_of_lt _ hlt]

include hT in
/-- Sample `b`'s stored slab is the block's slab `b`: the slab product of the slot the sample's row was copied into
    and the sample's slab of the input block. -/
theorem pieceAt (b : Fin 32) (k : Fin 4) (offS : Fin 3 → Nat) (hoffS : offS = ![k.val, 0, 0])
    (inbS : ∀ a, offS a + S1x280x384.size a ≤ S4x280x384.size a)
    (g : MBuf (F := Ideal) c (slotM k)) (rest : List (View.Piece (Elt Ideal) S280x384 .f32))
    (offC : Fin 1 → Nat) (hoffC : offC = ![32 * (i 0).val + b.val]) (inbC : ∀ a, offC a + S1.size a ≤ S256.size a)
    (j : (Rect.unit (s := S256) offC S1.size inbC).toLoadRect.shape.Idx)
    (offW : Fin 3 → Nat)
    (hoffW : offW = ![(tblM.view.readAt (Elt Ideal) (Rect.unit (s := S256) offC S1.size inbC).toLoadRect xt j).toNat, 0, 0])
    (inbW : ∀ a, offW a + S1x280x384.size a ≤ S128x280x384.size a)
    (offX : Fin 3 → Nat) (hoffX : offX = ![b.val, 0, 0]) (inbX : ∀ a, offX a + S1x273x360.size a ≤ S32x273x360.size a)
    (offO : Fin 3 → Nat) (hoffO : offO = ![b.val, 0, 0]) (inbO : ∀ a, offO a + S1x273x360.size a ≤ S32x273x360.size a)
    (x : S1x273x360.Idx) :
    slabMul
        (View.readAt (Elt Ideal) slotsM.view (Rect.unit (s := S4x280x384) offS S1x280x384.size inbS).toLoadRect
          ((slotM k).view.writes (Elt Ideal) g (⟨Rect.whole S280x384, ReadAs.same.apply (View.read (Elt Ideal)
            ((wM.slice (Rect.unit (s := S128x280x384) offW S1x280x384.size inbW) (fun _ => rfl)).squeeze S280x384 Facts₀.squeezes_S1x280x384_S280x384).view fw)⟩ :: rest)))
        (View.readAt (Elt Ideal) arg2.view (Rect.unit (s := S32x273x360) offX S1x273x360.size inbX).toLoadRect (harg2.unread x0)) x
      = blockG (i 0) (tbF c xt) (wF c fw) x0 ((Rect.unit (s := S32x273x360) offO S1x273x360.size inbO).emb x) :=
  piece_of (i 0) (tbF c xt) (wF c fw) x0 b offO hoffO inbO _ _
    (fun a e => slot_row c i xt fw hT b k offS hoffS inbS g rest offC hoffC inbC j offW hoffW inbW a e)
    (fun k' t => x_read b offX hoffX S1x273x360.size rfl inbX arg2 harg2 x0 (ix3 (0 : Fin 1) k' t)) x

end Point

end Cert.KernelIdeal.Hand

end
-- ==== Proof.IdealPieces.lean ====
/-
  The 32 slabs a grid point's run leaves in the output block, each the block function's slab at its place: sample b's
  store carries the slab product of slot b mod 4 — where the sample's row was copied — and the sample's input slab.
-/
import proofs.«418997_j6725918786146_3_alg».proof.Proof.IdealSlab

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx Cert.KernelIdeal.Pay

variable (c : Dev nD) (i : grid0.Coords)
  (arg2 : Memref sig .tc .vmem S32x273x360 .f32) (harg2 : arg2.IsWhole)
  (arg4 : Memref sig .tc .vmem S32x273x360 .f32) (harg4 : arg4.IsWhole)
  (x0 : Vec Ideal S32x273x360 .f32) (xt : MBuf (F := Ideal) c tblM) (fw : MBuf (F := Ideal) c wM) (hT : RowsOk c xt)

set_option maxHeartbeats 4000000 in
/-- Each of the 32 slabs the run's stores leave is the block function's slab at its place. -/
theorem pieces_ok : ∀ p ∈ (bodyRun c i arg2 harg2 arg4 harg4 x0 xt fw hT).1, ∀ x : p.1.shape.Idx,
    p.2 x = blockG (i 0) (tbF c xt) (wF c fw) x0 (p.1.emb x) := by
  intro p hp
  unfold bodyRun at hp
  simp only [List.mem_cons, List.mem_singleton, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro x
    exact (congrFun (pay1_eq _ _) x).trans
      (pieceAt c i arg2 harg2 x0 xt fw hT 31 3 _ rfl _ _ _ _ (Gen.k0_off122_eq i) _ _ _ rfl _ _ rfl _ _ rfl Facts₀.inb_S32x273x360_S1x273x360_31_0_0 x)
  · intro x
    exact (congrFun (pay40_eq _ _) x).trans
      (pieceAt c i arg2 harg2 x0 xt fw hT 30 2 _ rfl _ _ _ _ (Gen.k0_off118_eq i) _ _ _ rfl _ _ rfl _ _ rfl Facts₀.inb_S32x273x360_S1x273x360_30_0_0 x)
  · intro x
    exact (congrFun (pay39_eq _ _) x).trans
      (pieceAt c i arg2 harg2 x0 xt fw hT 29 1 _ rfl _ _ _ _ (Gen.k0_off114_eq i) _ _ _ rfl _ _ rfl _ _ rfl Facts₀.inb_S32x273x360_S1x273x360_29_0_0 x)
  · intro x
    exact (congrFun (pay38_eq _ _) x).trans
      (pieceAt c i arg2 harg2 x0 xt fw hT 28 0 _ rfl _ _ _ _ (Gen.k0_off110_eq i) _ _ _ rfl _ _ rfl _ _ rfl Facts₀.inb_S32x273x360_S1x273x360_28_0_0 x)
  · intro x
    exact (congrFun (pay37_eq _ _) x).trans
      (pieceAt c i arg2 harg2 x0 xt fw hT 27 3 _ rfl _ _ _ _ (Gen.k0_off106_eq i) _ _ _ rfl _ _ rfl _ _ rfl Facts₀.inb_S32x273x360_S1x273x360_27_0_0 x)
  · intro x
    exact (congrFun (pay36_eq _ _) x).trans
      (pieceAt c i arg2 harg2 x0 xt fw hT 26 2 _ rfl _ _ _ _ (Gen.k0_off102_eq i) _ _ _ rfl _ _ rfl _ _ rfl Facts₀.inb_S32x273x360_S1x273x360_26_0_0 x)
  · intro x
    exact (congrFun (pay34_eq _ _) x).trans
      (pieceAt c i arg2 harg2 x0 xt fw hT 25 1 _ rfl _ _ _ _ (Gen.k0_off98_eq i) _ _ _ rfl _ _ rfl _ _ rfl Facts₀.inb_S32x273x360_S1x273x360_25_0_0 x)
  · intro x
    exact (congrFun (pay32_eq _ _) x).trans
      (pieceAt c i arg2 harg2 x0 xt fw hT 24 0 _ rfl _ _ _ _ (Gen.k0_off94_eq i) _ _ _ rfl _ _ rfl _ _ rfl Facts₀.inb_S32x273x360_S1x273x360_24_0_0 x)
  · intro x
    exact (congrFun (pay30_eq _ _) x).trans
      (pieceAt c i arg2 harg2 x0 xt fw hT 23 3 _ rfl _ _ _ _ (Gen.k0_off90_eq i) _ _ _ rfl _ _ rfl _ _ rfl Facts₀.inb_S32x273x360_S1x273x360_23_0_0 x)
  · intro x
    exact (congrFun (pay27_eq _ _) x).trans
      (pieceAt c i arg2 harg2 x0 xt fw hT 22 2 _ rfl _ _ _ _ (Gen.k0_off86_eq i) _ _ _ rfl _ _ rfl _ _ rfl Facts₀.inb_S32x273x360_S1x273x360_22_0_0 x)
  · intro x
    exact (congrFun (pay25_eq _ _) x).trans
      (pieceAt c i arg2 harg2 x0 xt fw hT 21 1 _ rfl _ _ _ _ (Gen.k0_off82_eq i) _ _ _ rfl _ _ rfl _ _ rfl Facts₀.inb_S32x273x360_S1x273x360_21_0_0 x)
  · intro x
    exact (congrFun (pay23_eq _ _) x).trans
      (pieceAt c i arg2 harg2 x0 xt fw hT 20 0 _ rfl _ _ _ _ (Gen.k0_off78_eq i) _ _ _ rfl _ _ rfl _ _ rfl Facts₀.inb_S32x273x360_S1x273x360_20_0_0 x)
  · intro x
    exact (congrFun (pay21_eq _ _) x).trans
      (pieceAt c i arg2 harg2 x0 xt fw hT 19 3 _ rfl _ _ _ _ (Gen.k0_off74_eq i) _ _ _ rfl _ _ rfl _ _ rfl Facts₀.inb_S32x273x360_S1x273x360_19_0_0 x)
  · intro x
    exact (congrFun (pay20_eq _ _) x).trans
      (pieceAt c i arg2 harg2 x0 xt fw hT 18 2 _ rfl _ _ _ _ (Gen.k0_off70_eq i) _ _ _ rfl _ _ rfl _ _ rfl Facts₀.inb_S32x273x360_S1x273x360_18_0_0 x)
  · intro x
    exact (congrFun (pay19_eq _ _) x).trans
      (pieceAt c i arg2 harg2 x0 xt fw hT 17 1 _ rfl _ _ _ _ (Gen.k0_off66_eq i) _ _ _ rfl _ _ rfl _ _ rfl Facts₀.inb_S32x273x360_S1x273x360_17_0_0 x)
  · intro x
    exact (congrFun (pay18_eq _ _) x).trans
      (pieceAt c i arg2 harg2 x0 xt fw hT 16 0 _ rfl _ _ _ _ (Gen.k0_off62_eq i) _ _ _ rfl _ _ rfl _ _ rfl Facts₀.inb_S32x273x360_S1x273x360_16_0_0 x)
  · intro x
    exact (congrFun (pay17_eq _ _) x).trans
      (pieceAt c i arg2 harg2 x0 xt fw hT 15 3 _ rfl _ _ _ _ (Gen.k0_off58_eq i) _ _ _ rfl _ _ rfl _ _ rfl Facts₀.inb_S32x273x360_S1x273x360_15_0_0 x)
  · intro x
    exact (congrFun (pay16_eq _ _) x).trans
      (pieceAt c i arg2 harg2 x0 xt fw hT 14 2 _ rfl _ _ _ _ (Gen.k0_off54_eq i) _ _ _ rfl _ _ rfl _ _ rfl Facts₀.inb_S32x273x360_S1x273x360_14_0_0 x)
  · intro x
    exact (congrFun (pay15_eq _ _) x).trans
      (pieceAt c i arg2 harg2 x0 xt fw hT 13 1 _ rfl _ _ _ _ (Gen.k0_off50_eq i) _ _ _ rfl _ _ rfl _ _ rfl Facts₀.inb_S32x273x360_S1x273x360_13_0_0 x)
  · intro x
    exact (congrFun (pay14_eq _ _) x).trans
      (pieceAt c i arg2 harg2 x0 xt fw hT 12 0 _ rfl _ _ _ _ (Gen.k0_off46_eq i) _ _ _ rfl _ _ rfl _ _ rfl Facts₀.inb_S32x273x360_S1x273x360_12_0_0 x)
  · intro x
    exact (congrFun (pay13_eq _ _) x).trans
      (pieceAt c i arg2 harg2 x0 xt fw hT 11 3 _ rfl _ _ _ _ (Gen.k0_off42_eq i) _ _ _ rfl _ _ rfl _ _ rfl Facts₀.inb_S32x273x360_S1x273x360_11_0_0 x)
  · intro x
    exact (congrFun (pay12_eq _ _) x).trans
      (pieceAt c i arg2 harg2 x0 xt fw hT 10 2 _ rfl _ _ _ _ (Gen.k0_off38_eq i) _ _ _ rfl _ _ rfl _ _ rfl Facts₀.inb_S32x273x360_S1x273x360_10_0_0 x)
  · intro x
    exact (congrFun (pay11_eq _ _) x).trans
      (pieceAt c i arg2 harg2 x0 xt fw hT 9 1 _ rfl _ _ _ _ (Gen.k0_off34_eq i) _ _ _ rfl _ _ rfl _ _ rfl Facts₀.inb_S32x273x360_S1x273x360_9_0_0 x)
  · intro x
    exact (congrFun (pay10_eq _ _) x).trans
      (pieceAt c i arg2 harg2 x0 xt fw hT 8 0 _ rfl _ _ _ _ (Gen.k0_off30_eq i) _ _ _ rfl _ _ rfl _ _ rfl Facts₀.inb_S32x273x360_S1x273x360_8_0_0 x)
  · intro x
    exact (congrFun (pay9_eq _ _) x).trans
      (pieceAt c i arg2 harg2 x0 xt fw hT 7 3 _ rfl _ _ _ _ (Gen.k0_off26_eq i) _ _ _ rfl _ _ rfl _ _ rfl Facts₀.inb_S32x273x360_S1x273x360_7_0_0 x)
  · intro x
    exact (congrFun (pay8_eq _ _) x).trans
      (pieceAt c i arg2 harg2 x0 xt fw hT 6 2 _ rfl _ _ _ _ (Gen.k0_off22_eq i) _ _ _ rfl _ _ rfl _ _ rfl Facts₀.inb_S32x273x360_S1x273x360_6_0_0 x)
  · intro x
    exact (congrFun (pay7_eq _ _) x).trans
      (pieceAt c i arg2 harg2 x0 xt fw hT 5 1 _ rfl _ _ _ _ (Gen.k0_off18_eq i) _ _ _ rfl _ _ rfl _ _ rfl Facts₀.inb_S32x273x360_S1x273x360_5_0_0 x)
  · intro x
    exact (congrFun (pay6_eq _ _) x).trans
      (pieceAt c i arg2 harg2 x0 xt fw hT 4 0 _ rfl _ _ _ _ (Gen.k0_off14_eq i) _ _ _ rfl _ _ rfl _ _ rfl Facts₀.inb_S32x273x360_S1x273x360_4_0_0 x)
  · intro x
    exact (congrFun (pay5_eq _ _) x).trans
      (pieceAt c i arg2 harg2 x0 xt fw hT 3 3 _ rfl _ _ _ _ (Gen.k0_off9_eq i) _ _ _ rfl _ _ rfl _ _ rfl Facts₀.inb_S32x273x360_S1x273x360_3_0_0 x)
  · intro x
    exact (congrFun (pay4_eq _ _) x).trans
      (pieceAt c i arg2 harg2 x0 xt fw hT 2 2 _ rfl _ _ _ _ (Gen.k0_off5_eq i) _ _ _ rfl _ _ rfl _ _ rfl Facts₀.inb_S32x273x360_S1x273x360_2_0_0 x)
  · intro x
    exact (congrFun (pay3_eq _ _) x).trans
      (pieceAt c i arg2 harg2 x0 xt fw hT 1 1 _ rfl _ _ _ _ (Gen.k0_off3_eq i) _ _ _ rfl _ _ rfl _ _ rfl Facts₀.inb_S32x273x360_S1x273x360_1_0_0 x)
  · intro x
    exact (congrFun (pay2_eq _ _) x).trans
      (pieceAt c i arg2 harg2 x0 xt fw hT 0 0 _ rfl _ _ _ _ (Gen.k0_off1_eq i) _ _ _ rfl _ _ rfl _ _ rfl Facts₀.inb_S32x273x360_S1x273x360_0_0_0 x)

end Cert.KernelIdeal.Hand

end
-- ==== Proof.IdealValue.lean ====
/-
  The value of one grid point at the ideal instance: the 32 slabs the run leaves are the slabs of one function of the
  block's index, so the output block read back is that function — slab b the product of the padded weights' row the
  table names for sample b with the sample's input.
-/
import proofs.«418997_j6725918786146_3_alg».proof.Proof.IdealPieces
import Idealize.ShloMosaic.Lib.Writes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-- The output block a point leaves is `blockG`: every index lies in one of the 32 slabs, and each slab is `blockG`'s. -/
theorem outBlock_eq (c : Dev nD) (i : grid0.Coords)
    (arg2 : Memref sig .tc .vmem S32x273x360 .f32) (harg2 : arg2.IsWhole)
    (arg4 : Memref sig .tc .vmem S32x273x360 .f32) (harg4 : arg4.IsWhole)
    (x0 : Vec Ideal S32x273x360 .f32) (xt : MBuf (F := Ideal) c tblM) (fw : MBuf (F := Ideal) c wM) (hT : RowsOk c xt) :
    outBlock c i arg2 harg2 arg4 harg4 x0 xt fw hT = blockG (i 0) (tbF c xt) (wF c fw) x0 := by
  funext y
  unfold outBlock
  exact View.read_writes_apply_of_pieces _ _ _ _ (pieces_ok c i arg2 harg2 arg4 harg4 x0 xt fw hT) y
    (out_cover c i arg2 harg2 arg4 harg4 x0 xt fw hT y)

/-- What the output's staging buffer holds after the body at point `t`: the block of the table's rows for the tile's
    samples, out of the padded weights, times the input block. -/
theorem outAt_eq (m : (ℓ : Loc nD τ sig) → Buf (Elt Ideal) ℓ) (hR : TableOk m) (c : Dev nD) (t : Fin (cfgM m).N) :
    outAt m hR c t = blockG ((grid0.coords t) 0) (tbF c (tbl m 0)) (wF c (V m c main_v1)) (iblk m c 0 t) :=
  outBlock_eq c (grid0.coords t) (xStage m t) (hxStage m t) (oStage m t) (hoStage m t) (iblk m c 0 t) (tbl m 0) (V m c main_v1) (hR c)

end Cert.KernelIdeal.Hand

end
-- ==== Proof.IdealFinal.lean ====
/-
  From the blocks to the array. Point t writes back the block of rows 32 t … 32 t + 31 of the result; slab b of what it
  leaves is the product of the padded weights' row the table names for sample 32 t + b with that sample's input. The
  table's word is the subject id clamped into [0, 127], the padded weights are the weights on the first 273 rows and
  columns, and the input block is the input's rows 32 t … 32 t + 31: so the block is the specification's rows, the 8
  blocks cover the result, and the result array ends at the specification of the three arguments.
-/
import proofs.«418997_j6725918786146_3_alg».proof.Proof.IdealValue
import proofs.«418997_j6725918786146_3_alg».proof.Proof.IdealTable
import proofs.«418997_j6725918786146_3_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt Ideal) ℓ)

namespace Final

/-- Both windows' index maps send point `t` to the block index (t, 0, 0): decided over the 8 points. -/
theorem idx_facts : ∀ t : Fin grid0.N,
    cc0_transform_0 (grid0.coords t) (0 : Fin 3) = t.val ∧ cc0_transform_0 (grid0.coords t) (1 : Fin 3) = 0 ∧ cc0_transform_0 (grid0.coords t) (2 : Fin 3) = 0
    ∧ cc0_transform_2 (grid0.coords t) (0 : Fin 3) = t.val ∧ cc0_transform_2 (grid0.coords t) (1 : Fin 3) = 0 ∧ cc0_transform_2 (grid0.coords t) (2 : Fin 3) = 0 := by
  decide +kernel

/-- The grid has one axis, and point `t`'s coordinate on it is `t`. -/
theorem coord0 : ∀ t : Fin grid0.N, ((grid0.coords t) 0).val = t.val := by decide +kernel

/-- The input window's block at point `t` is rows 32 t … 32 t + 31 of the input as launched: a block's coordinate is
    its block index times the block size plus the coordinate inside, and no host operation writes the input. -/
theorem iblk_apply (c : Dev nD) (t : Fin (cfgM m).N) (b : Fin 32) (k : Fin 273) (u : Fin 360) (hb : 32 * t.val + b.val < 256) :
    (iblk m c 0 t : S32x273x360.Idx → EReal) (ix3 b k u)
      = (m ((c : Thread nD τ).loc main_arg0) : S256x273x360.Idx → EReal) (ix3 ⟨32 * t.val + b.val, hb⟩ k u) := by
  obtain ⟨e0, e1, e2, -, -, -⟩ := idx_facts t
  unfold iblk
  show V m c main_arg0 _ = m (c.tc.loc main_arg0) _
  rw [V_main_arg0]
  congr 1
  funext a
  apply Fin.ext
  match a with
  | ⟨0, _⟩ => show cc0_transform_0 (grid0.coords t) 0 * 32 + 1 * b.val = 32 * t.val + b.val; rw [e0]; omega
  | ⟨1, _⟩ => show cc0_transform_0 (grid0.coords t) 1 * 273 + 1 * k.val = k.val; rw [e1]; omega
  | ⟨2, _⟩ => show cc0_transform_0 (grid0.coords t) 2 * 360 + 1 * u.val = u.val; rw [e2]; omega

/-- The row of the padded weights the table names for a sample is the row the specification selects for the sample's
    subject id: the word read unsigned is that row's number, which is below 128, so the clamp at 127 does nothing. -/
theorem row_eq (c : Dev nD) (i0 : Fin 8) (b : Fin 32) (B : Fin 256) (hB : B.val = 32 * i0.val + b.val) :
    rowIx (wordAt i0 (tbF c (tbl m 0)) b) = Cert.Spec.rowOf ((m ((c : Thread nD τ).loc main_arg1) : S256.Idx → BitVec 32) (ix1 B)) := by
  have hj : (⟨32 * i0.val + b.val, by omega⟩ : Fin 256) = B := Fin.ext hB.symm
  unfold wordAt
  rw [hj]
  have h := tbl_row m c B
  have hlt := (Cert.Spec.rowOf ((m ((c : Thread nD τ).loc main_arg1) : S256.Idx → BitVec 32) (ix1 B))).isLt
  apply Fin.ext
  show min ((tbl m 0 : S256.Idx → BitVec 32) (ix1 B)).toNat 127 = _
  rw [h]
  omega

/-- Equal factors give equal products (stated over the extended reals, the ideal instance's float type). -/
theorem mul_congr_ereal {p p' q q' : EReal} (hp : p = p') (hq : q = q') : p * q = p' * q' := by rw [hp, hq]

/-- Slab `b` of the block point `t` leaves is row 32 t + b of the specification: channel by channel, the padded
    weights' row the table names is the weight matrix the subject id selects, inside its first 273 rows and columns,
    and the input block's slab `b` is the input's sample 32 t + b. -/
theorem block_apply (c : Dev nD) (t : Fin (cfgM m).N) (b : Fin 32) (d : Fin 273) (u : Fin 360) (hb : 32 * t.val + b.val < 256) :
    blockG ((grid0.coords t) 0) (tbF c (tbl m 0)) (wF c (V m c main_v1)) (iblk m c 0 t) (ix3 b d u)
      = Cert.Spec.G (m ((c : Thread nD τ).loc main_arg0)) (m ((c : Thread nD τ).loc main_arg1)) (m ((c : Thread nD τ).loc main_arg2))
          (ix3 ⟨32 * t.val + b.val, hb⟩ d u) := by
  have hrow := row_eq m c ((grid0.coords t) 0) b ⟨32 * t.val + b.val, hb⟩
    (by show 32 * t.val + b.val = 32 * ((grid0.coords t) 0).val + b.val; rw [coord0 t])
  unfold blockG Cert.Spec.G
  refine Finset.sum_congr rfl fun k _ => mul_congr_ereal ?_ ?_
  · show (V m c main_v1 : S128x280x384.Idx → EReal)
          (ix3 (rowIx (wordAt ((grid0.coords t) 0) (tbF c (tbl m 0)) b)) ⟨k.val, by omega⟩ ⟨d.val, by omega⟩)
        = (m ((c : Thread nD τ).loc main_arg2) : S128x273x273.Idx → EReal)
            (ix3 (Cert.Spec.rowOf ((m ((c : Thread nD τ).loc main_arg1) : S256.Idx → BitVec 32) (ix1 ⟨32 * t.val + b.val, hb⟩))) k d)
    rw [hrow]
    exact wpad_apply m c _ k d
  · exact iblk_apply m c t b k u hb

/-- WHAT POINT `t` WRITES BACK is block `t` of the specification of the arguments as launched: the block's entry
    (b, d, u) sits in the array at (32 t + b, d, u). -/
theorem flushed_eq (hR : TableOk m) (c : Dev nD) (t : Fin (cfgM m).N) :
    (dats m hR 0 c).flushed 1 t
      = (((cfgM m).win 1).blk t).view.read (Elt Ideal)
          (Cert.Spec.G (m ((c : Thread nD τ).loc main_arg0)) (m ((c : Thread nD τ).loc main_arg1)) (m ((c : Thread nD τ).loc main_arg2))) := by
  show ((cfgM m).win 1).cut (grid0.coords t) ((dats m hR 0 c).after 1 t) = _
  rw [after_out, outAt_eq]
  obtain ⟨-, -, -, e3, e4, e5⟩ := idx_facts t
  refine funext fun (j : S32x273x360.Idx) => ?_
  have hj0 : (j 0).val < 32 := (j 0).isLt
  have hj1 : (j 1).val < 273 := (j 1).isLt
  have hj2 : (j 2).val < 360 := (j 2).isLt
  have ht : t.val < 8 := Nat.lt_of_lt_of_eq (show t.val < grid0.N from t.isLt) N_0
  have hb : 32 * t.val + (j 0).val < 256 := by omega
  -- the block's own index, coordinate by coordinate
  have hL : ((cfgM m).win 1).xinj (grid0.coords t) j = (ix3 ⟨(j 0).val, hj0⟩ ⟨(j 1).val, hj1⟩ ⟨(j 2).val, hj2⟩ : S32x273x360.Idx) := by
    funext a
    match a with
    | ⟨0, _⟩ => rfl
    | ⟨1, _⟩ => rfl
    | ⟨2, _⟩ => rfl
  -- where it sits in the array: block index × block size + 1 × the coordinate inside
  have hA : (((cfgM m).win 1).blk t).view.emb j
      = (ix3 ⟨32 * t.val + (j 0).val, hb⟩ ⟨(j 1).val, hj1⟩ ⟨(j 2).val, hj2⟩ : S256x273x360.Idx) := by
    funext a
    apply Fin.ext
    match a with
    | ⟨0, _⟩ => show cc0_transform_2 (grid0.coords t) 0 * 32 + 1 * (j 0).val = 32 * t.val + (j 0).val; rw [e3]; omega
    | ⟨1, _⟩ => show cc0_transform_2 (grid0.coords t) 1 * 273 + 1 * (j 1).val = (j 1).val; rw [e4]; omega
    | ⟨2, _⟩ => show cc0_transform_2 (grid0.coords t) 2 * 360 + 1 * (j 2).val = (j 2).val; rw [e5]; omega
  show blockG ((grid0.coords t) 0) (tbF c (tbl m 0)) (wF c (V m c main_v1)) (iblk m c 0 t) (((cfgM m).win 1).xinj (grid0.coords t) j)
      = Cert.Spec.G (m ((c : Thread nD τ).loc main_arg0)) (m ((c : Thread nD τ).loc main_arg1)) (m ((c : Thread nD τ).loc main_arg2))
          ((((cfgM m).win 1).blk t).view.emb j)
  rw [hL, hA]
  exact block_apply m c t _ _ _ hb

/-- Every point writes its output block back: the block index moves with the point (its leading coordinate is the
    point's number), so it differs from the next point's, and the last point always writes back. -/
theorem flush_out (t : Fin (cfgM m).N) : ((cfgM m).win 1).flush t = true := by
  unfold Window.flush
  have hout : ((cfgM m).win 1).isOut = true := rfl
  rw [hout, Bool.true_and, Bool.or_eq_true, decide_eq_true_eq, decide_eq_true_eq]
  by_cases hlast : t.val + 1 = grid0.N
  · exact Or.inl hlast
  · have hlt : t.val + 1 < grid0.N := by have h : t.val < grid0.N := t.isLt; omega
    refine Or.inr ⟨hlt, fun he => ?_⟩
    have h0 : cc0_transform_2 (grid0.coords ⟨t.val + 1, hlt⟩) (0 : Fin 3) = cc0_transform_2 (grid0.coords t) (0 : Fin 3) := congrFun he (0 : Fin 3)
    rw [(idx_facts ⟨t.val + 1, hlt⟩).2.2.2.1, (idx_facts t).2.2.2.1] at h0
    exact absurd h0 (Nat.succ_ne_self _)

/-- An index of the result array is in point `t`'s block iff each coordinate is in the block's range on its axis. -/
theorem mem_blk (t : Fin (cfgM m).N) (i : S256x273x360.Idx) :
    i ∈ (((cfgM m).win 1).blk t).view.set
      ↔ ∀ a : Fin 3, cc0_transform_2 (grid0.coords t) a * S32x273x360.size a ≤ (i a).val
          ∧ (i a).val < cc0_transform_2 (grid0.coords t) a * S32x273x360.size a + S32x273x360.size a := by
  -- a block of a whole array covers its rectangle's elements, and a unit-stride rectangle's are a box
  exact (Iff.of_eq (congrArg (fun S => i ∈ S) (View.set_slice_whole main_v2 (((cfgM m).win 1).rect t)))).trans Rect.mem_set_unit

/-- The 8 blocks cover the result: row `r` lies in the block of point `r / 32`. -/
theorem covered (i : S256x273x360.Idx) :
    ∃ t : Fin (cfgM m).N, ((cfgM m).win 1).flush t = true ∧ i ∈ (((cfgM m).win 1).blk t).view.set := by
  have hi0 : (i 0).val < 256 := (i 0).isLt
  have hi1 : (i 1).val < 273 := (i 1).isLt
  have hi2 : (i 2).val < 360 := (i 2).isLt
  have hN : (i 0).val / 32 < grid0.N := by rw [N_0]; omega
  obtain ⟨-, -, -, e3, e4, e5⟩ := idx_facts ⟨(i 0).val / 32, hN⟩
  refine ⟨⟨(i 0).val / 32, hN⟩, flush_out m _, ?_⟩
  rw [mem_blk]
  intro a
  match a with
  | ⟨0, _⟩ =>
    show cc0_transform_2 (grid0.coords ⟨(i 0).val / 32, hN⟩) 0 * 32 ≤ (i 0).val
      ∧ (i 0).val < cc0_transform_2 (grid0.coords ⟨(i 0).val / 32, hN⟩) 0 * 32 + 32
    rw [e3]
    show (i 0).val / 32 * 32 ≤ (i 0).val ∧ (i 0).val < (i 0).val / 32 * 32 + 32
    omega
  | ⟨1, _⟩ =>
    show cc0_transform_2 (grid0.coords ⟨(i 0).val / 32, hN⟩) 1 * 273 ≤ (i 1).val
      ∧ (i 1).val < cc0_transform_2 (grid0.coords ⟨(i 0).val / 32, hN⟩) 1 * 273 + 273
    rw [e4]
    omega
  | ⟨2, _⟩ =>
    show cc0_transform_2 (grid0.coords ⟨(i 0).val / 32, hN⟩) 2 * 360 ≤ (i 2).val
      ∧ (i 2).val < cc0_transform_2 (grid0.coords ⟨(i 0).val / 32, hN⟩) 2 * 360 + 360
    rw [e5]
    omega

end Final

/-- The result array after the run is the specification of the arguments as launched. -/
theorem final_eq (hR : TableOk m) (c : Dev nD) :
    ((dats m hR 0 c).arrAt 1 (cfgM m).N : S256x273x360.Idx → EReal)
      = Cert.Spec.G (m ((c : Thread nD τ).loc main_arg0)) (m ((c : Thread nD τ).loc main_arg1)) (m ((c : Thread nD τ).loc main_arg2)) :=
  (dats m hR 0 c).arrAt_eq_of_cover 1
    (Cert.Spec.G (m ((c : Thread nD τ).loc main_arg0)) (m ((c : Thread nD τ).loc main_arg1)) (m ((c : Thread nD τ).loc main_arg2)))
    (fun t _ => Final.flushed_eq m hR c t) (Final.covered m)

end Cert.KernelIdeal.Hand

end
-- ==== Proof.IdealResult.lean ====
/-
  The idealized kernel's run, read: every weakly fair execution terminates with the result buffer at the
  specification of the three arguments as launched, and the arguments unchanged. The launch's post names the result
  array as what the library computes from the proof data; that array is the specification (the blocks cover it).
-/
import proofs.«418997_j6725918786146_3_alg».proof.Proof.IdealFinal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt Ideal) ℓ) (ρ : Dev nD → PrngReg)

theorem kernel_value : θ_run defs (onTc (τ := τ) (main (F := Ideal))) ⟨m, fun _ => 0, ρ⟩ (fun r => ∀ c : Dev nD,
      r.2.mem ((c.tc : Thread nD τ).loc main_v2)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).1 1).trans (final_eq m (tableOk m) c),
        ((h c).1 0).trans (((dats m (tableOk m) 0 c).arrAt_in 0 rfl _).trans ((A_eq m (tableOk m) c 0).trans (V_main_arg0 m c))),
        ((h c).2 main_arg1 (by decide : main_arg1 ∈ Pipeline.restRefs sig spec0)).trans (V_main_arg1 m c),
        ((h c).2 main_arg2 (by decide : main_arg2 ∈ Pipeline.restRefs sig spec0)).trans (V_main_arg2 m c)⟩)
    (run_main m ρ (tableOk m))

end Cert.KernelIdeal.Hand

end
-- ==== Proof.RefValue.lean ====
/-
  The reference at the ideal instance: its result is the specification's function of the three arguments, given that
  no subject id is negative (a negative id would be wrapped by 128 before the gather's clamp).
-/
import proofs.«418997_j6725918786146_3_alg».proof.Proof.Gen.ReferenceIdeal.Read
import proofs.«418997_j6725918786146_3_alg».proof.Proof.Spec

noncomputable section

namespace Cert.ReferenceIdeal.RefValue

open Cert.ReferenceIdeal Cert.ReferenceIdeal.Gen Idealize.ShloMosaic Idealize.ShloMosaic.TcCoe Idealize.ShloMosaic.ValueIdx

/-- The gather's dimension numbers: operand [128, 273, 273], start indices [256, 1], result [256, 273, 273]; operand
    axis 0 is collapsed and is the one axis the start index addresses, result axes 1 and 2 are the offset axes. -/
local notation "gd" => gather_S128x273x273_S256x1_S256x273x273_12_0_n_n_0_1_1273273

/-- The gather read at a result index `j = (b, c, d)`: the operand at `(r, c, d)`, where the row `r` is the start
    index `idx[b, 0]` read as a signed integer and clamped into `[0, 127]`. On axis 0 (collapsed, slice size 1) the
    operand coordinate is the clamped start alone, the batching and offset parts being zero; on axes 1 and 2 (not
    in the start index map) the start is zero and the coordinate is the result's own on the matching offset axis. -/
theorem gather_apply {α : Type} (w : S128x273x273.Idx → α) (idx : IVec S256x1 32) (j : S256x273x273.Idx) :
    Host.gather gd w idx j
      = w (ix3 (⟨min (idx (ix2 (j 0) (0 : Fin 1))).toInt.toNat 127, by omega⟩ : Fin 128) (j 1) (j 2)) := by
  unfold Host.gather
  congr 1
  funext a
  refine Fin.ext ?_
  match a with
  | ⟨0, _⟩ =>
    show (gd).start j idx 0 + (gd).batchCoord j 0 + (gd).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gd).startIndexMap from List.mem_singleton.mpr rfl)]
    -- the start index of result index `j` sits at `[j 0, 0]` in the start indices
    have hsi : (gd).siIdx j ⟨List.idxOf (0 : Fin 3) (gd).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (gd).start j idx 1 + (gd).batchCoord j 1 + (gd).offCoord j 1 = (j 1).val
    rw [GatherDims.batchCoord_eq_zero _ _ _ List.not_mem_nil]
    have h0 : (gd).start j idx 1 = 0 := by
      unfold GatherDims.start
      rw [dif_neg (show ¬ (1 : Fin 3) ∈ (gd).startIndexMap by decide)]
    rw [h0]
    simp only [Nat.add_zero, Nat.zero_add]
    unfold GatherDims.offCoord
    rw [dif_pos (show (1 : Fin 3) ∈ (gd).sKept by decide)]
    rfl
  | ⟨2, _⟩ =>
    show (gd).start j idx 2 + (gd).batchCoord j 2 + (gd).offCoord j 2 = (j 2).val
    rw [GatherDims.batchCoord_eq_zero _ _ _ List.not_mem_nil]
    have h0 : (gd).start j idx 2 = 0 := by
      unfold GatherDims.start
      rw [dif_neg (show ¬ (2 : Fin 3) ∈ (gd).startIndexMap by decide)]
    rw [h0]
    simp only [Nat.add_zero, Nat.zero_add]
    unfold GatherDims.offCoord
    rw [dif_pos (show (2 : Fin 3) ∈ (gd).sKept by decide)]
    rfl

/-- The same, with the result index given by its coordinates. -/
theorem gather_at {α : Type} (w : S128x273x273.Idx → α) (idx : IVec S256x1 32) (b : Fin 256) (c d : Fin 273) :
    Host.gather gd w idx (ix3 b c d)
      = w (ix3 (⟨min (idx (ix2 b (0 : Fin 1))).toInt.toNat 127, by omega⟩ : Fin 128) c d) :=
  gather_apply w idx (ix3 b c d)

/-- A word that is non-negative as a signed integer is not below zero in the signed order: the comparison's bit
    is `0`. -/
theorem slt_zero_of_nonneg (v : BitVec 32) (h : 0 ≤ v.toInt) : IntOp.cmpi .slt v 0#32 = 0#1 := by
  unfold IntOp.cmpi
  have hf : v.slt 0#32 = false := by
    simp only [BitVec.slt, BitVec.toInt_zero, decide_eq_false_iff_not, not_lt]
    exact h
  show BitVec.ofBool (v.slt 0#32) = 0#1
  rw [hf]
  rfl

/-- The start indices at `[b, 0]`: the id of sample `b` itself. The broadcast to `[256, 1]` reads the selected id at
    `b`; the id is not negative, so the comparison with zero gives the bit `0` and the select keeps the id (the
    branch that adds 128 is not taken). -/
theorem ids_apply (s : IVec S256 32) (hs : ∀ j : Fin 256, 0 ≤ (s (ix1 j)).toInt) (b : Fin 256) :
    Read.val_main_v5 (F := Ideal) s (ix2 b (0 : Fin 1)) = s (ix1 b) := by
  have hi : Read.idx_main_v5 (ix2 b (0 : Fin 1)) = ix1 b := by
    funext a; refine Fin.ext ?_
    match a with
    | ⟨0, _⟩ => rfl
  rw [Read.val_main_v5_apply, hi, Read.val_main_v4_apply, Read.val_main_v1_apply, Read.val_main_v0_apply,
    Read.val_main_c_apply, slt_zero_of_nonneg _ (hs b), ValueIdx.select_zero]

/-- The term the reference's run leaves in its result buffer — the gather of the weight table at the ids (an id below
    zero first raised by 128), contracted with the input over the channel — is the specification, when no id is
    negative. -/
theorem result_eq (x : FVec Ideal S256x273x360 .f32) (s : IVec S256 32) (w : FVec Ideal S128x273x273 .f32)
    (hs : ∀ j : Fin 256, 0 ≤ (s (ix1 j)).toInt) :
    Host.dotGeneral dot_S256x273x273_S256x273x360_S256x273x360_1_1_2_2_0_0 none
        (Host.gather gather_S128x273x273_S256x1_S256x273x273_12_0_n_n_0_1_1273273 w
          (broadcastInDim S256x1 ![0] bcast_S256_S256x1_0
            (select (cmpi .slt s (broadcastInDim S256 ![] bcast_S_S256 (constantI S_ 32 0#32)))
              (addi s (broadcastInDim S256 ![] bcast_S_S256 (constantI S_ 32 128#32))) s))) x
      = Cert.Spec.G x s w := by
  funext i
  -- entry `i = (b, d, t)` of the contraction: the sum over the channel `k` of gathered[b, k, d] · x[b, k, t]
  show Read.val_main_v7 (F := Ideal) x s w i = _
  rw [Read.val_main_v7_apply]
  unfold Cert.Spec.G
  refine Finset.sum_congr rfl fun k _ => ?_
  have hl : Read.lidx_main_v7 i k = ix3 (i 0) k (i 1) := funext fun a => Fin.ext (by
    match a with
    | ⟨0, _⟩ => rfl
    | ⟨1, _⟩ => rfl
    | ⟨2, _⟩ => rfl)
  have hr : Read.ridx_main_v7 i k = ix3 (i 0) k (i 2) := funext fun a => Fin.ext (by
    match a with
    | ⟨0, _⟩ => rfl
    | ⟨1, _⟩ => rfl
    | ⟨2, _⟩ => rfl)
  rw [hl, hr]
  -- the two products have the same second factor; the first factors agree once the gathered row is the
  -- specification's row
  congr 1
  refine (gather_at w (Read.val_main_v5 (F := Ideal) s) (i 0) k (i 1)).trans ?_
  refine congrArg (fun r : Fin 128 => w (ix3 r k (i 1))) (Fin.ext ?_)
  show min (Read.val_main_v5 (F := Ideal) s (ix2 (i 0) (0 : Fin 1))).toInt.toNat 127
    = min (s (ix1 (i 0))).toInt.toNat 127
  rw [ids_apply s hs (i 0)]

end Cert.ReferenceIdeal.RefValue

end
-- ==== Proof.PreDecode.lean ====
/-
  What the precondition says of the subject ids: none is negative.
-/
import proofs.«418997_j6725918786146_3_alg».proof.Proof.Gen.Pre_finite_inputs
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

variable {F : FTy → Type} [FloatOps F]

/-- The result shape of an all-reduction has rank 0, so it has exactly one index. -/
theorem subsingleton_scalar_idx : Subsingleton S_.Idx :=
  ⟨fun _ _ => funext fun d => d.elim0⟩

/-- A word that compares signed-greater-or-equal to the zero word has a nonnegative signed value:
    the comparison is `(0 : word).toInt ≤ a.toInt`, and the zero word's signed value is 0. -/
theorem toInt_nonneg_of_sge_zero (a : BitVec 32) (h : IntOp.cmpi .sge a 0#32 = 1#1) : 0 ≤ a.toInt := by
  have h' : (0#32 : BitVec 32).toInt ≤ a.toInt := IntOp.cmpi_sge.1 h
  rwa [BitVec.toInt_zero] at h'

/-- The precondition's last conjunct, read at a sample: the subject id compares signed-greater-or-equal to zero. -/
theorem nonneg_of_pre [Cert.Pre_finite_inputs.Facts] (x : FVec F S256x273x360 .f32) (s : IVec S256 32) (w : FVec F S128x273x273 .f32)
    (h : Cert.Pre_finite_inputs.fn (F := F) x s w = fun _ => 1#1) : ∀ j : Fin 256, 0 ≤ (s (ix1 j)).toInt := by
  intro j
  -- The precondition is a rank-0 one-bit vector; read it at its only index.
  have h0 := congrFun h ValueIdx.ix0
  dsimp only [Cert.Pre_finite_inputs.fn] at h0
  -- It is (finite x ∧ finite w) ∧ (all ids ≥ 0): keep the right conjunct.
  have h1 := (IntOp.andi_eq_one.1 h0).2
  -- An all-reduction by `and` that is 1 had a 1 at every operand index, in particular at `j`.
  haveI : Subsingleton S_.Idx := subsingleton_scalar_idx
  have h2 := Host.reduce_andi_all _ _ _ _ _ h1 (ix1 j)
  -- At index `j` the compared vectors are `s j` and the broadcast constant 0.
  have h3 : IntOp.cmpi .sge (s (ix1 j)) 0#32 = 1#1 := h2
  exact toInt_nonneg_of_sge_zero _ h3

end Cert.Pre_finite_inputs.Decode

end
-- ==== Proof.lean ====
/-
  The certificate: a per-sample weight lookup and channel contraction, computed by a kernel that gathers each sample's
  weight matrix by its own copies into a four-slot ring, against its plain reference.
  Three frames: both readings of the kernel's program run to the end under the invariant "four cells at zero, padded
  weights untouched, scratch at anything", because the table of row numbers is a clamp into [0, 127]; the reference's
  is its run with the result dropped. The idealization rewrote nothing, so it preserves the kernel trivially. At the
  ideal instance both programs end at the specification's function of the arguments: the kernel because slab b of
  point t's block is the product of the row its table word names with sample 32 t + b's input, the reference because,
  no subject id being negative, its gather reads the same row.
-/
import proofs.«418997_j6725918786146_3_alg».proof.Defs
import proofs.«418997_j6725918786146_3_alg».proof.Proof.Gen.Kernel
import proofs.«418997_j6725918786146_3_alg».proof.Proof.Gen.KernelIdeal
import proofs.«418997_j6725918786146_3_alg».proof.Proof.Gen.ReferenceIdeal
import proofs.«418997_j6725918786146_3_alg».proof.Proof.Gen.ReferenceIdeal.Run
import proofs.«418997_j6725918786146_3_alg».proof.Proof.Gen.Pre_finite_inputs
import proofs.«418997_j6725918786146_3_alg».proof.Proof.BitsFrame
import proofs.«418997_j6725918786146_3_alg».proof.Proof.BitsTable
import proofs.«418997_j6725918786146_3_alg».proof.Proof.IdealFrame
import proofs.«418997_j6725918786146_3_alg».proof.Proof.IdealTable
import proofs.«418997_j6725918786146_3_alg».proof.Proof.IdealResult
import proofs.«418997_j6725918786146_3_alg».proof.Proof.RefValue
import proofs.«418997_j6725918786146_3_alg».proof.Proof.PreDecode
import Idealize.ShloMosaic.Adequacy
import Idealize.ShloMosaic.Init

noncomputable section

namespace Cert.Proof

open Idealize.ShloMosaic Idealize.SL.Sem

/-- The word-level program's frame: the table's words name rows whatever the subject ids are. -/
theorem frame_k : Cert.frame_Kernel (hKernel := Cert.Kernel.Gen.facts) (hPre_finite_inputs := Cert.Pre_finite_inputs.Gen.facts) :=
  fun m ρ _ => Cert.Kernel.Hand.frame m ρ (Cert.Kernel.Hand.tableOk m)

/-- The idealized program's frame, likewise. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ (Cert.KernelIdeal.Hand.tableOk m)

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal instance both programs end at the specification of the arguments: the kernel by its blocks, the
    reference because no subject id is negative (the precondition's last conjunct), so that its wrap of negative ids
    is idle and its gather reads the row the kernel's table names. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.kernel_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _
    (@Cert.Pre_finite_inputs.Decode.nonneg_of_pre Ideal _ Cert.Pre_finite_inputs.Gen.facts _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
